-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x64x64 : Shape := ⟨4, ![2048, 2, 64, 64]⟩
abbrev S8x2x64x64 : Shape := ⟨4, ![8, 2, 64, 64]⟩
abbrev S_ : Shape := ⟨0, ![]⟩

class Facts : Prop where
  bcast_S_S2048x2x64x64 : S_.BroadcastsInDim S2048x2x64x64 (![] : Fin 0 → Fin S2048x2x64x64.rank)
  reducesTo_S2048x2x64x64_S_d0_1_2_3 : S2048x2x64x64.ReducesTo [0, 1, 2, 3] S_
  h_S_ : 0 < S_.numel
  bcast_S_S8x2x64x64 : S_.BroadcastsInDim S8x2x64x64 (![] : Fin 0 → Fin S8x2x64x64.rank)
  reducesTo_S8x2x64x64_S_d0_1_2_3 : S8x2x64x64.ReducesTo [0, 1, 2, 3] S_

variable [Facts]

def fn {F : FTy → Type} [FloatOps F] (main_arg0 : FVec F S2048x2x64x64 .f32) (main_arg1 : FVec F S8x2x64x64 .f32) : IVec S_ 1 :=
  let main_v0 : FVec F S2048x2x64x64 .f32 := Host.absf main_arg0
  let main_cst : FVec F S_ .f32 := constant S_ .f32 0x7F800000#32
  let main_v1 : FVec F S2048x2x64x64 .f32 := broadcastInDim S2048x2x64x64 ![] bcast_S_S2048x2x64x64 main_cst
  let main_v2 : IVec S2048x2x64x64 1 := cmpf .olt main_v0 main_v1
  let main_c : IVec S_ 1 := constantI S_ 1 1#1
  let main_v3 : IVec S_ 1 := (fun x v => Host.reduce IntOp.andi x v reducesTo_S2048x2x64x64_S_d0_1_2_3 h_S_) main_v2 main_c
  let main_v4 : FVec F S8x2x64x64 .f32 := Host.absf main_arg1
  let main_cst_0 : FVec F S_ .f32 := constant S_ .f32 0x7F800000#32
  let main_v5 : FVec F S8x2x64x64 .f32 := broadcastInDim S8x2x64x64 ![] bcast_S_S8x2x64x64 main_cst_0
  let main_v6 : IVec S8x2x64x64 1 := cmpf .olt main_v4 main_v5
  let main_c_1 : IVec S_ 1 := constantI S_ 1 1#1
  let main_v7 : IVec S_ 1 := (fun x v => Host.reduce IntOp.andi x v reducesTo_S8x2x64x64_S_d0_1_2_3 h_S_) main_v6 main_c_1
  let main_v8 : IVec S_ 1 := andi main_v3 main_v7
  main_v8
-- ==== Kernel.lean ====
abbrev S2048x2x64x64 : Shape := ⟨4, ![2048, 2, 64, 64]⟩
abbrev S8x2x64x64 : Shape := ⟨4, ![8, 2, 64, 64]⟩
abbrev S8x1x64x64 : Shape := ⟨4, ![8, 1, 64, 64]⟩
abbrev S8x64x64 : Shape := ⟨3, ![8, 64, 64]⟩
abbrev S1x64x64 : Shape := ⟨3, ![1, 64, 64]⟩
abbrev S64x64 : Shape := ⟨2, ![64, 64]⟩
abbrev S64x128 : Shape := ⟨2, ![64, 128]⟩
abbrev S7x64x64 : Shape := ⟨3, ![7, 64, 64]⟩
abbrev S7x64x128 : Shape := ⟨3, ![7, 64, 128]⟩
abbrev S1x64x128 : Shape := ⟨3, ![1, 64, 128]⟩
abbrev S6x64x64 : Shape := ⟨3, ![6, 64, 64]⟩
abbrev S6x64x128 : Shape := ⟨3, ![6, 64, 128]⟩
abbrev S7x128x128 : Shape := ⟨3, ![7, 128, 128]⟩
abbrev S896x128 : Shape := ⟨2, ![896, 128]⟩
abbrev S32x2x64x64 : Shape := ⟨4, ![32, 2, 64, 64]⟩
abbrev S32x1x64x64 : Shape := ⟨4, ![32, 1, 64, 64]⟩
abbrev S32x64x64 : Shape := ⟨3, ![32, 64, 64]⟩
abbrev S32x64x128 : Shape := ⟨3, ![32, 64, 128]⟩
abbrev S32x128x128 : Shape := ⟨3, ![32, 128, 128]⟩
abbrev S32x64x896 : Shape := ⟨3, ![32, 64, 896]⟩
abbrev S2048x896 : Shape := ⟨2, ![2048, 896]⟩
abbrev S2048x128 : Shape := ⟨2, ![2048, 128]⟩

abbrev nBuf : Space → Nat
  | .hbm => 28
  | .vmem => 6
  | .smem => 0
  | _ => 0

abbrev bufTy : (tb : Table) → Fin (tcTables nBuf tb) → BufTy
  | .hbm, ⟨0, _⟩ => ⟨S2048x2x64x64, .f32⟩
  | .hbm, ⟨1, _⟩ => ⟨S8x2x64x64, .f32⟩
  | .hbm, ⟨2, _⟩ => ⟨S8x1x64x64, .f32⟩
  | .hbm, ⟨3, _⟩ => ⟨S8x64x64, .f32⟩
  | .hbm, ⟨4, _⟩ => ⟨S8x1x64x64, .f32⟩
  | .hbm, ⟨5, _⟩ => ⟨S8x64x64, .f32⟩
  | .hbm, ⟨6, _⟩ => ⟨S1x64x64, .f32⟩
  | .hbm, ⟨7, _⟩ => ⟨S64x64, .f32⟩
  | .hbm, ⟨8, _⟩ => ⟨S1x64x64, .f32⟩
  | .hbm, ⟨9, _⟩ => ⟨S64x64, .f32⟩
  | .hbm, ⟨10, _⟩ => ⟨S64x128, .f32⟩
  | .hbm, ⟨11, _⟩ => ⟨S7x64x64, .f32⟩
  | .hbm, ⟨12, _⟩ => ⟨S7x64x64, .f32⟩
  | .hbm, ⟨13, _⟩ => ⟨S7x64x128, .f32⟩
  | .hbm, ⟨14, _⟩ => ⟨S1x64x64, .f32⟩
  | .hbm, ⟨15, _⟩ => ⟨S1x64x64, .f32⟩
  | .hbm, ⟨16, _⟩ => ⟨S1x64x64, .f32⟩
  | .hbm, ⟨17, _⟩ => ⟨S1x64x128, .f32⟩
  | .hbm, ⟨18, _⟩ => ⟨S6x64x64, .f32⟩
  | .hbm, ⟨19, _⟩ => ⟨S6x64x64, .f32⟩
  | .hbm, ⟨20, _⟩ => ⟨S6x64x64, .f32⟩
  | .hbm, ⟨21, _⟩ => ⟨S6x64x64, .f32⟩
  | .hbm, ⟨22, _⟩ => ⟨S6x64x128, .f32⟩
  | .hbm, ⟨23, _⟩ => ⟨S7x64x128, .f32⟩
  | .hbm, ⟨24, _⟩ => ⟨S7x128x128, .f32⟩
  | .hbm, ⟨25, _⟩ => ⟨S7x128x128, .bf16⟩
  | .hbm, ⟨26, _⟩ => ⟨S896x128, .bf16⟩
  | .hbm, ⟨27, _⟩ => ⟨S2048x2x64x64, .f32⟩
  | .local _ .vmem, ⟨0, _⟩ => ⟨S32x2x64x64, .f32⟩
  | .local _ .vmem, ⟨1, _⟩ => ⟨S32x2x64x64, .f32⟩
  | .local _ .vmem, ⟨2, _⟩ => ⟨S896x128, .bf16⟩
  | .local _ .vmem, ⟨3, _⟩ => ⟨S64x128, .f32⟩
  | .local _ .vmem, ⟨4, _⟩ => ⟨S32x2x64x64, .f32⟩
  | .local _ .vmem, ⟨5, _⟩ => ⟨S32x2x64x64, .f32⟩
  | _, _ => ⟨S2048x2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x2x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S896x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x2x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x2x64x64_S8x1x64x64_0_0_0_0 : S8x2x64x64.Slices ![0, 0, 0, 0] S8x1x64x64
  shapeCasts_S8x1x64x64_S8x64x64 : S8x1x64x64.ShapeCasts S8x64x64
  slices_S8x2x64x64_S8x1x64x64_0_1_0_0 : S8x2x64x64.Slices ![0, 1, 0, 0] S8x1x64x64
  slices_S8x64x64_S1x64x64_0_0_0 : S8x64x64.Slices ![0, 0, 0] S1x64x64
  shapeCasts_S1x64x64_S64x64 : S1x64x64.ShapeCasts S64x64
  concatenates_S64x64_S64x64_S64x128_d1 : Shape.Concatenates [S64x64, S64x64] S64x128 1
  slices_S8x64x64_S7x64x64_1_0_0 : S8x64x64.Slices ![1, 0, 0] S7x64x64
  concatenates_S7x64x64_S7x64x64_S7x64x128_d2 : Shape.Concatenates [S7x64x64, S7x64x64] S7x64x128 2
  slices_S7x64x64_S1x64x64_0_0_0 : S7x64x64.Slices ![0, 0, 0] S1x64x64
  concatenates_S1x64x64_S1x64x64_S1x64x128_d2 : Shape.Concatenates [S1x64x64, S1x64x64] S1x64x128 2
  slices_S7x64x64_S6x64x64_1_0_0 : S7x64x64.Slices ![1, 0, 0] S6x64x64
  concatenates_S6x64x64_S6x64x64_S6x64x128_d2 : Shape.Concatenates [S6x64x64, S6x64x64] S6x64x128 2
  concatenates_S1x64x128_S6x64x128_S7x64x128_d0 : Shape.Concatenates [S1x64x128, S6x64x128] S7x64x128 0
  concatenates_S7x64x128_S7x64x128_S7x128x128_d1 : Shape.Concatenates [S7x64x128, S7x64x128] S7x128x128 1
  bitsLt_bf16_f32 : FTy.bits .bf16 < FTy.bits .f32
  shapeCasts_S7x128x128_S896x128 : S7x128x128.ShapeCasts S896x128
  inb_S32x2x64x64_S32x2x64x64_0_0_0_0 : ∀ a, (![0, 0, 0, 0] : Fin 4 → Nat) a + S32x2x64x64.size a ≤ S32x2x64x64.size a
  h_S32x2x64x64 : 0 < S32x2x64x64.numel
  slices_S32x2x64x64_o0_0_0_0_S32x1x64x64 : S32x2x64x64.Slices ![0, 0, 0, 0] S32x1x64x64
  shapeCasts_S32x1x64x64_S32x64x64 : S32x1x64x64.ShapeCasts S32x64x64
  slices_S32x2x64x64_o0_1_0_0_S32x1x64x64 : S32x2x64x64.Slices ![0, 1, 0, 0] S32x1x64x64
  concatenates_S32x64x64_S32x64x64_S32x64x128_d2 : Shape.Concatenates [S32x64x64, S32x64x64] S32x64x128 2
  concatenates_S32x64x128_S32x64x128_S32x128x128_d1 : Shape.Concatenates [S32x64x128, S32x64x128] S32x128x128 1
  slices_S32x128x128_o0_0_0_S32x64x128 : S32x128x128.Slices ![0, 0, 0] S32x64x128
  slices_S32x128x128_o0_64_0_S32x64x128 : S32x128x128.Slices ![0, 64, 0] S32x64x128
  concatenates_S32x64x128_S32x64x128_S32x64x128_S32x64x128_S32x64x128_S32x64x128_S32x64x128_S32x64x896_d2 : Shape.Concatenates [S32x64x128, S32x64x128, S32x64x128, S32x64x128, S32x64x128, S32x64x128, S32x64x128] S32x64x896 2
  shapeCasts_S32x64x896_S2048x896 : S32x64x896.ShapeCasts S2048x896
  inb_S896x128_S896x128_0_0 : ∀ a, (![0, 0] : Fin 2 → Nat) a + S896x128.size a ≤ S896x128.size a
  h_S896x128 : 0 < S896x128.numel
  shapeCasts_S896x128_S896x128 : S896x128.ShapeCasts S896x128
  shapeCasts_S2048x128_S32x64x128 : S2048x128.ShapeCasts S32x64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S1x64x128 : S64x128.ShapeCasts S1x64x128
  broadcasts_S1x64x128_S32x64x128 : S1x64x128.Broadcasts S32x64x128
  slices_S32x64x128_o0_0_0_S32x64x64 : S32x64x128.Slices ![0, 0, 0] S32x64x64
  inb_S32x2x64x64_S32x1x64x64_0_0_0_0 : ∀ a, (![0, 0, 0, 0] : Fin 4 → Nat) a + S32x1x64x64.size a ≤ S32x2x64x64.size a
  h_S32x1x64x64 : 0 < S32x1x64x64.numel
  shapeCasts_S32x64x64_S32x1x64x64 : S32x64x64.ShapeCasts S32x1x64x64
  slices_S32x64x128_o0_0_64_S32x64x64 : S32x64x128.Slices ![0, 0, 64] S32x64x64
  inb_S32x2x64x64_S32x1x64x64_0_1_0_0 : ∀ a, (![0, 1, 0, 0] : Fin 4 → Nat) a + S32x1x64x64.size a ≤ S32x2x64x64.size a
  dot_S32x64x128_S32x128x128_S32x64x128_2_1_1_2_0_0_wf : DotDims.WF S32x64x128 S32x128x128 S32x64x128 [2] [1] [1] [2] [0] [0]
  dot_S32x128x128_S32x128x128_S32x128x128_2_1_1_2_0_0_wf : DotDims.WF S32x128x128 S32x128x128 S32x128x128 [2] [1] [1] [2] [0] [0]
  dot_S2048x896_S896x128_S2048x128_1_0_0_1_n_n_wf : DotDims.WF S2048x896 S896x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2x64x64.size a ≤ S2048x2x64x64.size a
  hwx0_0 : ∀ i : grid0.Coords, EltTy.bits .f32 = 32 ∨ (Rect.block (s := S2048x2x64x64) S32x2x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S896x128.size a ≤ S896x128.size a
  hwx0_1 : ∀ i : grid0.Coords, EltTy.bits .bf16 = 32 ∨ (Rect.block (s := S896x128) S896x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x2x64x64.size a ≤ S2048x2x64x64.size a
  hwx0_3 : ∀ i : grid0.Coords, EltTy.bits .f32 = 32 ∨ (Rect.block (s := S2048x2x64x64) S32x2x64x64.size (cc0_transform_3 i) (hinb0_3 i)).WholeWords (EltTy.packing .f32)

variable [Facts₀]

def dot_S32x64x128_S32x128x128_S32x64x128_2_1_1_2_0_0 : DotDims S32x64x128 S32x128x128 S32x64x128 where
  lhsContracting := [2]
  rhsContracting := [1]
  lhsNonContracting := [1]
  rhsNonContracting := [2]
  lhsBatch := [0]
  rhsBatch := [0]
  wf := dot_S32x64x128_S32x128x128_S32x64x128_2_1_1_2_0_0_wf
def dot_S32x128x128_S32x128x128_S32x128x128_2_1_1_2_0_0 : DotDims S32x128x128 S32x128x128 S32x128x128 where
  lhsContracting := [2]
  rhsContracting := [1]
  lhsNonContracting := [1]
  rhsNonContracting := [2]
  lhsBatch := [0]
  rhsBatch := [0]
  wf := dot_S32x128x128_S32x128x128_S32x128x128_2_1_1_2_0_0_wf
def dot_S2048x896_S896x128_S2048x128_1_0_0_1_n_n : DotDims S2048x896 S896x128 S2048x128 where
  lhsContracting := [1]
  rhsContracting := [0]
  lhsNonContracting := [0]
  rhsNonContracting := [1]
  lhsBatch := []
  rhsBatch := []
  wf := dot_S2048x896_S896x128_S2048x128_1_0_0_1_n_n_wf

abbrev win0_0 : Pipeline.Window sig grid0 :=
  Pipeline.Window.ofSpec (Memref.whole main_arg0) S32x2x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S896x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S32x2x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x2x64x64 : Shape := ⟨4, ![2048, 2, 64, 64]⟩
abbrev S8x2x64x64 : Shape := ⟨4, ![8, 2, 64, 64]⟩
abbrev S2048x1x64x64 : Shape := ⟨4, ![2048, 1, 64, 64]⟩
abbrev S2048x64x64 : Shape := ⟨3, ![2048, 64, 64]⟩
abbrev S8x1x64x64 : Shape := ⟨4, ![8, 1, 64, 64]⟩
abbrev S8x64x64 : Shape := ⟨3, ![8, 64, 64]⟩
abbrev S64x64 : Shape := ⟨2, ![64, 64]⟩
abbrev S_ : Shape := ⟨0, ![]⟩
abbrev S1x64x64 : Shape := ⟨3, ![1, 64, 64]⟩

abbrev nBuf : Space → Nat
  | .hbm => 178
  | .vmem => 0
  | .smem => 0
  | _ => 0

abbrev hbmTy0_0 (i : Nat) : BufTy := match i % 128 with
  | 0 => ⟨S2048x2x64x64, .f32⟩
  | 1 => ⟨S8x2x64x64, .f32⟩
  | 2 => ⟨S2048x1x64x64, .f32⟩
  | 3 => ⟨S2048x64x64, .f32⟩
  | 4 => ⟨S2048x1x64x64, .f32⟩
  | 5 => ⟨S2048x64x64, .f32⟩
  | 6 => ⟨S8x1x64x64, .f32⟩
  | 7 => ⟨S8x64x64, .f32⟩
  | 8 => ⟨S8x1x64x64, .f32⟩
  | 9 => ⟨S8x64x64, .f32⟩
  | 10 => ⟨S64x64, .i32⟩
  | 11 => ⟨S64x64, .i32⟩
  | 12 => ⟨S_, .i32⟩
  | 13 => ⟨S64x64, .i32⟩
  | 14 => ⟨S64x64, .i32⟩
  | 15 => ⟨S64x64, .i1⟩
  | 16 => ⟨S64x64, .f32⟩
  | 17 => ⟨S1x64x64, .f32⟩
  | 18 => ⟨S64x64, .f32⟩
  | 19 => ⟨S64x64, .f32⟩
  | 20 => ⟨S1x64x64, .f32⟩
  | 21 => ⟨S64x64, .f32⟩
  | 22 => ⟨S2048x64x64, .f32⟩
  | 23 => ⟨S1x64x64, .f32⟩
  | 24 => ⟨S64x64, .f32⟩
  | 25 => ⟨S2048x64x64, .f32⟩
  | 26 => ⟨S2048x64x64, .f32⟩
  | 27 => ⟨S1x64x64, .f32⟩
  | 28 => ⟨S2048x64x64, .f32⟩
  | 29 => ⟨S2048x64x64, .f32⟩
  | 30 => ⟨S1x64x64, .f32⟩
  | 31 => ⟨S64x64, .f32⟩
  | 32 => ⟨S64x64, .f32⟩
  | 33 => ⟨S1x64x64, .f32⟩
  | 34 => ⟨S64x64, .f32⟩
  | 35 => ⟨S2048x64x64, .f32⟩
  | 36 => ⟨S1x64x64, .f32⟩
  | 37 => ⟨S64x64, .f32⟩
  | 38 => ⟨S2048x64x64, .f32⟩
  | 39 => ⟨S2048x64x64, .f32⟩
  | 40 => ⟨S1x64x64, .f32⟩
  | 41 => ⟨S2048x64x64, .f32⟩
  | 42 => ⟨S2048x64x64, .f32⟩
  | 43 => ⟨S2048x64x64, .f32⟩
  | 44 => ⟨S2048x64x64, .f32⟩
  | 45 => ⟨S2048x64x64, .f32⟩
  | 46 => ⟨S2048x64x64, .f32⟩
  | 47 => ⟨S2048x64x64, .f32⟩
  | 48 => ⟨S2048x64x64, .f32⟩
  | 49 => ⟨S1x64x64, .f32⟩
  | 50 => ⟨S64x64, .f32⟩
  | 51 => ⟨S2048x64x64, .f32⟩
  | 52 => ⟨S2048x64x64, .f32⟩
  | 53 => ⟨S1x64x64, .f32⟩
  | 54 => ⟨S64x64, .f32⟩
  | 55 => ⟨S2048x64x64, .f32⟩
  | 56 => ⟨S2048x64x64, .f32⟩
  | 57 => ⟨S1x64x64, .f32⟩
  | 58 => ⟨S64x64, .f32⟩
  | 59 => ⟨S2048x64x64, .f32⟩
  | 60 => ⟨S2048x64x64, .f32⟩
  | 61 => ⟨S1x64x64, .f32⟩
  | 62 => ⟨S64x64, .f32⟩
  | 63 => ⟨S2048x64x64, .f32⟩
  | 64 => ⟨S2048x64x64, .f32⟩
  | 65 => ⟨S2048x64x64, .f32⟩
  | 66 => ⟨S2048x64x64, .f32⟩
  | 67 => ⟨S2048x64x64, .f32⟩
  | 68 => ⟨S2048x64x64, .f32⟩
  | 69 => ⟨S2048x64x64, .f32⟩
  | 70 => ⟨S2048x64x64, .f32⟩
  | 71 => ⟨S1x64x64, .f32⟩
  | 72 => ⟨S64x64, .f32⟩
  | 73 => ⟨S2048x64x64, .f32⟩
  | 74 => ⟨S2048x64x64, .f32⟩
  | 75 => ⟨S1x64x64, .f32⟩
  | 76 => ⟨S64x64, .f32⟩
  | 77 => ⟨S2048x64x64, .f32⟩
  | 78 => ⟨S2048x64x64, .f32⟩
  | 79 => ⟨S1x64x64, .f32⟩
  | 80 => ⟨S64x64, .f32⟩
  | 81 => ⟨S2048x64x64, .f32⟩
  | 82 => ⟨S2048x64x64, .f32⟩
  | 83 => ⟨S1x64x64, .f32⟩
  | 84 => ⟨S64x64, .f32⟩
  | 85 => ⟨S2048x64x64, .f32⟩
  | 86 => ⟨S2048x64x64, .f32⟩
  | 87 => ⟨S2048x64x64, .f32⟩
  | 88 => ⟨S2048x64x64, .f32⟩
  | 89 => ⟨S2048x64x64, .f32⟩
  | 90 => ⟨S2048x64x64, .f32⟩
  | 91 => ⟨S2048x64x64, .f32⟩
  | 92 => ⟨S2048x64x64, .f32⟩
  | 93 => ⟨S1x64x64, .f32⟩
  | 94 => ⟨S64x64, .f32⟩
  | 95 => ⟨S2048x64x64, .f32⟩
  | 96 => ⟨S2048x64x64, .f32⟩
  | 97 => ⟨S1x64x64, .f32⟩
  | 98 => ⟨S64x64, .f32⟩
  | 99 => ⟨S2048x64x64, .f32⟩
  | 100 => ⟨S2048x64x64, .f32⟩
  | 101 => ⟨S1x64x64, .f32⟩
  | 102 => ⟨S64x64, .f32⟩
  | 103 => ⟨S2048x64x64, .f32⟩
  | 104 => ⟨S2048x64x64, .f32⟩
  | 105 => ⟨S1x64x64, .f32⟩
  | 106 => ⟨S64x64, .f32⟩
  | 107 => ⟨S2048x64x64, .f32⟩
  | 108 => ⟨S2048x64x64, .f32⟩
  | 109 => ⟨S2048x64x64, .f32⟩
  | 110 => ⟨S2048x64x64, .f32⟩
  | 111 => ⟨S2048x64x64, .f32⟩
  | 112 => ⟨S2048x64x64, .f32⟩
  | 113 => ⟨S2048x64x64, .f32⟩
  | 114 => ⟨S2048x64x64, .f32⟩
  | 115 => ⟨S1x64x64, .f32⟩
  | 116 => ⟨S64x64, .f32⟩
  | 117 => ⟨S2048x64x64, .f32⟩
  | 118 => ⟨S2048x64x64, .f32⟩
  | 119 => ⟨S1x64x64, .f32⟩
  | 120 => ⟨S64x64, .f32⟩
  | 121 => ⟨S2048x64x64, .f32⟩
  | 122 => ⟨S2048x64x64, .f32⟩
  | 123 => ⟨S1x64x64, .f32⟩
  | 124 => ⟨S64x64, .f32⟩
  | 125 => ⟨S2048x64x64, .f32⟩
  | 126 => ⟨S2048x64x64, .f32⟩
  | 127 => ⟨S1x64x64, .f32⟩
  | _ => ⟨S2048x2x64x64, .f32⟩

abbrev hbmTy0_1 (i : Nat) : BufTy := match i % 128 with
  | 0 => ⟨S64x64, .f32⟩
  | 1 => ⟨S2048x64x64, .f32⟩
  | 2 => ⟨S2048x64x64, .f32⟩
  | 3 => ⟨S2048x64x64, .f32⟩
  | 4 => ⟨S2048x64x64, .f32⟩
  | 5 => ⟨S2048x64x64, .f32⟩
  | 6 => ⟨S2048x64x64, .f32⟩
  | 7 => ⟨S2048x64x64, .f32⟩
  | 8 => ⟨S2048x64x64, .f32⟩
  | 9 => ⟨S1x64x64, .f32⟩
  | 10 => ⟨S64x64, .f32⟩
  | 11 => ⟨S2048x64x64, .f32⟩
  | 12 => ⟨S2048x64x64, .f32⟩
  | 13 => ⟨S1x64x64, .f32⟩
  | 14 => ⟨S64x64, .f32⟩
  | 15 => ⟨S2048x64x64, .f32⟩
  | 16 => ⟨S2048x64x64, .f32⟩
  | 17 => ⟨S1x64x64, .f32⟩
  | 18 => ⟨S64x64, .f32⟩
  | 19 => ⟨S2048x64x64, .f32⟩
  | 20 => ⟨S2048x64x64, .f32⟩
  | 21 => ⟨S1x64x64, .f32⟩
  | 22 => ⟨S64x64, .f32⟩
  | 23 => ⟨S2048x64x64, .f32⟩
  | 24 => ⟨S2048x64x64, .f32⟩
  | 25 => ⟨S2048x64x64, .f32⟩
  | 26 => ⟨S2048x64x64, .f32⟩
  | 27 => ⟨S2048x64x64, .f32⟩
  | 28 => ⟨S2048x64x64, .f32⟩
  | 29 => ⟨S2048x64x64, .f32⟩
  | 30 => ⟨S2048x64x64, .f32⟩
  | 31 => ⟨S1x64x64, .f32⟩
  | 32 => ⟨S64x64, .f32⟩
  | 33 => ⟨S2048x64x64, .f32⟩
  | 34 => ⟨S2048x64x64, .f32⟩
  | 35 => ⟨S1x64x64, .f32⟩
  | 36 => ⟨S64x64, .f32⟩
  | 37 => ⟨S2048x64x64, .f32⟩
  | 38 => ⟨S2048x64x64, .f32⟩
  | 39 => ⟨S1x64x64, .f32⟩
  | 40 => ⟨S64x64, .f32⟩
  | 41 => ⟨S2048x64x64, .f32⟩
  | 42 => ⟨S2048x64x64, .f32⟩
  | 43 => ⟨S1x64x64, .f32⟩
  | 44 => ⟨S64x64, .f32⟩
  | 45 => ⟨S2048x64x64, .f32⟩
  | 46 => ⟨S2048x64x64, .f32⟩
  | 47 => ⟨S2048x1x64x64, .f32⟩
  | 48 => ⟨S2048x1x64x64, .f32⟩
  | 49 => ⟨S2048x2x64x64, .f32⟩
  | _ => ⟨S2048x2x64x64, .f32⟩

abbrev hbmTy (i : Nat) : BufTy := match i / 128 with
  | 0 => hbmTy0_0 i
  | 1 => hbmTy0_1 i
  | _ => ⟨S2048x2x64x64, .f32⟩

abbrev bufTy : (tb : Table) → Fin (tcTables nBuf tb) → BufTy
  | .hbm, ⟨i, _⟩ => hbmTy i
  | _, _ => ⟨S2048x2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩

abbrev nD : Nat := 1
abbrev τ : Topo := Topo.v7x

variable {F : FTy → Type} [FloatOps F]

class Facts₀ : Prop where
  slices_S2048x2x64x64_S2048x1x64x64_0_0_0_0 : S2048x2x64x64.Slices ![0, 0, 0, 0] S2048x1x64x64
  shapeCasts_S2048x1x64x64_S2048x64x64 : S2048x1x64x64.ShapeCasts S2048x64x64
  slices_S2048x2x64x64_S2048x1x64x64_0_1_0_0 : S2048x2x64x64.Slices ![0, 1, 0, 0] S2048x1x64x64
  slices_S8x2x64x64_S8x1x64x64_0_0_0_0 : S8x2x64x64.Slices ![0, 0, 0, 0] S8x1x64x64
  shapeCasts_S8x1x64x64_S8x64x64 : S8x1x64x64.ShapeCasts S8x64x64
  slices_S8x2x64x64_S8x1x64x64_0_1_0_0 : S8x2x64x64.Slices ![0, 1, 0, 0] S8x1x64x64
  bcast_S_S64x64 : S_.BroadcastsInDim S64x64 (![] : Fin 0 → Fin S64x64.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  bcast_S64x64_S1x64x64_1_2 : S64x64.BroadcastsInDim S1x64x64 (![1, 2] : Fin 2 → Fin S1x64x64.rank)
  bcast_S1x64x64_S2048x64x64_0_1_2 : S1x64x64.BroadcastsInDim S2048x64x64 (![0, 1, 2] : Fin 3 → Fin S2048x64x64.rank)
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S2048x64x64_S2048x1x64x64_0_2_3 : S2048x64x64.BroadcastsInDim S2048x1x64x64 (![0, 2, 3] : Fin 3 → Fin S2048x1x64x64.rank)
  concatenates_S2048x1x64x64_S2048x1x64x64_S2048x2x64x64_d1 : Shape.Concatenates [S2048x1x64x64, S2048x1x64x64] S2048x2x64x64 1
  dot_S64x64_S64x64_S64x64_1_0_0_1_n_n_wf : DotDims.WF S64x64 S64x64 S64x64 [1] [0] [0] [1] [] []
  dot_S2048x64x64_S64x64_S2048x64x64_2_0_01_1_n_n_wf : DotDims.WF S2048x64x64 S64x64 S2048x64x64 [2] [0] [0, 1] [1] [] []
  dot_S2048x64x64_S2048x64x64_S2048x64x64_2_1_1_2_0_0_wf : DotDims.WF S2048x64x64 S2048x64x64 S2048x64x64 [2] [1] [1] [2] [0] [0]

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S2048x64x64_S64x64_S2048x64x64_2_0_01_1_n_n : DotDims S2048x64x64 S64x64 S2048x64x64 where
  lhsContracting := [2]
  rhsContracting := [0]
  lhsNonContracting := [0, 1]
  rhsNonContracting := [1]
  lhsBatch := []
  rhsBatch := []
  wf := dot_S2048x64x64_S64x64_S2048x64x64_2_0_01_1_n_n_wf
def dot_S2048x64x64_S2048x64x64_S2048x64x64_2_1_1_2_0_0 : DotDims S2048x64x64 S2048x64x64 S2048x64x64 where
  lhsContracting := [2]
  rhsContracting := [1]
  lhsNonContracting := [1]
  rhsNonContracting := [2]
  lhsBatch := [0]
  rhsBatch := [0]
  wf := dot_S2048x64x64_S2048x64x64_S2048x64x64_2_1_1_2_0_0_wf

class Facts : Prop extends Facts₀ where

variable [Facts]
-- ==== Proof.Spec.lean ====
/-
  A complex power series of matrices, written over the real and imaginary planes.

  For one batch element, x = xr + i·xi is a 64×64 complex matrix and c_0 … c_7 = cr_p + i·ci_p are eight
  coefficient matrices.  The running power is t_1 = x, t_{p+1} = t_p · x, that is
      tr_{p+1} = tr_p·xr − ti_p·xi,      ti_{p+1} = tr_p·xi + ti_p·xr,
  and the result has the planes
      res_r = 1·cr_0 + (tr_1·cr_1 − ti_1·ci_1) + Σ_{p ≥ 2} (tr_p·cr_p − ti_p·ci_p),
      res_i = 1·ci_0 + (tr_1·ci_1 + ti_1·cr_1) + Σ_{p ≥ 2} (tr_p·ci_p − ti_p·cr_p)
  (the imaginary plane takes ti_p·cr_p with a PLUS sign at p = 1 and a MINUS sign from p = 2 on).

  The same numbers can be computed in the packed form: a complex 64×64 matrix t is the real 64×128 row block
  T = [tr | ti], the operator "multiply by x on the right" is the real 128×128 matrix X = [[xr, xi], [0 − xi, xr]],
  so T_{p+1} = T_p · X; the coefficient of term p is the 128×128 block W_p = [[cr_p, ci_p], [−ci_p, ±cr_p]] (plus at
  p = 1, minus from p = 2 on), and the packed result is Σ_p T_p · W_p + [cr_0 | ci_0].  The packed form below also
  re-associates the powers: X² is formed once, and [T_1 ; T_2]·X² = [T_3 ; T_4], [T_3 ; T_4]·X² = [T_5 ; T_6], T_7 = T_6·X.

  Everything here is stated over an arbitrary scalar type with +, ·, −, unary minus, 0 and 1, so that the same text
  reads at the extended reals (where the two programs are run) and at the reals (where the two forms are equal).
-/
import Idealize.ShloMosaic.PureOps.Ideal
import Idealize.ShloMosaic.Lib.ValueIdx

open Idealize.ShloMosaic

namespace PSeries

variable {α : Type} [AddCommMonoid α] [Mul α] [Sub α] [Neg α] [One α]

/-! ## Arrays of scalars -/

/-- The product of an `r × k` and a `k × c` array: entry `(j, l)` is `Σ_t A j t · B t l`. -/
def mm {r k c : ℕ} (A : Fin r → Fin k → α) (B : Fin k → Fin c → α) : Fin r → Fin c → α :=
  fun j l => ∑ t : Fin k, A j t * B t l

/-- Two `r × 64` arrays side by side, `[A | B]`: an `r × 128` array. -/
def hcat {r : ℕ} (A B : Fin r → Fin 64 → α) : Fin r → Fin 128 → α :=
  fun j l => if h : l.val < 64 then A j ⟨l.val, h⟩ else B j ⟨l.val - 64, by have := l.isLt; omega⟩

/-- Two `64 × c` arrays stacked, `[A ; B]`: a `128 × c` array. -/
def vcat {c : ℕ} (A B : Fin 64 → Fin c → α) : Fin 128 → Fin c → α :=
  fun j l => if h : j.val < 64 then A ⟨j.val, h⟩ l else B ⟨j.val - 64, by have := j.isLt; omega⟩ l

/-- Rows 0 … 63 of a `128 × c` array. -/
def top {c : ℕ} (A : Fin 128 → Fin c → α) : Fin 64 → Fin c → α :=
  fun j l => A ⟨j.val, by have := j.isLt; omega⟩ l

/-- Rows 64 … 127 of a `128 × c` array. -/
def bot {c : ℕ} (A : Fin 128 → Fin c → α) : Fin 64 → Fin c → α :=
  fun j l => A ⟨j.val + 64, by have := j.isLt; omega⟩ l

/-- Plane `c` (0 real, 1 imaginary) of element `b` of a `[B, 2, 64, 64]` array, as a 64×64 array. -/
def plane {B : ℕ} (X : (⟨4, ![B, 2, 64, 64]⟩ : Shape).Idx → α) (b : Fin B) (c : Fin 2) : Fin 64 → Fin 64 → α :=
  fun j l => X (ValueIdx.ix4 b c j l)

/-! ## The packed form -/

section Packed

variable (xr xi : Fin 64 → Fin 64 → α)

/-- The first power, packed: `[xr | xi]`. -/
def kT1 : Fin 64 → Fin 128 → α := hcat xr xi

/-- The operator of right multiplication by `x`: `[[xr, xi], [0 − xi, xr]]`. -/
def kX : Fin 128 → Fin 128 → α := vcat (hcat xr xi) (hcat (fun j l => 0 - xi j l) xr)

/-- The second power, `T_1 · X`. -/
def kT2 : Fin 64 → Fin 128 → α := mm (kT1 xr xi) (kX xr xi)

/-- The operator of right multiplication by `x²`, `X · X`. -/
def kX2 : Fin 128 → Fin 128 → α := mm (kX xr xi) (kX xr xi)

/-- Powers three and four, stacked: `[T_1 ; T_2] · X²`. -/
def kT34 : Fin 128 → Fin 128 → α := mm (vcat (kT1 xr xi) (kT2 xr xi)) (kX2 xr xi)

/-- Powers five and six, stacked: `[T_3 ; T_4] · X²`. -/
def kT56 : Fin 128 → Fin 128 → α := mm (kT34 xr xi) (kX2 xr xi)

/-- The seventh power, `T_6 · X`. -/
def kT7 : Fin 64 → Fin 128 → α := mm (bot (kT56 xr xi)) (kX xr xi)

/-- The seven packed powers `T_1 … T_7`, numbered from 0. -/
def kT (p : Fin 7) : Fin 64 → Fin 128 → α :=
  match p with
  | ⟨0, _⟩ => kT1 xr xi
  | ⟨1, _⟩ => kT2 xr xi
  | ⟨2, _⟩ => top (kT34 xr xi)
  | ⟨3, _⟩ => bot (kT34 xr xi)
  | ⟨4, _⟩ => top (kT56 xr xi)
  | ⟨5, _⟩ => bot (kT56 xr xi)
  | ⟨_ + 6, _⟩ => kT7 xr xi

/-- The seven packed powers side by side, a `64 × 896` array: column `k` is column `k % 128` of power `k / 128`. -/
def kStack : Fin 64 → Fin 896 → α :=
  fun j k => kT xr xi ⟨k.val / 128, by have := k.isLt; omega⟩ j ⟨k.val % 128, Nat.mod_lt _ (by norm_num)⟩

/-- The packed result: the stacked powers against the stacked coefficient blocks `w`, plus the order-zero term `c0`. -/
def kPacked (w : Fin 896 → Fin 128 → α) (c0 : Fin 64 → Fin 128 → α) : Fin 64 → Fin 128 → α :=
  fun j l => mm (kStack xr xi) w j l + c0 j l

/-- The two planes of the packed result: plane `c` is columns `64·c … 64·c + 63`. -/
def kOut (w : Fin 896 → Fin 128 → α) (c0 : Fin 64 → Fin 128 → α) : Fin 2 → Fin 64 → Fin 64 → α :=
  fun c j l => kPacked xr xi w c0 j ⟨64 * c.val + l.val, by have := c.isLt; have := l.isLt; omega⟩

end Packed

/-! ## The packed coefficients -/

section Coefficients

variable (cr ci : Fin 8 → Fin 64 → Fin 64 → α)

/-- The order-zero term, packed: `[cr_0 | ci_0]`. -/
def packC0 : Fin 64 → Fin 128 → α := hcat (cr 0) (ci 0)

/-- The coefficient block of term `p + 1` (`p = 0 … 6`): `[[cr, ci], [−ci, cr]]` for the first term and
    `[[cr, ci], [−ci, −cr]]` for the later ones. -/
def packBlock (p : Fin 7) : Fin 128 → Fin 128 → α :=
  vcat (hcat (cr ⟨p.val + 1, by have := p.isLt; omega⟩) (ci ⟨p.val + 1, by have := p.isLt; omega⟩))
    (hcat (fun j l => -(ci ⟨p.val + 1, by have := p.isLt; omega⟩ j l))
      (fun j l => if p.val = 0 then cr ⟨p.val + 1, by have := p.isLt; omega⟩ j l
        else -(cr ⟨p.val + 1, by have := p.isLt; omega⟩ j l)))

/-- The seven coefficient blocks stacked, an `896 × 128` array: row `k` is row `k % 128` of block `k / 128`. -/
def packW : Fin 896 → Fin 128 → α :=
  fun k l => packBlock cr ci ⟨k.val / 128, by have := k.isLt; omega⟩ ⟨k.val % 128, Nat.mod_lt _ (by norm_num)⟩ l

end Coefficients

/-! ## The plane-by-plane form -/

section Planes

variable (xr xi : Fin 64 → Fin 64 → α) (cr ci : Fin 8 → Fin 64 → Fin 64 → α)

/-- The 64×64 unit matrix. -/
def eye : Fin 64 → Fin 64 → α := fun j k => if j.val = k.val then 1 else 0

/-- The real plane of `t · x`: `tr·xr − ti·xi`. -/
def nextR (tr ti : Fin 64 → Fin 64 → α) : Fin 64 → Fin 64 → α := fun j l => mm tr xr j l - mm ti xi j l

/-- The imaginary plane of `t · x`: `tr·xi + ti·xr`. -/
def nextI (tr ti : Fin 64 → Fin 64 → α) : Fin 64 → Fin 64 → α := fun j l => mm tr xi j l + mm ti xr j l

def tr2 := nextR xr xi xr xi
def ti2 := nextI xr xi xr xi
def tr3 := nextR xr xi (tr2 xr xi) (ti2 xr xi)
def ti3 := nextI xr xi (tr2 xr xi) (ti2 xr xi)
def tr4 := nextR xr xi (tr3 xr xi) (ti3 xr xi)
def ti4 := nextI xr xi (tr3 xr xi) (ti3 xr xi)
def tr5 := nextR xr xi (tr4 xr xi) (ti4 xr xi)
def ti5 := nextI xr xi (tr4 xr xi) (ti4 xr xi)
def tr6 := nextR xr xi (tr5 xr xi) (ti5 xr xi)
def ti6 := nextI xr xi (tr5 xr xi) (ti5 xr xi)
def tr7 := nextR xr xi (tr6 xr xi) (ti6 xr xi)
def ti7 := nextI xr xi (tr6 xr xi) (ti6 xr xi)

/-- One more term on an accumulated plane: `(acc + tr·a) − ti·b`. -/
def term (acc tr ti a b : Fin 64 → Fin 64 → α) : Fin 64 → Fin 64 → α :=
  fun j l => (acc j l + mm tr a j l) - mm ti b j l

/-- The real plane after the terms of order 0 and 1. -/
def rR1 : Fin 64 → Fin 64 → α := fun j l => mm eye (cr 0) j l + (mm xr (cr 1) j l - mm xi (ci 1) j l)

/-- The imaginary plane after the terms of order 0 and 1. -/
def rI1 : Fin 64 → Fin 64 → α := fun j l => mm eye (ci 0) j l + (mm xr (ci 1) j l + mm xi (cr 1) j l)

def rR2 := term (rR1 xr xi cr ci) (tr2 xr xi) (ti2 xr xi) (cr 2) (ci 2)
def rI2 := term (rI1 xr xi cr ci) (tr2 xr xi) (ti2 xr xi) (ci 2) (cr 2)
def rR3 := term (rR2 xr xi cr ci) (tr3 xr xi) (ti3 xr xi) (cr 3) (ci 3)
def rI3 := term (rI2 xr xi cr ci) (tr3 xr xi) (ti3 xr xi) (ci 3) (cr 3)
def rR4 := term (rR3 xr xi cr ci) (tr4 xr xi) (ti4 xr xi) (cr 4) (ci 4)
def rI4 := term (rI3 xr xi cr ci) (tr4 xr xi) (ti4 xr xi) (ci 4) (cr 4)
def rR5 := term (rR4 xr xi cr ci) (tr5 xr xi) (ti5 xr xi) (cr 5) (ci 5)
def rI5 := term (rI4 xr xi cr ci) (tr5 xr xi) (ti5 xr xi) (ci 5) (cr 5)
def rR6 := term (rR5 xr xi cr ci) (tr6 xr xi) (ti6 xr xi) (cr 6) (ci 6)
def rI6 := term (rI5 xr xi cr ci) (tr6 xr xi) (ti6 xr xi) (ci 6) (cr 6)
def rR7 := term (rR6 xr xi cr ci) (tr7 xr xi) (ti7 xr xi) (cr 7) (ci 7)
def rI7 := term (rI6 xr xi cr ci) (tr7 xr xi) (ti7 xr xi) (ci 7) (cr 7)

/-- The two planes of the series: plane 0 the real one, plane 1 the imaginary one. -/
def refOut : Fin 2 → Fin 64 → Fin 64 → α :=
  fun c => if c.val = 0 then rR7 xr xi cr ci else rI7 xr xi cr ci

end Planes

end PSeries
-- ==== Proof.KernelPayload.lean ====
/-
  The kernel body's arithmetic, read at one index: for batch row bb of the block, the value before the two stores is
  the packed result of that row's two planes.
-/
import proofs.«402419_j3925600108785_3_alg».proof.Proof.Gen.KernelIdeal.Skeleton
import proofs.«402419_j3925600108785_3_alg».proof.Proof.Spec
import Idealize.ShloMosaic.Lib.StackMember
import Idealize.ShloMosaic.Lib.IdealHost
import Idealize.ShloMosaic.Lib.ValueLayout

noncomputable section

namespace Cert.KernelIdeal.PS

open Idealize.ShloMosaic Idealize.ShloMosaic.ValueIdx Cert.KernelIdeal

open Idealize.ShloMosaic.StackMember

section Generic
variable {φ : FTy}

/-- Two 64-column batched arrays side by side, read at one batch row: the row's two arrays side by side. -/
theorem cat_cols_apply (a b : FVec Ideal S32x64x64 φ) (h : Shape.Concatenates [S32x64x64, S32x64x64] S32x64x128 2)
    (bb : Fin 32) (j : Fin 64) (l : Fin 128) :
    concatenate S32x64x128 2 [⟨S32x64x64, a⟩, ⟨S32x64x64, b⟩] h (ix3 bb j l)
      = PSeries.hcat (α := EReal) (fun j k => a (ix3 bb j k)) (fun j k => b (ix3 bb j k)) j l := by
  unfold PSeries.hcat
  by_cases hl : l.val < 64
  · rw [dif_pos hl]
    exact concatenate_pair_apply_left (2 : Fin 3) a b h (ix3 bb j l) rfl (ix3 bb j ⟨l.val, hl⟩)
      (fun c => match c with | ⟨0, _⟩ => rfl | ⟨1, _⟩ => rfl | ⟨2, _⟩ => rfl)
  · rw [dif_neg hl]
    exact concatenate_pair_apply_right (2 : Fin 3) a b h (ix3 bb j l) rfl rfl
      (ix3 bb j ⟨l.val - 64, by have := l.isLt; omega⟩)
      (fun c hc => match c, hc with
        | ⟨0, _⟩, _ => rfl
        | ⟨1, _⟩, _ => rfl
        | ⟨2, _⟩, hc => absurd rfl hc)
      (by show l.val - 64 + 64 = l.val; omega)

/-- Two 64-row batched arrays stacked, read at one batch row: the row's two arrays stacked. -/
theorem cat_rows_apply (a b : FVec Ideal S32x64x128 φ) (h : Shape.Concatenates [S32x64x128, S32x64x128] S32x128x128 1)
    (bb : Fin 32) (r : Fin 128) (l : Fin 128) :
    concatenate S32x128x128 1 [⟨S32x64x128, a⟩, ⟨S32x64x128, b⟩] h (ix3 bb r l)
      = PSeries.vcat (α := EReal) (fun j k => a (ix3 bb j k)) (fun j k => b (ix3 bb j k)) r l := by
  unfold PSeries.vcat
  by_cases hr : r.val < 64
  · rw [dif_pos hr]
    exact concatenate_pair_apply_left (1 : Fin 3) a b h (ix3 bb r l) rfl (ix3 bb ⟨r.val, hr⟩ l)
      (fun c => match c with | ⟨0, _⟩ => rfl | ⟨1, _⟩ => rfl | ⟨2, _⟩ => rfl)
  · rw [dif_neg hr]
    exact concatenate_pair_apply_right (1 : Fin 3) a b h (ix3 bb r l) rfl rfl
      (ix3 bb ⟨r.val - 64, by have := r.isLt; omega⟩ l)
      (fun c hc => match c, hc with
        | ⟨0, _⟩, _ => rfl
        | ⟨1, _⟩, hc => absurd rfl hc
        | ⟨2, _⟩, _ => rfl)
      (by show r.val - 64 + 64 = r.val; omega)

/-- The batched 64×128 by 128×128 product into a zero accumulator, read at one batch row: that row's matrix product. -/
theorem mm64_apply {φ₁ φ₂ : FTy} (A : FVec Ideal S32x64x128 φ₁) (B : FVec Ideal S32x128x128 φ₂)
    (bb : Fin 32) (j : Fin 64) (l : Fin 128) :
    matmul dot_S32x64x128_S32x128x128_S32x64x128_2_1_1_2_0_0 none A B (constant S32x64x128 .f32 0x00000000#32) (ix3 bb j l)
      = PSeries.mm (α := EReal) (fun j k => A (ix3 bb j k)) (fun k l => B (ix3 bb k l)) j l := by
  rw [matmul_zero_eq_dotGeneral]
  exact dotGeneral_stack_apply Gen.dot_S32x64x128_S32x128x128_S32x64x128_2_1_1_2_0_0_wf none A B bb j l

/-- The batched 128×128 by 128×128 product into a zero accumulator, read at one batch row. -/
theorem mm128_apply {φ₁ φ₂ : FTy} (A : FVec Ideal S32x128x128 φ₁) (B : FVec Ideal S32x128x128 φ₂)
    (bb : Fin 32) (r : Fin 128) (l : Fin 128) :
    matmul dot_S32x128x128_S32x128x128_S32x128x128_2_1_1_2_0_0 none A B (constant S32x128x128 .f32 0x00000000#32) (ix3 bb r l)
      = PSeries.mm (α := EReal) (fun j k => A (ix3 bb j k)) (fun k l => B (ix3 bb k l)) r l := by
  rw [matmul_zero_eq_dotGeneral]
  exact dotGeneral_stack_apply Gen.dot_S32x128x128_S32x128x128_S32x128x128_2_1_1_2_0_0_wf none A B bb r l

/-- Rows 0 … 63 of a batched 128-row array, read at one batch row. -/
theorem rows_top_apply (v : FVec Ideal S32x128x128 φ) (h : S32x128x128.Slices ![0, 0, 0] S32x64x128)
    (bb : Fin 32) (j : Fin 64) (l : Fin 128) :
    extractStridedSlice S32x64x128 ![0, 0, 0] v h (ix3 bb j l) = PSeries.top (α := EReal) (fun r l => v (ix3 bb r l)) j l :=
  extractStridedSlice_apply ![0, 0, 0] v h (ix3 bb j l) (ix3 bb ⟨j.val, by have := j.isLt; omega⟩ l)
    (fun c => match c with
      | ⟨0, _⟩ => by show bb.val = 0 + bb.val; omega
      | ⟨1, _⟩ => by show j.val = 0 + j.val; omega
      | ⟨2, _⟩ => by show l.val = 0 + l.val; omega)

/-- Rows 64 … 127 of a batched 128-row array, read at one batch row. -/
theorem rows_bot_apply (v : FVec Ideal S32x128x128 φ) (h : S32x128x128.Slices ![0, 64, 0] S32x64x128)
    (bb : Fin 32) (j : Fin 64) (l : Fin 128) :
    extractStridedSlice S32x64x128 ![0, 64, 0] v h (ix3 bb j l) = PSeries.bot (α := EReal) (fun r l => v (ix3 bb r l)) j l :=
  extractStridedSlice_apply ![0, 64, 0] v h (ix3 bb j l) (ix3 bb ⟨j.val + 64, by have := j.isLt; omega⟩ l)
    (fun c => match c with
      | ⟨0, _⟩ => by show bb.val = 0 + bb.val; omega
      | ⟨1, _⟩ => by show j.val + 64 = 64 + j.val; omega
      | ⟨2, _⟩ => by show l.val = 0 + l.val; omega)

/-- Plane 0 (the real one) of the loaded block, cut out and with its unit axis dropped, read at one batch row. -/
theorem plane0_apply (v0 : Vec Ideal S32x2x64x64 .f32) (hs : S32x2x64x64.Slices ![0, 0, 0, 0] S32x1x64x64)
    (hc : S32x1x64x64.ShapeCasts S32x64x64) (bb : Fin 32) (j k : Fin 64) :
    shapeCast S32x64x64 (extractStridedSlice S32x1x64x64 ![0, 0, 0, 0] v0 hs) hc (ix3 bb j k)
      = PSeries.plane (α := EReal) v0 bb 0 j k := by
  refine (shapeCast_apply _ hc (ix3 bb j k) (ix4 bb (0 : Fin 1) j k) (by
    rw [Shape.rowMajor_val_three, Shape.rowMajor_val_four]
    show ((bb.val * 1 + 0) * 64 + j.val) * 64 + k.val = (bb.val * 64 + j.val) * 64 + k.val
    omega)).trans ?_
  exact extractStridedSlice_apply ![0, 0, 0, 0] v0 hs (ix4 bb (0 : Fin 1) j k) (ix4 bb (0 : Fin 2) j k)
    (fun c => match c with
      | ⟨0, _⟩ => by show bb.val = 0 + bb.val; omega
      | ⟨1, _⟩ => by show 0 = 0 + 0; omega
      | ⟨2, _⟩ => by show j.val = 0 + j.val; omega
      | ⟨3, _⟩ => by show k.val = 0 + k.val; omega)

/-- Plane 1 (the imaginary one) of the loaded block, cut out and with its unit axis dropped, read at one batch row. -/
theorem plane1_apply (v0 : Vec Ideal S32x2x64x64 .f32) (hs : S32x2x64x64.Slices ![0, 1, 0, 0] S32x1x64x64)
    (hc : S32x1x64x64.ShapeCasts S32x64x64) (bb : Fin 32) (j k : Fin 64) :
    shapeCast S32x64x64 (extractStridedSlice S32x1x64x64 ![0, 1, 0, 0] v0 hs) hc (ix3 bb j k)
      = PSeries.plane (α := EReal) v0 bb 1 j k := by
  refine (shapeCast_apply _ hc (ix3 bb j k) (ix4 bb (0 : Fin 1) j k) (by
    rw [Shape.rowMajor_val_three, Shape.rowMajor_val_four]
    show ((bb.val * 1 + 0) * 64 + j.val) * 64 + k.val = (bb.val * 64 + j.val) * 64 + k.val
    omega)).trans ?_
  exact extractStridedSlice_apply ![0, 1, 0, 0] v0 hs (ix4 bb (0 : Fin 1) j k) (ix4 bb (1 : Fin 2) j k)
    (fun c => match c with
      | ⟨0, _⟩ => by show bb.val = 0 + bb.val; omega
      | ⟨1, _⟩ => by show 1 = 1 + 0; omega
      | ⟨2, _⟩ => by show j.val = 0 + j.val; omega
      | ⟨3, _⟩ => by show k.val = 0 + k.val; omega)

/-- The dimension numbers of the last product are those of the plain 2048×896 by 896×128 product. -/
theorem dot_plain_eq : dot_S2048x896_S896x128_S2048x128_1_0_0_1_n_n = DotDims.plain 2048 896 128 := rfl

/-- The last product against the coefficient stack, the reshape back to batch rows and the order-zero term,
    read at one batch row: row `64·bb + j` of the flattened stack is row `j` of batch row `bb`. -/
theorem tail_apply (S : FVec Ideal S32x64x896 .bf16) (v29 : Vec Ideal S896x128 .bf16) (v33 : Vec Ideal S64x128 .f32)
    (hc1 : S32x64x896.ShapeCasts S2048x896) (hc2 : S896x128.ShapeCasts S896x128) (hc3 : S2048x128.ShapeCasts S32x64x128)
    (hc4 : S64x128.ShapeCasts S64x128) (hc5 : S64x128.ShapeCasts S1x64x128) (hb : S1x64x128.Broadcasts S32x64x128)
    (bb : Fin 32) (j : Fin 64) (L : Fin 128) :
    addf (shapeCast S32x64x128
          (matmul dot_S2048x896_S896x128_S2048x128_1_0_0_1_n_n none (shapeCast S2048x896 S hc1)
            (shapeCast S896x128 v29 hc2 : FVec Ideal S896x128 .bf16) (constant S2048x128 .f32 0x00000000#32)) hc3)
        (broadcastTo S32x64x128 (shapeCast S1x64x128 (shapeCast S64x128 v33 hc4 : FVec Ideal S64x128 .f32) hc5) hb)
        (ix3 bb j L)
      = PSeries.mm (α := EReal) (fun j k => S (ix3 bb j k)) (fun k l => v29 (ix2 k l)) j L + v33 (ix2 j L) := by
  have hr : 64 * bb.val + j.val < 2048 := by have := bb.isLt; have := j.isLt; omega
  rw [addf_apply]
  refine congrArg₂ (· + ·) ?_ ?_
  · refine (shapeCast_apply _ hc3 (ix3 bb j L) (ix2 (⟨64 * bb.val + j.val, hr⟩ : Fin 2048) L) (by
      rw [Shape.rowMajor_val_two, Shape.rowMajor_val_three]
      show (64 * bb.val + j.val) * 128 + L.val = (bb.val * 64 + j.val) * 128 + L.val
      omega)).trans ?_
    rw [matmul_zero_eq_dotGeneral, dot_plain_eq]
    refine (dotGeneral_plain_apply none _ _ (⟨64 * bb.val + j.val, hr⟩ : Fin 2048) L).trans ?_
    unfold PSeries.mm
    refine Finset.sum_congr rfl fun c _ => ?_
    refine congrArg₂ (· * ·) ?_ ?_
    · exact shapeCast_apply S hc1 (ix2 (⟨64 * bb.val + j.val, hr⟩ : Fin 2048) c) (ix3 bb j c) (by
        rw [Shape.rowMajor_val_two, Shape.rowMajor_val_three]
        show (bb.val * 64 + j.val) * 896 + c.val = (64 * bb.val + j.val) * 896 + c.val
        omega)
    · rw [shapeCast_self]
  · refine (broadcastTo_apply _ hb (ix3 bb j L) (ix3 (0 : Fin 1) j L) (fun a => match a with
      | ⟨0, _⟩ => by show (0 : ℕ) = if (1 : ℕ) = 1 then 0 else _; rw [if_pos rfl]
      | ⟨1, _⟩ => by show j.val = if (64 : ℕ) = 1 then 0 else j.val; rw [if_neg (by decide)]
      | ⟨2, _⟩ => by show L.val = if (128 : ℕ) = 1 then 0 else L.val; rw [if_neg (by decide)])).trans ?_
    refine (shapeCast_apply _ hc5 (ix3 (0 : Fin 1) j L) (ix2 j L) (by
      rw [Shape.rowMajor_val_two, Shape.rowMajor_val_three]
      show j.val * 128 + L.val = (0 * 64 + j.val) * 128 + L.val
      omega)).trans ?_
    rw [shapeCast_self]

/-- A concatenation of 128-column batched arrays along the columns, read at column `k` of one batch row, when `n` pieces
    of 128 columns come before the piece `p` that column `k` falls in: column `k % 128` of `p`. -/
theorem piece_apply (xs : List ((s : Shape) × (s.Idx → EReal))) (h : Shape.Concatenates (xs.map (·.1)) S32x64x896 2)
    (bb : Fin 32) (j : Fin 64) (k : Fin 896) (n : Nat) (hn : n < xs.length) (p : FVec Ideal S32x64x128 φ)
    (hp : xs[n] = ⟨S32x64x128, p⟩)
    (hpre : (((xs.take n).map (·.1)).map fun s =>
      if h : s.rank = S32x64x896.rank then s.size ((2 : Fin S32x64x896.rank).cast h.symm) else 0).sum = 128 * n)
    (hq : k.val / 128 = n) :
    concatenate S32x64x896 2 xs h (ix3 bb j k) = p (ix3 bb j ⟨k.val % 128, Nat.mod_lt _ (by norm_num)⟩) :=
  concatenate_apply_piece (2 : Fin 3) xs h (ix3 bb j k) n hn S32x64x128 p hp rfl (128 * n) hpre
    (ix3 bb j ⟨k.val % 128, Nat.mod_lt _ (by norm_num)⟩)
    (fun c hc => match c, hc with
      | ⟨0, _⟩, _ => rfl
      | ⟨1, _⟩, _ => rfl
      | ⟨2, _⟩, hc => absurd rfl hc)
    (by show 128 * n + k.val % 128 = k.val; omega)

/-- Seven 128-column batched arrays side by side, read at one batch row: column `k` is column `k % 128` of piece
    `k / 128`. The pieces' rows are given as a family `T` of 64×128 arrays. -/
theorem stack7_apply (p0 p1 p2 p3 p4 p5 p6 : FVec Ideal S32x64x128 φ)
    (h : Shape.Concatenates [S32x64x128, S32x64x128, S32x64x128, S32x64x128, S32x64x128, S32x64x128, S32x64x128] S32x64x896 2)
    (bb : Fin 32) (T : Fin 7 → Fin 64 → Fin 128 → EReal)
    (h0 : ∀ j l, p0 (ix3 bb j l) = T ⟨0, by omega⟩ j l) (h1 : ∀ j l, p1 (ix3 bb j l) = T ⟨1, by omega⟩ j l)
    (h2 : ∀ j l, p2 (ix3 bb j l) = T ⟨2, by omega⟩ j l) (h3 : ∀ j l, p3 (ix3 bb j l) = T ⟨3, by omega⟩ j l)
    (h4 : ∀ j l, p4 (ix3 bb j l) = T ⟨4, by omega⟩ j l) (h5 : ∀ j l, p5 (ix3 bb j l) = T ⟨5, by omega⟩ j l)
    (h6 : ∀ j l, p6 (ix3 bb j l) = T ⟨6, by omega⟩ j l) (j : Fin 64) (k : Fin 896) :
    concatenate S32x64x896 2 [⟨S32x64x128, p0⟩, ⟨S32x64x128, p1⟩, ⟨S32x64x128, p2⟩, ⟨S32x64x128, p3⟩, ⟨S32x64x128, p4⟩,
        ⟨S32x64x128, p5⟩, ⟨S32x64x128, p6⟩] h (ix3 bb j k)
      = T ⟨k.val / 128, by have := k.isLt; omega⟩ j ⟨k.val % 128, Nat.mod_lt _ (by norm_num)⟩ := by
  have hk := k.isLt
  have hcases : k.val / 128 = 0 ∨ k.val / 128 = 1 ∨ k.val / 128 = 2 ∨ k.val / 128 = 3 ∨ k.val / 128 = 4
      ∨ k.val / 128 = 5 ∨ k.val / 128 = 6 := by omega
  rcases hcases with hv | hv | hv | hv | hv | hv | hv
  · exact (piece_apply _ _ bb j k 0 (by simp) p0 rfl rfl hv).trans
      ((h0 j _).trans (congrArg (fun q => T q j _) (Fin.ext hv.symm)))
  · exact (piece_apply _ _ bb j k 1 (by simp) p1 rfl rfl hv).trans
      ((h1 j _).trans (congrArg (fun q => T q j _) (Fin.ext hv.symm)))
  · exact (piece_apply _ _ bb j k 2 (by simp) p2 rfl rfl hv).trans
      ((h2 j _).trans (congrArg (fun q => T q j _) (Fin.ext hv.symm)))
  · exact (piece_apply _ _ bb j k 3 (by simp) p3 rfl rfl hv).trans
      ((h3 j _).trans (congrArg (fun q => T q j _) (Fin.ext hv.symm)))
  · exact (piece_apply _ _ bb j k 4 (by simp) p4 rfl rfl hv).trans
      ((h4 j _).trans (congrArg (fun q => T q j _) (Fin.ext hv.symm)))
  · exact (piece_apply _ _ bb j k 5 (by simp) p5 rfl rfl hv).trans
      ((h5 j _).trans (congrArg (fun q => T q j _) (Fin.ext hv.symm)))
  · exact (piece_apply _ _ bb j k 6 (by simp) p6 rfl rfl hv).trans
      ((h6 j _).trans (congrArg (fun q => T q j _) (Fin.ext hv.symm)))

end Generic

/-! ## The body's intermediate values, named

The body's value is restated over named intermediate values (the same operations in the same order), and each named
value is read at one batch row. -/

section Named
variable (v0 : Vec Ideal S32x2x64x64 .f32)

/-- The block's real planes, one per batch row. -/
def bXr : FVec Ideal S32x64x64 .bf16 :=
  truncf .bf16 (shapeCast S32x64x64 (extractStridedSlice S32x1x64x64 ![0, 0, 0, 0] v0
    Gen.slices_S32x2x64x64_o0_0_0_0_S32x1x64x64) Gen.shapeCasts_S32x1x64x64_S32x64x64) Gen.bitsLt_bf16_f32

/-- The block's imaginary planes. -/
def bXi : FVec Ideal S32x64x64 .bf16 :=
  truncf .bf16 (shapeCast S32x64x64 (extractStridedSlice S32x1x64x64 ![0, 1, 0, 0] v0
    Gen.slices_S32x2x64x64_o0_1_0_0_S32x1x64x64) Gen.shapeCasts_S32x1x64x64_S32x64x64) Gen.bitsLt_bf16_f32

/-- The first powers, packed: `[xr | xi]` per batch row. -/
def bT1 : FVec Ideal S32x64x128 .bf16 :=
  concatenate S32x64x128 2 [⟨S32x64x64, bXr v0⟩, ⟨S32x64x64, bXi v0⟩] Gen.concatenates_S32x64x64_S32x64x64_S32x64x128_d2

/-- The operators of right multiplication: `[[xr, xi], [0 − xi, xr]]` per batch row. -/
def bX : FVec Ideal S32x128x128 .bf16 :=
  concatenate S32x128x128 1 [⟨S32x64x128, bT1 v0⟩,
    ⟨S32x64x128, concatenate S32x64x128 2
      [⟨S32x64x64, subf (broadcast S32x64x64 (Scalar.ofBits .bf16 0x0000#16)) (bXi v0)⟩, ⟨S32x64x64, bXr v0⟩]
      Gen.concatenates_S32x64x64_S32x64x64_S32x64x128_d2⟩]
    Gen.concatenates_S32x64x128_S32x64x128_S32x128x128_d1

/-- The second powers, `T₁ · X`. -/
def bT2 : FVec Ideal S32x64x128 .bf16 :=
  truncf .bf16 (matmul dot_S32x64x128_S32x128x128_S32x64x128_2_1_1_2_0_0 none (bT1 v0) (bX v0)
    (constant S32x64x128 .f32 0x00000000#32)) Gen.bitsLt_bf16_f32

/-- The squared operators, `X · X`. -/
def bX2 : FVec Ideal S32x128x128 .bf16 :=
  truncf .bf16 (matmul dot_S32x128x128_S32x128x128_S32x128x128_2_1_1_2_0_0 none (bX v0) (bX v0)
    (constant S32x128x128 .f32 0x00000000#32)) Gen.bitsLt_bf16_f32

/-- Powers three and four stacked, `[T₁ ; T₂] · X²`. -/
def bT34 : FVec Ideal S32x128x128 .bf16 :=
  truncf .bf16 (matmul dot_S32x128x128_S32x128x128_S32x128x128_2_1_1_2_0_0 none
    (concatenate S32x128x128 1 [⟨S32x64x128, bT1 v0⟩, ⟨S32x64x128, bT2 v0⟩]
      Gen.concatenates_S32x64x128_S32x64x128_S32x128x128_d1)
    (bX2 v0) (constant S32x128x128 .f32 0x00000000#32)) Gen.bitsLt_bf16_f32

/-- Powers five and six stacked, `[T₃ ; T₄] · X²`. -/
def bT56 : FVec Ideal S32x128x128 .bf16 :=
  truncf .bf16 (matmul dot_S32x128x128_S32x128x128_S32x128x128_2_1_1_2_0_0 none (bT34 v0) (bX2 v0)
    (constant S32x128x128 .f32 0x00000000#32)) Gen.bitsLt_bf16_f32

/-- The seventh powers, `T₆ · X`. -/
def bT7 : FVec Ideal S32x64x128 .bf16 :=
  truncf .bf16 (matmul dot_S32x64x128_S32x128x128_S32x64x128_2_1_1_2_0_0 none
    (extractStridedSlice S32x64x128 ![0, 64, 0] (bT56 v0) Gen.slices_S32x128x128_o0_64_0_S32x64x128) (bX v0)
    (constant S32x64x128 .f32 0x00000000#32)) Gen.bitsLt_bf16_f32

/-- The seven powers side by side. -/
def bStack : FVec Ideal S32x64x896 .bf16 :=
  concatenate S32x64x896 2 [⟨S32x64x128, bT1 v0⟩, ⟨S32x64x128, bT2 v0⟩,
    ⟨S32x64x128, extractStridedSlice S32x64x128 ![0, 0, 0] (bT34 v0) Gen.slices_S32x128x128_o0_0_0_S32x64x128⟩,
    ⟨S32x64x128, extractStridedSlice S32x64x128 ![0, 64, 0] (bT34 v0) Gen.slices_S32x128x128_o0_64_0_S32x64x128⟩,
    ⟨S32x64x128, extractStridedSlice S32x64x128 ![0, 0, 0] (bT56 v0) Gen.slices_S32x128x128_o0_0_0_S32x64x128⟩,
    ⟨S32x64x128, extractStridedSlice S32x64x128 ![0, 64, 0] (bT56 v0) Gen.slices_S32x128x128_o0_64_0_S32x64x128⟩,
    ⟨S32x64x128, bT7 v0⟩]
    Gen.concatenates_S32x64x128_S32x64x128_S32x64x128_S32x64x128_S32x64x128_S32x64x128_S32x64x128_S32x64x896_d2

/-- The body's value over the named stack of powers: the same operations in the same order. -/
theorem pay3_eq_named (v29 : Vec Ideal S896x128 .bf16) (v33 : Vec Ideal S64x128 .f32) :
    Gen.k0_pay3 (F := Ideal) v0 v29 v33
      = addf (shapeCast S32x64x128
          (matmul dot_S2048x896_S896x128_S2048x128_1_0_0_1_n_n none
            (shapeCast S2048x896 (bStack v0) Gen.shapeCasts_S32x64x896_S2048x896)
            (shapeCast S896x128 v29 Gen.shapeCasts_S896x128_S896x128 : FVec Ideal S896x128 .bf16)
            (constant S2048x128 .f32 0x00000000#32)) Gen.shapeCasts_S2048x128_S32x64x128)
        (broadcastTo S32x64x128 (shapeCast S1x64x128
          (shapeCast S64x128 v33 Gen.shapeCasts_S64x128_S64x128 : FVec Ideal S64x128 .f32)
          Gen.shapeCasts_S64x128_S1x64x128) Gen.broadcasts_S1x64x128_S32x64x128) := rfl

end Named

section Reads
variable (v0 : Vec Ideal S32x2x64x64 .f32) (bb : Fin 32)

/-- The real planes at batch row `bb`: the block's plane 0 there. -/
theorem bXr_at : (fun j k => bXr v0 (ix3 bb j k)) = PSeries.plane (α := EReal) v0 bb 0 := by
  funext j k
  unfold bXr
  exact (truncf_apply (φ := .f32) (ψ := .bf16) _ Gen.bitsLt_bf16_f32 _).trans (plane0_apply v0 _ _ bb j k)

/-- The imaginary planes at batch row `bb`: the block's plane 1 there. -/
theorem bXi_at : (fun j k => bXi v0 (ix3 bb j k)) = PSeries.plane (α := EReal) v0 bb 1 := by
  funext j k
  unfold bXi
  exact (truncf_apply (φ := .f32) (ψ := .bf16) _ Gen.bitsLt_bf16_f32 _).trans (plane1_apply v0 _ _ bb j k)

/-- The first powers at batch row `bb`. -/
theorem bT1_at : (fun j l => bT1 v0 (ix3 bb j l))
    = PSeries.kT1 (α := EReal) (PSeries.plane (α := EReal) v0 bb 0) (PSeries.plane (α := EReal) v0 bb 1) := by
  funext j l
  unfold bT1 PSeries.kT1
  exact (cat_cols_apply _ _ _ bb j l).trans
    (congrArg₂ (fun f g => PSeries.hcat (α := EReal) f g j l) (bXr_at v0 bb) (bXi_at v0 bb))

/-- The operators at batch row `bb`. -/
theorem bX_at : (fun r l => bX v0 (ix3 bb r l))
    = PSeries.kX (α := EReal) (PSeries.plane (α := EReal) v0 bb 0) (PSeries.plane (α := EReal) v0 bb 1) := by
  funext r l
  unfold bX PSeries.kX
  refine (cat_rows_apply _ _ _ bb r l).trans ?_
  refine congrArg₂ (fun f g => PSeries.vcat (α := EReal) f g r l) (bT1_at v0 bb) ?_
  funext j c
  refine (cat_cols_apply _ _ _ bb j c).trans ?_
  refine congrArg₂ (fun f g => PSeries.hcat (α := EReal) f g j c) ?_ (bXr_at v0 bb)
  funext a b
  show Ideal.ofBits .bf16 0x0000#16 - bXi v0 (ix3 bb a b) = 0 - PSeries.plane (α := EReal) v0 bb 1 a b
  rw [Ideal.ofBits_zero_bf16]
  exact congrArg (fun t => (0 : EReal) - t) (congrFun (congrFun (bXi_at v0 bb) a) b)

/-- The second powers at batch row `bb`. -/
theorem bT2_at : (fun j l => bT2 v0 (ix3 bb j l))
    = PSeries.kT2 (α := EReal) (PSeries.plane (α := EReal) v0 bb 0) (PSeries.plane (α := EReal) v0 bb 1) := by
  funext j l
  unfold bT2 PSeries.kT2
  exact (truncf_apply (φ := .f32) (ψ := .bf16) _ Gen.bitsLt_bf16_f32 _).trans ((mm64_apply _ _ bb j l).trans
    (congrArg₂ (fun A B => PSeries.mm (α := EReal) A B j l) (bT1_at v0 bb) (bX_at v0 bb)))

/-- The squared operators at batch row `bb`. -/
theorem bX2_at : (fun r l => bX2 v0 (ix3 bb r l))
    = PSeries.kX2 (α := EReal) (PSeries.plane (α := EReal) v0 bb 0) (PSeries.plane (α := EReal) v0 bb 1) := by
  funext r l
  unfold bX2 PSeries.kX2
  exact (truncf_apply (φ := .f32) (ψ := .bf16) _ Gen.bitsLt_bf16_f32 _).trans ((mm128_apply _ _ bb r l).trans
    (congrArg₂ (fun A B => PSeries.mm (α := EReal) A B r l) (bX_at v0 bb) (bX_at v0 bb)))

/-- Powers three and four at batch row `bb`. -/
theorem bT34_at : (fun r l => bT34 v0 (ix3 bb r l))
    = PSeries.kT34 (α := EReal) (PSeries.plane (α := EReal) v0 bb 0) (PSeries.plane (α := EReal) v0 bb 1) := by
  funext r l
  unfold bT34 PSeries.kT34
  refine (truncf_apply (φ := .f32) (ψ := .bf16) _ Gen.bitsLt_bf16_f32 _).trans ((mm128_apply _ _ bb r l).trans
    (congrArg₂ (fun A B => PSeries.mm (α := EReal) A B r l) ?_ (bX2_at v0 bb)))
  funext a c
  exact (cat_rows_apply _ _ _ bb a c).trans
    (congrArg₂ (fun f g => PSeries.vcat (α := EReal) f g a c) (bT1_at v0 bb) (bT2_at v0 bb))

/-- Powers five and six at batch row `bb`. -/
theorem bT56_at : (fun r l => bT56 v0 (ix3 bb r l))
    = PSeries.kT56 (α := EReal) (PSeries.plane (α := EReal) v0 bb 0) (PSeries.plane (α := EReal) v0 bb 1) := by
  funext r l
  unfold bT56 PSeries.kT56
  exact (truncf_apply (φ := .f32) (ψ := .bf16) _ Gen.bitsLt_bf16_f32 _).trans ((mm128_apply _ _ bb r l).trans
    (congrArg₂ (fun A B => PSeries.mm (α := EReal) A B r l) (bT34_at v0 bb) (bX2_at v0 bb)))

/-- The seventh powers at batch row `bb`. -/
theorem bT7_at : (fun j l => bT7 v0 (ix3 bb j l))
    = PSeries.kT7 (α := EReal) (PSeries.plane (α := EReal) v0 bb 0) (PSeries.plane (α := EReal) v0 bb 1) := by
  funext j l
  unfold bT7 PSeries.kT7
  refine (truncf_apply (φ := .f32) (ψ := .bf16) _ Gen.bitsLt_bf16_f32 _).trans ((mm64_apply _ _ bb j l).trans
    (congrArg₂ (fun A B => PSeries.mm (α := EReal) A B j l) ?_ (bX_at v0 bb)))
  funext a c
  exact (rows_bot_apply _ _ bb a c).trans
    (congrArg (fun A => PSeries.bot (α := EReal) A a c) (bT56_at v0 bb))

/-- The seven powers side by side at batch row `bb`. -/
theorem bStack_at : (fun j k => bStack v0 (ix3 bb j k))
    = PSeries.kStack (α := EReal) (PSeries.plane (α := EReal) v0 bb 0) (PSeries.plane (α := EReal) v0 bb 1) := by
  funext j k
  unfold bStack PSeries.kStack
  refine stack7_apply _ _ _ _ _ _ _ _ bb
    (PSeries.kT (α := EReal) (PSeries.plane (α := EReal) v0 bb 0) (PSeries.plane (α := EReal) v0 bb 1))
    ?_ ?_ ?_ ?_ ?_ ?_ ?_ j k
  · exact fun a c => congrFun (congrFun (bT1_at v0 bb) a) c
  · exact fun a c => congrFun (congrFun (bT2_at v0 bb) a) c
  · exact fun a c => (rows_top_apply _ _ bb a c).trans (congrArg (fun A => PSeries.top (α := EReal) A a c) (bT34_at v0 bb))
  · exact fun a c => (rows_bot_apply _ _ bb a c).trans (congrArg (fun A => PSeries.bot (α := EReal) A a c) (bT34_at v0 bb))
  · exact fun a c => (rows_top_apply _ _ bb a c).trans (congrArg (fun A => PSeries.top (α := EReal) A a c) (bT56_at v0 bb))
  · exact fun a c => (rows_bot_apply _ _ bb a c).trans (congrArg (fun A => PSeries.bot (α := EReal) A a c) (bT56_at v0 bb))
  · exact fun a c => congrFun (congrFun (bT7_at v0 bb) a) c

end Reads

/-- The body's value before its stores, at batch row `bb`, row `j`, packed column `L`. -/
theorem pay3_apply (v0 : Vec Ideal S32x2x64x64 .f32) (v29 : Vec Ideal S896x128 .bf16) (v33 : Vec Ideal S64x128 .f32)
    (bb : Fin 32) (j : Fin 64) (L : Fin 128) :
    Gen.k0_pay3 (F := Ideal) v0 v29 v33 (ix3 bb j L)
      = PSeries.kPacked (α := EReal) (PSeries.plane (α := EReal) v0 bb 0) (PSeries.plane (α := EReal) v0 bb 1)
          (fun k l => v29 (ix2 k l)) (fun r l => v33 (ix2 r l)) j L := by
  rw [pay3_eq_named]
  refine (tail_apply (bStack v0) v29 v33 _ _ _ _ _ _ bb j L).trans ?_
  unfold PSeries.kPacked
  exact congrArg (fun A => PSeries.mm (α := EReal) A (fun k l => v29 (ix2 k l)) j L + v33 (ix2 j L)) (bStack_at v0 bb)

end Cert.KernelIdeal.PS

end
-- ==== Proof.HostPack.lean ====
/-
  What the host operations before the launch leave in the two packed coefficient arrays.
-/
import proofs.«402419_j3925600108785_3_alg».proof.Proof.Gen.KernelIdeal.Frame
import proofs.«402419_j3925600108785_3_alg».proof.Proof.Spec
import Idealize.ShloMosaic.Lib.ValueLayout
import Idealize.ShloMosaic.Lib.IdealHost

noncomputable section

namespace Cert.KernelIdeal.PS

open Idealize.ShloMosaic Idealize.ShloMosaic.TcCoe Idealize.ShloMosaic.ValueIdx Idealize.SL.Sem Cert.KernelIdeal

/-! ## Two arrays side by side or stacked, read at an index given by coordinates -/

section Cat
variable {α : Type}

/-- Two matrices side by side: a column below the first width reads the first. -/
theorem cat2_axis1_left {n0 a b n : ℕ} (X : (⟨2, ![n0, a]⟩ : Shape).Idx → α) (Y : (⟨2, ![n0, b]⟩ : Shape).Idx → α)
    (h : Shape.Concatenates [⟨2, ![n0, a]⟩, ⟨2, ![n0, b]⟩] ⟨2, ![n0, n]⟩ 1) (x : Fin n0) (l : Fin n) (hl : l.val < a) :
    concatenate ⟨2, ![n0, n]⟩ 1 [⟨⟨2, ![n0, a]⟩, X⟩, ⟨⟨2, ![n0, b]⟩, Y⟩] h (ix2 x l) = X (ix2 x ⟨l.val, hl⟩) :=
  concatenate_pair_apply_left 1 X Y h _ rfl _ (fun d => match d with | ⟨0, _⟩ => rfl | ⟨1, _⟩ => rfl)

/-- Two matrices side by side: a column at or past the first width reads the second, the width less. -/
theorem cat2_axis1_right {n0 a b n : ℕ} (X : (⟨2, ![n0, a]⟩ : Shape).Idx → α) (Y : (⟨2, ![n0, b]⟩ : Shape).Idx → α)
    (h : Shape.Concatenates [⟨2, ![n0, a]⟩, ⟨2, ![n0, b]⟩] ⟨2, ![n0, n]⟩ 1) (x : Fin n0) (l : Fin n) (l' : Fin b)
    (hl : l'.val + a = l.val) :
    concatenate ⟨2, ![n0, n]⟩ 1 [⟨⟨2, ![n0, a]⟩, X⟩, ⟨⟨2, ![n0, b]⟩, Y⟩] h (ix2 x l) = Y (ix2 x l') :=
  concatenate_pair_apply_right 1 X Y h _ rfl rfl _
    (fun d hd => match d, hd with | ⟨0, _⟩, _ => rfl | ⟨1, _⟩, hd => absurd rfl hd) hl

/-- Two stacks of matrices joined along the columns: a column below the first width reads the first. -/
theorem cat3_axis2_left {n0 n1 a b n : ℕ} (X : (⟨3, ![n0, n1, a]⟩ : Shape).Idx → α) (Y : (⟨3, ![n0, n1, b]⟩ : Shape).Idx → α)
    (h : Shape.Concatenates [⟨3, ![n0, n1, a]⟩, ⟨3, ![n0, n1, b]⟩] ⟨3, ![n0, n1, n]⟩ 2) (x : Fin n0) (y : Fin n1) (l : Fin n)
    (hl : l.val < a) :
    concatenate ⟨3, ![n0, n1, n]⟩ 2 [⟨⟨3, ![n0, n1, a]⟩, X⟩, ⟨⟨3, ![n0, n1, b]⟩, Y⟩] h (ix3 x y l) = X (ix3 x y ⟨l.val, hl⟩) :=
  concatenate_pair_apply_left 2 X Y h _ rfl _ (fun d => match d with | ⟨0, _⟩ => rfl | ⟨1, _⟩ => rfl | ⟨2, _⟩ => rfl)

/-- Two stacks of matrices joined along the columns: a column at or past the first width reads the second. -/
theorem cat3_axis2_right {n0 n1 a b n : ℕ} (X : (⟨3, ![n0, n1, a]⟩ : Shape).Idx → α) (Y : (⟨3, ![n0, n1, b]⟩ : Shape).Idx → α)
    (h : Shape.Concatenates [⟨3, ![n0, n1, a]⟩, ⟨3, ![n0, n1, b]⟩] ⟨3, ![n0, n1, n]⟩ 2) (x : Fin n0) (y : Fin n1) (l : Fin n)
    (l' : Fin b) (hl : l'.val + a = l.val) :
    concatenate ⟨3, ![n0, n1, n]⟩ 2 [⟨⟨3, ![n0, n1, a]⟩, X⟩, ⟨⟨3, ![n0, n1, b]⟩, Y⟩] h (ix3 x y l) = Y (ix3 x y l') :=
  concatenate_pair_apply_right 2 X Y h _ rfl rfl _
    (fun d hd => match d, hd with | ⟨0, _⟩, _ => rfl | ⟨1, _⟩, _ => rfl | ⟨2, _⟩, hd => absurd rfl hd) hl

/-- Two stacks of matrices joined along the rows: a row below the first height reads the first. -/
theorem cat3_axis1_left {n0 a b n n2 : ℕ} (X : (⟨3, ![n0, a, n2]⟩ : Shape).Idx → α) (Y : (⟨3, ![n0, b, n2]⟩ : Shape).Idx → α)
    (h : Shape.Concatenates [⟨3, ![n0, a, n2]⟩, ⟨3, ![n0, b, n2]⟩] ⟨3, ![n0, n, n2]⟩ 1) (x : Fin n0) (r : Fin n) (z : Fin n2)
    (hr : r.val < a) :
    concatenate ⟨3, ![n0, n, n2]⟩ 1 [⟨⟨3, ![n0, a, n2]⟩, X⟩, ⟨⟨3, ![n0, b, n2]⟩, Y⟩] h (ix3 x r z) = X (ix3 x ⟨r.val, hr⟩ z) :=
  concatenate_pair_apply_left 1 X Y h _ rfl _ (fun d => match d with | ⟨0, _⟩ => rfl | ⟨1, _⟩ => rfl | ⟨2, _⟩ => rfl)

/-- Two stacks of matrices joined along the rows: a row at or past the first height reads the second. -/
theorem cat3_axis1_right {n0 a b n n2 : ℕ} (X : (⟨3, ![n0, a, n2]⟩ : Shape).Idx → α) (Y : (⟨3, ![n0, b, n2]⟩ : Shape).Idx → α)
    (h : Shape.Concatenates [⟨3, ![n0, a, n2]⟩, ⟨3, ![n0, b, n2]⟩] ⟨3, ![n0, n, n2]⟩ 1) (x : Fin n0) (r : Fin n) (z : Fin n2)
    (r' : Fin b) (hr : r'.val + a = r.val) :
    concatenate ⟨3, ![n0, n, n2]⟩ 1 [⟨⟨3, ![n0, a, n2]⟩, X⟩, ⟨⟨3, ![n0, b, n2]⟩, Y⟩] h (ix3 x r z) = Y (ix3 x r' z) :=
  concatenate_pair_apply_right 1 X Y h _ rfl rfl _
    (fun d hd => match d, hd with | ⟨0, _⟩, _ => rfl | ⟨1, _⟩, hd => absurd rfl hd | ⟨2, _⟩, _ => rfl) hr

/-- Two stacks joined along the stacking axis: a member below the first count reads the first. -/
theorem cat3_axis0_left {a b n n1 n2 : ℕ} (X : (⟨3, ![a, n1, n2]⟩ : Shape).Idx → α) (Y : (⟨3, ![b, n1, n2]⟩ : Shape).Idx → α)
    (h : Shape.Concatenates [⟨3, ![a, n1, n2]⟩, ⟨3, ![b, n1, n2]⟩] ⟨3, ![n, n1, n2]⟩ 0) (p : Fin n) (y : Fin n1) (z : Fin n2)
    (hp : p.val < a) :
    concatenate ⟨3, ![n, n1, n2]⟩ 0 [⟨⟨3, ![a, n1, n2]⟩, X⟩, ⟨⟨3, ![b, n1, n2]⟩, Y⟩] h (ix3 p y z) = X (ix3 ⟨p.val, hp⟩ y z) :=
  concatenate_pair_apply_left 0 X Y h _ rfl _ (fun d => match d with | ⟨0, _⟩ => rfl | ⟨1, _⟩ => rfl | ⟨2, _⟩ => rfl)

/-- Two stacks joined along the stacking axis: a member at or past the first count reads the second. -/
theorem cat3_axis0_right {a b n n1 n2 : ℕ} (X : (⟨3, ![a, n1, n2]⟩ : Shape).Idx → α) (Y : (⟨3, ![b, n1, n2]⟩ : Shape).Idx → α)
    (h : Shape.Concatenates [⟨3, ![a, n1, n2]⟩, ⟨3, ![b, n1, n2]⟩] ⟨3, ![n, n1, n2]⟩ 0) (p : Fin n) (y : Fin n1) (z : Fin n2)
    (p' : Fin b) (hp : p'.val + a = p.val) :
    concatenate ⟨3, ![n, n1, n2]⟩ 0 [⟨⟨3, ![a, n1, n2]⟩, X⟩, ⟨⟨3, ![b, n1, n2]⟩, Y⟩] h (ix3 p y z) = Y (ix3 p' y z) :=
  concatenate_pair_apply_right 0 X Y h _ rfl rfl _
    (fun d hd => match d, hd with | ⟨0, _⟩, hd => absurd rfl hd | ⟨1, _⟩, _ => rfl | ⟨2, _⟩, _ => rfl) hp

/-- A stack of matrices cut along the stacking axis from `o` reads, at member `p`, the source's member `o + p`. -/
theorem slice3_axis0_apply {n0 n1 n2 k : ℕ} (o : ℕ) (X : (⟨3, ![n0, n1, n2]⟩ : Shape).Idx → α)
    (h : (⟨3, ![n0, n1, n2]⟩ : Shape).Slices ![o, 0, 0] ⟨3, ![k, n1, n2]⟩)
    (p : Fin k) (y : Fin n1) (z : Fin n2) (q : Fin n0) (hq : q.val = o + p.val) :
    extractStridedSlice ⟨3, ![k, n1, n2]⟩ ![o, 0, 0] X h (ix3 p y z) = X (ix3 q y z) :=
  extractStridedSlice_apply _ _ _ _ _ (fun ax => by
    match ax with
    | ⟨0, _⟩ => exact hq
    | ⟨1, _⟩ => exact (Nat.zero_add _).symm
    | ⟨2, _⟩ => exact (Nat.zero_add _).symm)

end Cat

/-! ## The host operations' terms, over an arbitrary coefficient array -/

section Terms

/-- The real planes of the eight coefficients, stacked. -/
def reStack (A : S8x2x64x64.Idx → EReal) : S8x64x64.Idx → EReal :=
  shapeCast S8x64x64 (extractStridedSlice S8x1x64x64 ![0, 0, 0, 0] A Gen.slices_S8x2x64x64_S8x1x64x64_0_0_0_0)
    Gen.shapeCasts_S8x1x64x64_S8x64x64

/-- The imaginary planes of the eight coefficients, stacked. -/
def imStack (A : S8x2x64x64.Idx → EReal) : S8x64x64.Idx → EReal :=
  shapeCast S8x64x64 (extractStridedSlice S8x1x64x64 ![0, 1, 0, 0] A Gen.slices_S8x2x64x64_S8x1x64x64_0_1_0_0)
    Gen.shapeCasts_S8x1x64x64_S8x64x64

/-- Member 0 of a stack of eight, as a matrix. -/
def head1 (R : S8x64x64.Idx → EReal) : S64x64.Idx → EReal :=
  shapeCast S64x64 (extractStridedSlice S1x64x64 ![0, 0, 0] R Gen.slices_S8x64x64_S1x64x64_0_0_0) Gen.shapeCasts_S1x64x64_S64x64

/-- Members 1 … 7 of a stack of eight. -/
def tail7 (R : S8x64x64.Idx → EReal) : S7x64x64.Idx → EReal :=
  extractStridedSlice S7x64x64 ![1, 0, 0] R Gen.slices_S8x64x64_S7x64x64_1_0_0

/-- The order-zero term: the two planes of coefficient 0 side by side. -/
def c0Term (R I : S8x64x64.Idx → EReal) : S64x128.Idx → EReal :=
  concatenate S64x128 1 [⟨S64x64, head1 R⟩, ⟨S64x64, head1 I⟩] Gen.concatenates_S64x64_S64x64_S64x128_d1

/-- The upper halves of the seven blocks: real plane beside imaginary plane. -/
def upper (R7 I7 : S7x64x64.Idx → EReal) : S7x64x128.Idx → EReal :=
  concatenate S7x64x128 2 [⟨S7x64x64, R7⟩, ⟨S7x64x64, I7⟩] Gen.concatenates_S7x64x64_S7x64x64_S7x64x128_d2

/-- The lower half of the first block: minus the imaginary plane beside the real plane. -/
def lower1 (R7 I7 : S7x64x64.Idx → EReal) : S1x64x128.Idx → EReal :=
  concatenate S1x64x128 2
    [⟨S1x64x64, Host.negf (F := Ideal) (φ := .f32) (extractStridedSlice S1x64x64 ![0, 0, 0] I7 Gen.slices_S7x64x64_S1x64x64_0_0_0)⟩,
     ⟨S1x64x64, extractStridedSlice S1x64x64 ![0, 0, 0] R7 Gen.slices_S7x64x64_S1x64x64_0_0_0⟩]
    Gen.concatenates_S1x64x64_S1x64x64_S1x64x128_d2

/-- The lower halves of the six later blocks: minus the imaginary plane beside minus the real plane. -/
def lower6 (R7 I7 : S7x64x64.Idx → EReal) : S6x64x128.Idx → EReal :=
  concatenate S6x64x128 2
    [⟨S6x64x64, Host.negf (F := Ideal) (φ := .f32) (extractStridedSlice S6x64x64 ![1, 0, 0] I7 Gen.slices_S7x64x64_S6x64x64_1_0_0)⟩,
     ⟨S6x64x64, Host.negf (F := Ideal) (φ := .f32) (extractStridedSlice S6x64x64 ![1, 0, 0] R7 Gen.slices_S7x64x64_S6x64x64_1_0_0)⟩]
    Gen.concatenates_S6x64x64_S6x64x64_S6x64x128_d2

/-- The lower halves of the seven blocks. -/
def lower (R7 I7 : S7x64x64.Idx → EReal) : S7x64x128.Idx → EReal :=
  concatenate S7x64x128 0 [⟨S1x64x128, lower1 R7 I7⟩, ⟨S6x64x128, lower6 R7 I7⟩] Gen.concatenates_S1x64x128_S6x64x128_S7x64x128_d0

/-- The seven 128×128 blocks: upper half over lower half. -/
def blocks (R7 I7 : S7x64x64.Idx → EReal) : S7x128x128.Idx → EReal :=
  concatenate S7x128x128 1 [⟨S7x64x128, upper R7 I7⟩, ⟨S7x64x128, lower R7 I7⟩] Gen.concatenates_S7x64x128_S7x64x128_S7x128x128_d1

/-- The seven blocks stacked into one 896×128 array (the change of format is the identity on extended reals). -/
def wTerm (A : S8x2x64x64.Idx → EReal) : S896x128.Idx → EReal :=
  shapeCast S896x128
    (truncf (F := Ideal) (φ := .f32) .bf16 (blocks (tail7 (reStack A)) (tail7 (imStack A))) Gen.bitsLt_bf16_f32)
    Gen.shapeCasts_S7x128x128_S896x128

end Terms

/-! ## The terms read at an index -/

section Reads

theorem reStack_apply (A : S8x2x64x64.Idx → EReal) (p : Fin 8) (j l : Fin 64) :
    reStack A (ix3 p j l) = A (ix4 p 0 j l) := by
  unfold reStack
  refine (shapeCast_apply _ _ _ (ix4 p (0 : Fin 1) j l) ?_).trans ?_
  · rw [Shape.rowMajor_val_four, Shape.rowMajor_val_three]
    show ((p.val * 1 + 0) * 64 + j.val) * 64 + l.val = (p.val * 64 + j.val) * 64 + l.val
    omega
  · exact slice4_axis1_apply 0 A _ p 0 j l 0 rfl

theorem imStack_apply (A : S8x2x64x64.Idx → EReal) (p : Fin 8) (j l : Fin 64) :
    imStack A (ix3 p j l) = A (ix4 p 1 j l) := by
  unfold imStack
  refine (shapeCast_apply _ _ _ (ix4 p (0 : Fin 1) j l) ?_).trans ?_
  · rw [Shape.rowMajor_val_four, Shape.rowMajor_val_three]
    show ((p.val * 1 + 0) * 64 + j.val) * 64 + l.val = (p.val * 64 + j.val) * 64 + l.val
    omega
  · exact slice4_axis1_apply 1 A _ p 0 j l 1 rfl

theorem head1_apply (R : S8x64x64.Idx → EReal) (j l : Fin 64) : head1 R (ix2 j l) = R (ix3 0 j l) := by
  unfold head1
  refine (shapeCast_1ab_ab_apply _ _ j l).trans ?_
  exact slice3_axis0_apply 0 R _ 0 j l 0 rfl

theorem tail7_apply (R : S8x64x64.Idx → EReal) (p : Fin 7) (j l : Fin 64) :
    tail7 R (ix3 p j l) = R (ix3 ⟨p.val + 1, by have := p.isLt; omega⟩ j l) :=
  slice3_axis0_apply 1 R _ p j l ⟨p.val + 1, by have := p.isLt; omega⟩ (Nat.add_comm _ _)

theorem c0Term_left (R I : S8x64x64.Idx → EReal) (j : Fin 64) (L : Fin 128) (hL : L.val < 64) :
    c0Term R I (ix2 j L) = R (ix3 0 j ⟨L.val, hL⟩) := by
  unfold c0Term
  exact (cat2_axis1_left _ _ _ j L hL).trans (head1_apply R j ⟨L.val, hL⟩)

theorem c0Term_right (R I : S8x64x64.Idx → EReal) (j : Fin 64) (L : Fin 128) (hL : ¬ L.val < 64) :
    c0Term R I (ix2 j L) = I (ix3 0 j ⟨L.val - 64, by have := L.isLt; omega⟩) := by
  unfold c0Term
  exact (cat2_axis1_right _ _ _ j L ⟨L.val - 64, by have := L.isLt; omega⟩ (by show L.val - 64 + 64 = L.val; omega)).trans
    (head1_apply I j _)

variable (R7 I7 : S7x64x64.Idx → EReal) (p : Fin 7) (r L : Fin 128)

theorem blocks_upper_left (hr : r.val < 64) (hL : L.val < 64) :
    blocks R7 I7 (ix3 p r L) = R7 (ix3 p ⟨r.val, hr⟩ ⟨L.val, hL⟩) := by
  unfold blocks
  refine (cat3_axis1_left _ _ _ p r L hr).trans ?_
  unfold upper
  exact cat3_axis2_left _ _ _ p ⟨r.val, hr⟩ L hL

theorem blocks_upper_right (hr : r.val < 64) (hL : ¬ L.val < 64) :
    blocks R7 I7 (ix3 p r L) = I7 (ix3 p ⟨r.val, hr⟩ ⟨L.val - 64, by have := L.isLt; omega⟩) := by
  unfold blocks
  refine (cat3_axis1_left _ _ _ p r L hr).trans ?_
  unfold upper
  exact cat3_axis2_right _ _ _ p ⟨r.val, hr⟩ L ⟨L.val - 64, by have := L.isLt; omega⟩ (by show L.val - 64 + 64 = L.val; omega)

/-- The lower half of block `p`, whichever block it is. -/
theorem blocks_lower (hr : ¬ r.val < 64) :
    blocks R7 I7 (ix3 p r L) = lower R7 I7 (ix3 p ⟨r.val - 64, by have := r.isLt; omega⟩ L) := by
  unfold blocks
  exact cat3_axis1_right _ _ _ p r L ⟨r.val - 64, by have := r.isLt; omega⟩ (by show r.val - 64 + 64 = r.val; omega)

variable (j : Fin 64)

theorem lower_left (hL : L.val < 64) :
    lower R7 I7 (ix3 p j L) = -(I7 (ix3 p j ⟨L.val, hL⟩)) := by
  unfold lower
  by_cases hp : p.val < 1
  · refine (cat3_axis0_left _ _ _ p j L hp).trans ?_
    unfold lower1
    refine (cat3_axis2_left _ _ _ ⟨p.val, hp⟩ j L hL).trans ?_
    show -(extractStridedSlice S1x64x64 ![0, 0, 0] I7 Gen.slices_S7x64x64_S1x64x64_0_0_0 (ix3 ⟨p.val, hp⟩ j ⟨L.val, hL⟩)) = _
    rw [slice3_axis0_apply 0 I7 _ ⟨p.val, hp⟩ j ⟨L.val, hL⟩ p (Nat.zero_add _).symm]
  · refine (cat3_axis0_right _ _ _ p j L ⟨p.val - 1, by have := p.isLt; omega⟩ (by show p.val - 1 + 1 = p.val; omega)).trans ?_
    unfold lower6
    refine (cat3_axis2_left _ _ _ ⟨p.val - 1, by have := p.isLt; omega⟩ j L hL).trans ?_
    show -(extractStridedSlice S6x64x64 ![1, 0, 0] I7 Gen.slices_S7x64x64_S6x64x64_1_0_0 (ix3 ⟨p.val - 1, _⟩ j ⟨L.val, hL⟩)) = _
    rw [slice3_axis0_apply 1 I7 _ ⟨p.val - 1, by have := p.isLt; omega⟩ j ⟨L.val, hL⟩ p (by show p.val = 1 + (p.val - 1); omega)]

theorem lower_right_first (hp : p.val = 0) (hL : ¬ L.val < 64) :
    lower R7 I7 (ix3 p j L) = R7 (ix3 p j ⟨L.val - 64, by have := L.isLt; omega⟩) := by
  unfold lower
  have hp1 : p.val < 1 := by omega
  refine (cat3_axis0_left _ _ _ p j L hp1).trans ?_
  unfold lower1
  refine (cat3_axis2_right _ _ _ ⟨p.val, hp1⟩ j L ⟨L.val - 64, by have := L.isLt; omega⟩ (by show L.val - 64 + 64 = L.val; omega)).trans ?_
  exact slice3_axis0_apply 0 R7 _ ⟨p.val, hp1⟩ j _ p (Nat.zero_add _).symm

theorem lower_right_later (hp : ¬ p.val = 0) (hL : ¬ L.val < 64) :
    lower R7 I7 (ix3 p j L) = -(R7 (ix3 p j ⟨L.val - 64, by have := L.isLt; omega⟩)) := by
  unfold lower
  refine (cat3_axis0_right _ _ _ p j L ⟨p.val - 1, by have := p.isLt; omega⟩ (by show p.val - 1 + 1 = p.val; omega)).trans ?_
  unfold lower6
  refine (cat3_axis2_right _ _ _ ⟨p.val - 1, by have := p.isLt; omega⟩ j L ⟨L.val - 64, by have := L.isLt; omega⟩
    (by show L.val - 64 + 64 = L.val; omega)).trans ?_
  show -(extractStridedSlice S6x64x64 ![1, 0, 0] R7 Gen.slices_S7x64x64_S6x64x64_1_0_0 (ix3 ⟨p.val - 1, _⟩ j ⟨L.val - 64, _⟩)) = _
  rw [slice3_axis0_apply 1 R7 _ ⟨p.val - 1, by have := p.isLt; omega⟩ j ⟨L.val - 64, by have := L.isLt; omega⟩ p
    (by show p.val = 1 + (p.val - 1); omega)]

theorem wTerm_apply (A : S8x2x64x64.Idx → EReal) (k : Fin 896) (L : Fin 128) :
    wTerm A (ix2 k L)
      = blocks (tail7 (reStack A)) (tail7 (imStack A))
          (ix3 ⟨k.val / 128, by have := k.isLt; omega⟩ ⟨k.val % 128, Nat.mod_lt _ (by norm_num)⟩ L) := by
  unfold wTerm
  refine (shapeCast_apply _ _ _ (ix3 (⟨k.val / 128, by have := k.isLt; omega⟩ : Fin 7) (⟨k.val % 128, Nat.mod_lt _ (by norm_num)⟩ : Fin 128) L) ?_).trans ?_
  · rw [Shape.rowMajor_val_three, Shape.rowMajor_val_two]
    show (k.val / 128 * 128 + k.val % 128) * 128 + L.val = k.val * 128 + L.val
    omega
  · rfl

end Reads

variable (m : (ℓ : Loc nD τ sig) → Buf (Elt Ideal) ℓ)

/-- The first argument array (the matrices x) as launched. -/
abbrev argX (c : Dev nD) : S2048x2x64x64.Idx → EReal := m ((c : Thread nD τ).loc main_arg0)

/-- The second argument array (the coefficients) as launched. -/
abbrev argC (c : Dev nD) : S8x2x64x64.Idx → EReal := m ((c : Thread nD τ).loc main_arg1)

set_option maxHeartbeats 4000000 in
/-- The stacked coefficient blocks, as the region finds them, are the host operations' term over the coefficient array:
    no host operation writes the coefficient array, and each later array is its operation's value on the earlier ones. -/
theorem w_eq (c : Dev nD) : (Gen.V m c main_v24 : S896x128.Idx → EReal) = wTerm (argC m c) := by
  dsimp only [Gen.V, Gen.hostOps0]
  after_results
  rfl

set_option maxHeartbeats 4000000 in
/-- The packed order-zero term, as the region finds it, is the host operations' term over the coefficient array. -/
theorem c0_eq (c : Dev nD) :
    (Gen.V m c main_v8 : S64x128.Idx → EReal) = c0Term (reStack (argC m c)) (imStack (argC m c)) := by
  dsimp only [Gen.V, Gen.hostOps0]
  after_results
  rfl

/-- The stacked coefficient blocks the region finds, entry by entry. -/
theorem w_apply (c : Dev nD) (k : Fin 896) (L : Fin 128) :
    (Gen.V m c main_v24 : S896x128.Idx → EReal) (ix2 k L)
      = PSeries.packW (α := EReal) (fun p => PSeries.plane (argC m c) p 0) (fun p => PSeries.plane (argC m c) p 1) k L := by
  refine (congrFun (w_eq m c) (ix2 k L)).trans ?_
  rw [wTerm_apply]
  simp only [PSeries.packW, PSeries.packBlock, PSeries.vcat, PSeries.hcat, PSeries.plane]
  -- row `k` is row `k % 128` of block `k / 128`; the four quadrants of the block in turn
  by_cases hr : k.val % 128 < 64
  · by_cases hL : L.val < 64
    · rw [dif_pos hr, dif_pos hL, blocks_upper_left _ _ _ _ _ hr hL, tail7_apply, reStack_apply]
    · rw [dif_pos hr, dif_neg hL, blocks_upper_right _ _ _ _ _ hr hL, tail7_apply, imStack_apply]
  · rw [dif_neg hr, blocks_lower _ _ _ _ _ hr]
    by_cases hL : L.val < 64
    · rw [dif_pos hL, lower_left _ _ _ _ _ hL, tail7_apply, imStack_apply]
    · rw [dif_neg hL]
      -- the lower right quadrant: the real plane for the first block, its negation for the later ones
      by_cases hp : k.val / 128 = 0
      · rw [if_pos hp, lower_right_first _ _ _ _ _ hp hL, tail7_apply, reStack_apply]
      · rw [if_neg hp, lower_right_later _ _ _ _ _ hp hL, tail7_apply, reStack_apply]

/-- The packed order-zero term the region finds, entry by entry. -/
theorem c0_apply (c : Dev nD) (j : Fin 64) (L : Fin 128) :
    (Gen.V m c main_v8 : S64x128.Idx → EReal) (ix2 j L)
      = PSeries.packC0 (α := EReal) (fun p => PSeries.plane (argC m c) p 0) (fun p => PSeries.plane (argC m c) p 1) j L := by
  refine (congrFun (c0_eq m c) (ix2 j L)).trans ?_
  simp only [PSeries.packC0, PSeries.hcat, PSeries.plane]
  by_cases hL : L.val < 64
  · rw [dif_pos hL, c0Term_left _ _ _ _ hL, reStack_apply]
  · rw [dif_neg hL, c0Term_right _ _ _ _ hL, imStack_apply]

end Cert.KernelIdeal.PS

end
-- ==== Proof.KernelValue.lean ====
/-
  The kernel's result array, entry by entry.

  The grid has 64 points; point t stages rows 32·t … 32·t + 31 of the batch axis of x (all of the two coefficient
  arrays, at every point) and writes back the same rows of the result.  The blocks tile the array, so batch element
  b of the result is row b % 32 of what point b / 32 wrote; what a point writes is the body's packed value, plane cc
  of the block reading columns 64·cc … 64·cc + 63 of it.  Hence element b, plane cc of the result is plane cc of the
  packed series of x's element b against the packed coefficients.
-/
import proofs.«402419_j3925600108785_3_alg».proof.Proof.Gen.KernelIdeal.Value
import proofs.«402419_j3925600108785_3_alg».proof.Proof.KernelPayload
import proofs.«402419_j3925600108785_3_alg».proof.Proof.HostPack

noncomputable section

namespace Cert.KernelIdeal.PS

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps over the grid: the window on x and the output window sit at block t of the batch axis and block 0 of
    the other axes; the two coefficient windows sit at block 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_3.index t (0 : Fin 4) = t.val ∧ win0_3.index t (1 : Fin 4) = 0 ∧ win0_3.index t (2 : Fin 4) = 0 ∧ win0_3.index t (3 : Fin 4) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of x staged at point t. -/
abbrev xblk (c : Dev nD) (t : Fin cfg0.N) : Vec Ideal S32x2x64x64 .f32 := iblk m c 0 t
/-- The stacked coefficient blocks as staged at point t. -/
abbrev wblk (c : Dev nD) (t : Fin cfg0.N) : Vec Ideal S896x128 .bf16 := iblk m c 1 t
/-- The packed order-zero term as staged at point t. -/
abbrev cblk (c : Dev nD) (t : Fin cfg0.N) : Vec Ideal S64x128 .f32 := iblk m c 2 t

/-- Row bb of the block of x at point t is batch element 32·t + bb of x. -/
theorem xblk_apply (c : Dev nD) (t : Fin cfg0.N) (bb : Fin 32) (cc : Fin 2) (j k : Fin 64)
    (b : Fin 2048) (hb : b.val = 32 * t.val + bb.val) :
    xblk m c t (ix4 bb cc j k) = argX m c (ix4 b cc j k) := by
  obtain ⟨e0, e1, e2, e3, -⟩ := idx_facts t
  show V m c main_arg0 (((cfg0.win 0).blk t).view.emb (ix4 bb cc j k)) = _
  rw [V_main_arg0]
  show argX m c _ = argX m c _
  congr 1
  funext a; apply Fin.ext
  match a with
  | ⟨0, _⟩ => show win0_0.index t (0 : Fin 4) * 32 + 1 * bb.val = b.val; omega
  | ⟨1, _⟩ => show win0_0.index t (1 : Fin 4) * 2 + 1 * cc.val = cc.val; omega
  | ⟨2, _⟩ => show win0_0.index t (2 : Fin 4) * 64 + 1 * j.val = j.val; omega
  | ⟨3, _⟩ => show win0_0.index t (3 : Fin 4) * 64 + 1 * k.val = k.val; omega

/-- The staged coefficient blocks are the whole array the host operations left. -/
theorem wblk_apply (c : Dev nD) (t : Fin cfg0.N) (k : Fin 896) (L : Fin 128) :
    wblk m c t (ix2 k L) = (V m c main_v24 : S896x128.Idx → EReal) (ix2 k L) := by
  obtain ⟨-, -, -, -, -, -, -, -, e0, e1, -⟩ := idx_facts t
  show (V m c main_v24 : S896x128.Idx → EReal) (((cfg0.win 1).blk t).view.emb (ix2 k L)) = _
  congr 1
  funext a; apply Fin.ext
  match a with
  | ⟨0, _⟩ => show win0_1.index t (0 : Fin 2) * 896 + 1 * k.val = k.val; omega
  | ⟨1, _⟩ => show win0_1.index t (1 : Fin 2) * 128 + 1 * L.val = L.val; omega

/-- The staged order-zero term is the whole array the host operations left. -/
theorem cblk_apply (c : Dev nD) (t : Fin cfg0.N) (r : Fin 64) (L : Fin 128) :
    cblk m c t (ix2 r L) = (V m c main_v8 : S64x128.Idx → EReal) (ix2 r L) := by
  obtain ⟨-, -, -, -, -, -, -, -, -, -, e0, e1⟩ := idx_facts t
  show (V m c main_v8 : S64x128.Idx → EReal) (((cfg0.win 2).blk t).view.emb (ix2 r L)) = _
  congr 1
  funext a; apply Fin.ext
  match a with
  | ⟨0, _⟩ => show win0_2.index t (0 : Fin 2) * 64 + 1 * r.val = r.val; omega
  | ⟨1, _⟩ => show win0_2.index t (1 : Fin 2) * 128 + 1 * L.val = L.val; omega

/-- What point t writes back, at row bb, plane cc, entry (j, l) of its block: the body's packed value at
    (bb, j, 64·cc + l). -/
theorem flushed_apply (c : Dev nD) (t : Fin cfg0.N) (bb : Fin 32) (cc : Fin 2) (j l : Fin 64) :
    (dats m 0 c).flushed 3 t (ix4 bb cc j l)
      = k0_pay3 (F := Ideal) (xblk m c t) (wblk m c t) (cblk m c t)
          (ix3 bb j ⟨64 * cc.val + l.val, by have := cc.isLt; have := l.isLt; omega⟩) := by
  rw [Value.flushed3]
  show out0_3 (xblk m c t) (wblk m c t) (cblk m c t) (ix4 bb cc j l) = _
  unfold out0_3
  simp only [View.ld_unit_zero (S := S32x2x64x64) hz4, View.ld_unit_zero (S := S896x128) hz2,
    View.ld_unit_zero (S := S64x128) hz2]
  refine (Value.canon3_eq (xblk m c t) (wblk m c t) (cblk m c t) (ix4 bb cc j l)).trans ?_
  show k0_pay3 (xblk m c t) (wblk m c t) (cblk m c t) (Value.ix3_0 (ix4 bb cc j l)) = _
  congr 1
  funext a; apply Fin.ext
  match a with
  | ⟨0, _⟩ => rfl
  | ⟨1, _⟩ => rfl
  | ⟨2, _⟩ => show cc.val * 64 + l.val = 64 * cc.val + l.val; omega

/-- The result array after the run, at batch element `b`, plane `cc`, row `j`, column `l`. -/
theorem final (c : Dev nD) (b : Fin 2048) (cc : Fin 2) (j l : Fin 64) :
    (dats m 0 c).arrAt 3 cfg0.N (ix4 b cc j l)
      = PSeries.kOut (α := EReal) (PSeries.plane (argX m c) b 0) (PSeries.plane (argX m c) b 1)
          (PSeries.packW (fun p => PSeries.plane (argC m c) p 0) (fun p => PSeries.plane (argC m c) p 1))
          (PSeries.packC0 (fun p => PSeries.plane (argC m c) p 0) (fun p => PSeries.plane (argC m c) p 1)) cc j l := by
  have hb := b.isLt
  -- the point whose block holds batch element b, and b's row in that block
  obtain ⟨t, ht⟩ : ∃ t : Fin cfg0.N, t.val = b.val / 32 := ⟨⟨b.val / 32, by show b.val / 32 < 64; omega⟩, rfl⟩
  obtain ⟨bb, hbb⟩ : ∃ bb : Fin 32, bb.val = b.val % 32 := ⟨⟨b.val % 32, Nat.mod_lt _ (by norm_num)⟩, rfl⟩
  have hsplit : b.val = 32 * t.val + bb.val := by omega
  obtain ⟨-, -, -, -, e0, e1, e2, e3, -⟩ := idx_facts t
  -- the entry lies in point t's block, which holds what point t wrote back
  have hemb : ((cfg0.win 3).blk t).view.emb (ix4 bb cc j l) = ix4 b cc j l := by
    funext a; apply Fin.ext
    match a with
    | ⟨0, _⟩ => show win0_3.index t (0 : Fin 4) * 32 + 1 * bb.val = b.val; omega
    | ⟨1, _⟩ => show win0_3.index t (1 : Fin 4) * 2 + 1 * cc.val = cc.val; omega
    | ⟨2, _⟩ => show win0_3.index t (2 : Fin 4) * 64 + 1 * j.val = j.val; omega
    | ⟨3, _⟩ => show win0_3.index t (3 : Fin 4) * 64 + 1 * l.val = l.val; omega
  have hblk := congrFun (Value.blocks3 m c t (flush0_3 t)) (ix4 bb cc j l)
  have hread : (dats m 0 c).arrAt 3 cfg0.N (ix4 b cc j l) = (dats m 0 c).flushed 3 t (ix4 bb cc j l) := by
    rw [← hblk, ← hemb]; rfl
  rw [hread, flushed_apply, pay3_apply]
  -- the staged blocks are the arrays' entries
  have ex0 : PSeries.plane (α := EReal) (xblk m c t) bb 0 = PSeries.plane (argX m c) b 0 := by
    funext r k; exact xblk_apply m c t bb 0 r k b hsplit
  have ex1 : PSeries.plane (α := EReal) (xblk m c t) bb 1 = PSeries.plane (argX m c) b 1 := by
    funext r k; exact xblk_apply m c t bb 1 r k b hsplit
  have ew : (fun k L => wblk m c t (ix2 k L))
      = PSeries.packW (α := EReal) (fun p => PSeries.plane (argC m c) p 0) (fun p => PSeries.plane (argC m c) p 1) := by
    funext k L; exact (wblk_apply m c t k L).trans (w_apply m c k L)
  have ec : (fun r L => cblk m c t (ix2 r L))
      = PSeries.packC0 (α := EReal) (fun p => PSeries.plane (argC m c) p 0) (fun p => PSeries.plane (argC m c) p 1) := by
    funext r L; exact (cblk_apply m c t r L).trans (c0_apply m c r L)
  rw [ex0, ex1, ew, ec]
  rfl

end Cert.KernelIdeal.PS

end
-- ==== Proof.RefReads.lean ====
/-
  The reference's building blocks read at an index: the planes it slices out of its arguments, the unit matrix it
  builds from two iotas, its three kinds of matrix product, and its two layout steps.
-/
import proofs.«402419_j3925600108785_3_alg».proof.Proof.RefDefs
import proofs.«402419_j3925600108785_3_alg».proof.Proof.Spec
import Idealize.ShloMosaic.Lib.StackMember
import Idealize.ShloMosaic.Lib.IdealHost
import Idealize.ShloMosaic.Lib.ValueLayout
import Idealize.ShloMosaic.Lib.Pipeline.Value
import Idealize.ShloMosaic.Lib.StableHlo.Predicate

noncomputable section

namespace Cert.ReferenceIdeal.PS

open Idealize.ShloMosaic Idealize.ShloMosaic.ValueIdx Idealize.SL.Sem Idealize.ShloMosaic.StableHlo Cert.ReferenceIdeal Cert.ReferenceIdeal.Gen Cert.ReferenceIdeal.Value

variable (V0 : Valuation τ sig (Elt Ideal))

/-- The first argument array (the matrices x) at launch. -/
abbrev refX : S2048x2x64x64.Idx → EReal := V0 (Proc.devRef .tc main_arg0)

/-- The second argument array (the coefficients) at launch. -/
abbrev refC : S8x2x64x64.Idx → EReal := V0 (Proc.devRef .tc main_arg1)

theorem v1_apply (b : Fin 2048) (j l : Fin 64) :
    res_main_v1 (F := Ideal) V0 (ix3 b j l) = PSeries.plane (refX V0) b 0 j l := by
  -- the reshape keeps the row-major position: (b, 0, j, l) of the one-plane slice sits where (b, j, l) does
  refine (shapeCast_apply _ shapeCasts_S2048x1x64x64_S2048x64x64 (ix3 b j l) (ix4 b (0 : Fin 1) j l) ?_).trans ?_
  · rw [Shape.rowMajor_val_four, Shape.rowMajor_val_three]
    show ((b.val * 1 + 0) * 64 + j.val) * 64 + l.val = (b.val * 64 + j.val) * 64 + l.val
    omega
  -- the slice starts at plane 0
  · refine extractStridedSlice_apply _ (refX V0) slices_S2048x2x64x64_S2048x1x64x64_0_0_0_0
      (ix4 b (0 : Fin 1) j l) (ix4 b (0 : Fin 2) j l) fun a => ?_
    match a with
    | ⟨0, _⟩ => show b.val = 0 + b.val; omega
    | ⟨1, _⟩ => show (0 : ℕ) = 0 + 0; rfl
    | ⟨2, _⟩ => show j.val = 0 + j.val; omega
    | ⟨3, _⟩ => show l.val = 0 + l.val; omega

theorem v3_apply (b : Fin 2048) (j l : Fin 64) :
    res_main_v3 (F := Ideal) V0 (ix3 b j l) = PSeries.plane (refX V0) b 1 j l := by
  refine (shapeCast_apply _ shapeCasts_S2048x1x64x64_S2048x64x64 (ix3 b j l) (ix4 b (0 : Fin 1) j l) ?_).trans ?_
  · rw [Shape.rowMajor_val_four, Shape.rowMajor_val_three]
    show ((b.val * 1 + 0) * 64 + j.val) * 64 + l.val = (b.val * 64 + j.val) * 64 + l.val
    omega
  -- the slice starts at plane 1
  · refine extractStridedSlice_apply _ (refX V0) slices_S2048x2x64x64_S2048x1x64x64_0_1_0_0
      (ix4 b (0 : Fin 1) j l) (ix4 b (1 : Fin 2) j l) fun a => ?_
    match a with
    | ⟨0, _⟩ => show b.val = 0 + b.val; omega
    | ⟨1, _⟩ => show (1 : ℕ) = 1 + 0; rfl
    | ⟨2, _⟩ => show j.val = 0 + j.val; omega
    | ⟨3, _⟩ => show l.val = 0 + l.val; omega

theorem v5_apply (p : Fin 8) (j l : Fin 64) :
    res_main_v5 (F := Ideal) V0 (ix3 p j l) = PSeries.plane (refC V0) p 0 j l := by
  refine (shapeCast_apply _ shapeCasts_S8x1x64x64_S8x64x64 (ix3 p j l) (ix4 p (0 : Fin 1) j l) ?_).trans ?_
  · rw [Shape.rowMajor_val_four, Shape.rowMajor_val_three]
    show ((p.val * 1 + 0) * 64 + j.val) * 64 + l.val = (p.val * 64 + j.val) * 64 + l.val
    omega
  · refine extractStridedSlice_apply _ (refC V0) slices_S8x2x64x64_S8x1x64x64_0_0_0_0
      (ix4 p (0 : Fin 1) j l) (ix4 p (0 : Fin 2) j l) fun a => ?_
    match a with
    | ⟨0, _⟩ => show p.val = 0 + p.val; omega
    | ⟨1, _⟩ => show (0 : ℕ) = 0 + 0; rfl
    | ⟨2, _⟩ => show j.val = 0 + j.val; omega
    | ⟨3, _⟩ => show l.val = 0 + l.val; omega

theorem v7_apply (p : Fin 8) (j l : Fin 64) :
    res_main_v7 (F := Ideal) V0 (ix3 p j l) = PSeries.plane (refC V0) p 1 j l := by
  refine (shapeCast_apply _ shapeCasts_S8x1x64x64_S8x64x64 (ix3 p j l) (ix4 p (0 : Fin 1) j l) ?_).trans ?_
  · rw [Shape.rowMajor_val_four, Shape.rowMajor_val_three]
    show ((p.val * 1 + 0) * 64 + j.val) * 64 + l.val = (p.val * 64 + j.val) * 64 + l.val
    omega
  · refine extractStridedSlice_apply _ (refC V0) slices_S8x2x64x64_S8x1x64x64_0_1_0_0
      (ix4 p (0 : Fin 1) j l) (ix4 p (1 : Fin 2) j l) fun a => ?_
    match a with
    | ⟨0, _⟩ => show p.val = 0 + p.val; omega
    | ⟨1, _⟩ => show (1 : ℕ) = 1 + 0; rfl
    | ⟨2, _⟩ => show j.val = 0 + j.val; omega
    | ⟨3, _⟩ => show l.val = 0 + l.val; omega

/-- The matrix built from the two iotas is the unit matrix. -/
theorem v13_apply (j k : Fin 64) :
    res_main_v13 (F := Ideal) V0 (ix2 j k) = PSeries.eye (α := EReal) j k := by
  -- at (j, k) the two compared words are j + 0 and k, as 32-bit words; the bit of their equality, read as a number
  show (((IntOp.cmpi .eq (IntOp.addi (BitVec.ofNat 32 j.val) (0#32)) (BitVec.ofNat 32 k.val)).toNat : ℝ) : EReal)
    = if j.val = k.val then 1 else 0
  have hj : j.val < 64 := j.isLt
  have hk : k.val < 64 := k.isLt
  by_cases h : j.val = k.val
  · have e : IntOp.cmpi .eq (IntOp.addi (BitVec.ofNat 32 j.val) (0#32)) (BitVec.ofNat 32 k.val) = 1#1 :=
      Predicate.cmpi_eq_iff.2 (by rw [h]; simp [IntOp.addi])
    rw [e, if_pos h]; simp
  -- two numbers below 64 that differ are different 32-bit words
  · have e : IntOp.cmpi .eq (IntOp.addi (BitVec.ofNat 32 j.val) (0#32)) (BitVec.ofNat 32 k.val) = 0#1 :=
      eq_zero_of_ne_one fun h1 => h (by
        have := congrArg BitVec.toNat (Predicate.cmpi_eq_iff.1 h1)
        simp only [IntOp.addi, BitVec.add_zero, BitVec.toNat_ofNat] at this
        omega)
    rw [e, if_neg h]; simp

/-- One matrix cut out of a stack of eight and reshaped to 64×64. -/
theorem coef_apply (A : FVec Ideal S8x64x64 .f32) (p : Fin 8) (h : S8x64x64.Slices ![p.val, 0, 0] S1x64x64)
    (j l : Fin 64) :
    shapeCast S64x64 (extractStridedSlice S1x64x64 ![p.val, 0, 0] A h) shapeCasts_S1x64x64_S64x64 (ix2 j l)
      = A (ix3 p j l) := by
  -- the reshape keeps the row-major position: (0, j, l) of the 1×64×64 slice sits where (j, l) does
  refine (shapeCast_apply _ shapeCasts_S1x64x64_S64x64 (ix2 j l) (ix3 (0 : Fin 1) j l) ?_).trans ?_
  · rw [Shape.rowMajor_val_three, Shape.rowMajor_val_two]
    show ((0 : ℕ) * 64 + j.val) * 64 + l.val = j.val * 64 + l.val
    omega
  -- the slice starts at (p, 0, 0)
  · refine extractStridedSlice_apply _ A h (ix3 (0 : Fin 1) j l) (ix3 p j l) fun a => ?_
    match a with
    | ⟨0, _⟩ => show p.val = p.val + 0; omega
    | ⟨1, _⟩ => show j.val = 0 + j.val; omega
    | ⟨2, _⟩ => show l.val = 0 + l.val; omega

/-- The batched product, matrix by matrix. -/
theorem dot_bb (A B : FVec Ideal S2048x64x64 .f32) (b : Fin 2048) (j l : Fin 64) :
    Host.dotGeneral dot_S2048x64x64_S2048x64x64_S2048x64x64_2_1_1_2_0_0 none A B (ix3 b j l)
      = ∑ k : Fin 64, A (ix3 b j k) * B (ix3 b k l) :=
  StackMember.dotGeneral_stack_apply (G := 2048) (m := 64) (n := 64) (k := 64)
    dot_S2048x64x64_S2048x64x64_S2048x64x64_2_1_1_2_0_0_wf none A B b j l

/-- A stack of matrices times one matrix. -/
theorem dot_bc (A : FVec Ideal S2048x64x64 .f32) (C : FVec Ideal S64x64 .f32) (b : Fin 2048) (j l : Fin 64) :
    Host.dotGeneral dot_S2048x64x64_S64x64_S2048x64x64_2_0_01_1_n_n none A C (ix3 b j l)
      = ∑ k : Fin 64, A (ix3 b j k) * C (ix2 k l) := by
  show FloatOps.dotGeneral _ none _ A C (ix3 b j l) = _
  -- the contraction runs over one axis of extent 64: re-index its sum by that coordinate
  rw [Ideal.dotGeneral_apply,
    ← Equiv.sum_comp (contrEquiv1 dot_S2048x64x64_S64x64_S2048x64x64_2_0_01_1_n_n 64 rfl rfl).symm]
  refine Finset.sum_congr rfl fun c _ => ?_
  have c1 := contrEquiv1_symm_val dot_S2048x64x64_S64x64_S2048x64x64_2_0_01_1_n_n 64 rfl rfl c
  -- the left operand is read at (b, j, c): its two free axes take the result's first two coordinates
  have hl : dot_S2048x64x64_S64x64_S2048x64x64_2_0_01_1_n_n.lhsIdx (ix3 b j l)
      ((contrEquiv1 _ 64 rfl rfl).symm c) = ix3 b j c := by
    funext ax; apply Fin.ext
    match ax with
    | ⟨0, _⟩ => simp [DotDims.lhsIdx, dot_S2048x64x64_S64x64_S2048x64x64_2_0_01_1_n_n]; rfl
    | ⟨1, _⟩ => simp [DotDims.lhsIdx, dot_S2048x64x64_S64x64_S2048x64x64_2_0_01_1_n_n]; rfl
    | ⟨2, _⟩ => simp [DotDims.lhsIdx, dot_S2048x64x64_S64x64_S2048x64x64_2_0_01_1_n_n]; exact c1
  -- the right operand is read at (c, l): its free axis takes the result's last coordinate
  have hr : dot_S2048x64x64_S64x64_S2048x64x64_2_0_01_1_n_n.rhsIdx (ix3 b j l)
      ((contrEquiv1 _ 64 rfl rfl).symm c) = ix2 c l := by
    funext ax; apply Fin.ext
    match ax with
    | ⟨0, _⟩ => simp [DotDims.rhsIdx, dot_S2048x64x64_S64x64_S2048x64x64_2_0_01_1_n_n]; exact c1
    | ⟨1, _⟩ => simp [DotDims.rhsIdx, dot_S2048x64x64_S64x64_S2048x64x64_2_0_01_1_n_n]; rfl
  rw [hl, hr]

/-- One matrix times one matrix. -/
theorem dot_cc (E C : FVec Ideal S64x64 .f32) (j l : Fin 64) :
    Host.dotGeneral dot_S64x64_S64x64_S64x64_1_0_0_1_n_n none E C (ix2 j l)
      = ∑ k : Fin 64, E (ix2 j k) * C (ix2 k l) :=
  StackMember.dotGeneral_plain_apply (m := 64) (n := 64) (k := 64) none E C j l

/-- One matrix broadcast over the batch, in the reference's two steps. -/
theorem bcast_apply (A : FVec Ideal S64x64 .f32) (b : Fin 2048) (j l : Fin 64) :
    broadcastInDim S2048x64x64 ![0, 1, 2] bcast_S1x64x64_S2048x64x64_0_1_2
        (broadcastInDim S1x64x64 ![1, 2] bcast_S64x64_S1x64x64_1_2 A) (ix3 b j l)
      = A (ix2 j l) := by
  -- the outer step reads the one member of the 1×64×64 array, the inner step drops that unit axis
  refine (broadcastInDim_apply _ bcast_S1x64x64_S2048x64x64_0_1_2 _ (ix3 b j l) (ix3 (0 : Fin 1) j l) fun a => ?_).trans
    (broadcastInDim_apply _ bcast_S64x64_S1x64x64_1_2 A (ix3 (0 : Fin 1) j l) (ix2 j l) fun a => ?_)
  · match a with
    | ⟨0, _⟩ => rfl
    | ⟨1, _⟩ => rfl
    | ⟨2, _⟩ => rfl
  · match a with
    | ⟨0, _⟩ => rfl
    | ⟨1, _⟩ => rfl

/-- The two planes stacked along a new axis 1. -/
theorem stack_apply (R I : FVec Ideal S2048x64x64 .f32) (b : Fin 2048) (cc : Fin 2) (j l : Fin 64) :
    concatenate S2048x2x64x64 1
        [⟨S2048x1x64x64, broadcastInDim S2048x1x64x64 ![0, 2, 3] bcast_S2048x64x64_S2048x1x64x64_0_2_3 R⟩,
         ⟨S2048x1x64x64, broadcastInDim S2048x1x64x64 ![0, 2, 3] bcast_S2048x64x64_S2048x1x64x64_0_2_3 I⟩]
        concatenates_S2048x1x64x64_S2048x1x64x64_S2048x2x64x64_d1 (ix4 b cc j l)
      = if cc.val = 0 then R (ix3 b j l) else I (ix3 b j l) := by
  -- a plane with a unit axis put in at position 1, read at (b, 0, j, l), is the plane at (b, j, l)
  have unit : ∀ P : FVec Ideal S2048x64x64 .f32,
      broadcastInDim S2048x1x64x64 ![0, 2, 3] bcast_S2048x64x64_S2048x1x64x64_0_2_3 P (ix4 b (0 : Fin 1) j l)
        = P (ix3 b j l) := fun P =>
    broadcastInDim_apply _ bcast_S2048x64x64_S2048x1x64x64_0_2_3 P (ix4 b (0 : Fin 1) j l) (ix3 b j l) fun a => by
      match a with
      | ⟨0, _⟩ => rfl
      | ⟨1, _⟩ => rfl
      | ⟨2, _⟩ => rfl
  match cc with
  | ⟨0, _⟩ =>
    -- coordinate 0 on the stacking axis falls in the first piece
    rw [if_pos rfl]
    refine (concatenate_pair_apply_left (s₁ := S2048x1x64x64) (s₂ := S2048x1x64x64) (1 : Fin 4) _ _ concatenates_S2048x1x64x64_S2048x1x64x64_S2048x2x64x64_d1
      (ix4 b (⟨0, by omega⟩ : Fin 2) j l) rfl (ix4 b (0 : Fin 1) j l) fun a => ?_).trans (unit R)
    match a with
    | ⟨0, _⟩ => rfl
    | ⟨1, _⟩ => rfl
    | ⟨2, _⟩ => rfl
    | ⟨3, _⟩ => rfl
  | ⟨1, _⟩ =>
    -- coordinate 1 falls in the second piece, at its position 0
    rw [if_neg Nat.one_ne_zero]
    refine (concatenate_pair_apply_right (s₁ := S2048x1x64x64) (s₂ := S2048x1x64x64) (1 : Fin 4) _ _ concatenates_S2048x1x64x64_S2048x1x64x64_S2048x2x64x64_d1
      (ix4 b (⟨1, by omega⟩ : Fin 2) j l) rfl rfl (ix4 b (0 : Fin 1) j l) (fun a ha => ?_) rfl).trans (unit I)
    match a with
    | ⟨0, _⟩ => rfl
    | ⟨1, _⟩ => exact absurd rfl ha
    | ⟨2, _⟩ => rfl
    | ⟨3, _⟩ => rfl

end Cert.ReferenceIdeal.PS

end
-- ==== Proof.RefValue.lean ====
/-
  The reference's result array, entry by entry: batch element b, plane cc, is the plane-by-plane series of x's
  element b.

  The reference forms the powers x², …, x⁷ of each batch element one after the other, each as two batched
  products of the previous power's planes with the planes of x, and accumulates on each plane one product with
  a coefficient matrix at a time. The text below follows it: first the next power from the previous one, then a
  power against one coefficient matrix, then the two accumulated planes term by term.
-/
import proofs.«402419_j3925600108785_3_alg».proof.Proof.RefReads

noncomputable section

namespace Cert.ReferenceIdeal.PS

open Idealize.ShloMosaic Idealize.ShloMosaic.ValueIdx Idealize.SL.Sem Idealize.ShloMosaic.StableHlo Cert.ReferenceIdeal Cert.ReferenceIdeal.Gen Cert.ReferenceIdeal.Value

variable (V0 : Valuation τ sig (Elt Ideal))

/-! ## The planes of the two arguments -/

/-- The real plane of element b of x. -/
abbrev xR (b : Fin 2048) : Fin 64 → Fin 64 → EReal := PSeries.plane (refX V0) b 0

/-- The imaginary plane of element b of x. -/
abbrev xI (b : Fin 2048) : Fin 64 → Fin 64 → EReal := PSeries.plane (refX V0) b 1

/-- The real planes of the eight coefficient matrices. -/
abbrev cR : Fin 8 → Fin 64 → Fin 64 → EReal := fun p => PSeries.plane (refC V0) p 0

/-- The imaginary planes of the eight coefficient matrices. -/
abbrev cI : Fin 8 → Fin 64 → Fin 64 → EReal := fun p => PSeries.plane (refC V0) p 1

/-! ## From one power to the next -/

/-- If T, U hold at batch element b the planes tr, ti of a power t, and X, Y the planes xr, xi of x, then
    T·X − U·Y holds the real plane tr·xr − ti·xi of t·x. -/
theorem stepR (T U X Y : FVec Ideal S2048x64x64 .f32) (b : Fin 2048) (tr ti xr xi : Fin 64 → Fin 64 → EReal)
    (hT : ∀ j k, T (ix3 b j k) = tr j k) (hU : ∀ j k, U (ix3 b j k) = ti j k)
    (hX : ∀ k l, X (ix3 b k l) = xr k l) (hY : ∀ k l, Y (ix3 b k l) = xi k l) (j l : Fin 64) :
    subf (Host.dotGeneral dot_S2048x64x64_S2048x64x64_S2048x64x64_2_1_1_2_0_0 none T X)
        (Host.dotGeneral dot_S2048x64x64_S2048x64x64_S2048x64x64_2_1_1_2_0_0 none U Y) (ix3 b j l)
      = PSeries.nextR xr xi tr ti j l := by
  show _ = (∑ k : Fin 64, tr j k * xr k l) - ∑ k : Fin 64, ti j k * xi k l
  rw [subf_apply, dot_bb, dot_bb]
  refine congrArg₂ (· - ·) ?_ ?_
  · exact Finset.sum_congr rfl fun k _ => by rw [hT, hX]
  · exact Finset.sum_congr rfl fun k _ => by rw [hU, hY]

/-- With the same T, U, X, Y: T·Y + U·X holds the imaginary plane tr·xi + ti·xr of t·x. -/
theorem stepI (T U X Y : FVec Ideal S2048x64x64 .f32) (b : Fin 2048) (tr ti xr xi : Fin 64 → Fin 64 → EReal)
    (hT : ∀ j k, T (ix3 b j k) = tr j k) (hU : ∀ j k, U (ix3 b j k) = ti j k)
    (hX : ∀ k l, X (ix3 b k l) = xr k l) (hY : ∀ k l, Y (ix3 b k l) = xi k l) (j l : Fin 64) :
    addf (Host.dotGeneral dot_S2048x64x64_S2048x64x64_S2048x64x64_2_1_1_2_0_0 none T Y)
        (Host.dotGeneral dot_S2048x64x64_S2048x64x64_S2048x64x64_2_1_1_2_0_0 none U X) (ix3 b j l)
      = PSeries.nextI xr xi tr ti j l := by
  show _ = (∑ k : Fin 64, tr j k * xi k l) + ∑ k : Fin 64, ti j k * xr k l
  rw [addf_apply, dot_bb, dot_bb]
  refine congrArg₂ (· + ·) ?_ ?_
  · exact Finset.sum_congr rfl fun k _ => by rw [hT, hY]
  · exact Finset.sum_congr rfl fun k _ => by rw [hU, hX]

/-! ## The powers x², …, x⁷ of a batch element -/

theorem v42_apply (b : Fin 2048) (j l : Fin 64) :
    res_main_v42 (F := Ideal) V0 (ix3 b j l) = PSeries.tr2 (xR V0 b) (xI V0 b) j l := by
  unfold res_main_v42
  exact stepR _ _ _ _ b _ _ _ _ (v1_apply V0 b) (v3_apply V0 b) (v1_apply V0 b) (v3_apply V0 b) j l

theorem v45_apply (b : Fin 2048) (j l : Fin 64) :
    res_main_v45 (F := Ideal) V0 (ix3 b j l) = PSeries.ti2 (xR V0 b) (xI V0 b) j l := by
  unfold res_main_v45
  exact stepI _ _ _ _ b _ _ _ _ (v1_apply V0 b) (v3_apply V0 b) (v1_apply V0 b) (v3_apply V0 b) j l

theorem v64_apply (b : Fin 2048) (j l : Fin 64) :
    res_main_v64 (F := Ideal) V0 (ix3 b j l) = PSeries.tr3 (xR V0 b) (xI V0 b) j l := by
  unfold res_main_v64
  exact stepR _ _ _ _ b _ _ _ _ (v42_apply V0 b) (v45_apply V0 b) (v1_apply V0 b) (v3_apply V0 b) j l

theorem v67_apply (b : Fin 2048) (j l : Fin 64) :
    res_main_v67 (F := Ideal) V0 (ix3 b j l) = PSeries.ti3 (xR V0 b) (xI V0 b) j l := by
  unfold res_main_v67
  exact stepI _ _ _ _ b _ _ _ _ (v42_apply V0 b) (v45_apply V0 b) (v1_apply V0 b) (v3_apply V0 b) j l

theorem v86_apply (b : Fin 2048) (j l : Fin 64) :
    res_main_v86 (F := Ideal) V0 (ix3 b j l) = PSeries.tr4 (xR V0 b) (xI V0 b) j l := by
  unfold res_main_v86
  exact stepR _ _ _ _ b _ _ _ _ (v64_apply V0 b) (v67_apply V0 b) (v1_apply V0 b) (v3_apply V0 b) j l

theorem v89_apply (b : Fin 2048) (j l : Fin 64) :
    res_main_v89 (F := Ideal) V0 (ix3 b j l) = PSeries.ti4 (xR V0 b) (xI V0 b) j l := by
  unfold res_main_v89
  exact stepI _ _ _ _ b _ _ _ _ (v64_apply V0 b) (v67_apply V0 b) (v1_apply V0 b) (v3_apply V0 b) j l

theorem v108_apply (b : Fin 2048) (j l : Fin 64) :
    res_main_v108 (F := Ideal) V0 (ix3 b j l) = PSeries.tr5 (xR V0 b) (xI V0 b) j l := by
  unfold res_main_v108
  exact stepR _ _ _ _ b _ _ _ _ (v86_apply V0 b) (v89_apply V0 b) (v1_apply V0 b) (v3_apply V0 b) j l

theorem v111_apply (b : Fin 2048) (j l : Fin 64) :
    res_main_v111 (F := Ideal) V0 (ix3 b j l) = PSeries.ti5 (xR V0 b) (xI V0 b) j l := by
  unfold res_main_v111
  exact stepI _ _ _ _ b _ _ _ _ (v86_apply V0 b) (v89_apply V0 b) (v1_apply V0 b) (v3_apply V0 b) j l

theorem v130_apply (b : Fin 2048) (j l : Fin 64) :
    res_main_v130 (F := Ideal) V0 (ix3 b j l) = PSeries.tr6 (xR V0 b) (xI V0 b) j l := by
  unfold res_main_v130
  exact stepR _ _ _ _ b _ _ _ _ (v108_apply V0 b) (v111_apply V0 b) (v1_apply V0 b) (v3_apply V0 b) j l

theorem v133_apply (b : Fin 2048) (j l : Fin 64) :
    res_main_v133 (F := Ideal) V0 (ix3 b j l) = PSeries.ti6 (xR V0 b) (xI V0 b) j l := by
  unfold res_main_v133
  exact stepI _ _ _ _ b _ _ _ _ (v108_apply V0 b) (v111_apply V0 b) (v1_apply V0 b) (v3_apply V0 b) j l

theorem v152_apply (b : Fin 2048) (j l : Fin 64) :
    res_main_v152 (F := Ideal) V0 (ix3 b j l) = PSeries.tr7 (xR V0 b) (xI V0 b) j l := by
  unfold res_main_v152
  exact stepR _ _ _ _ b _ _ _ _ (v130_apply V0 b) (v133_apply V0 b) (v1_apply V0 b) (v3_apply V0 b) j l

theorem v155_apply (b : Fin 2048) (j l : Fin 64) :
    res_main_v155 (F := Ideal) V0 (ix3 b j l) = PSeries.ti7 (xR V0 b) (xI V0 b) j l := by
  unfold res_main_v155
  exact stepI _ _ _ _ b _ _ _ _ (v130_apply V0 b) (v133_apply V0 b) (v1_apply V0 b) (v3_apply V0 b) j l

/-! ## A power against one coefficient matrix -/

/-- If T holds at batch element b the plane t, and the stack A holds the eight matrices a, then T times the
    p-th matrix cut out of A holds t·(a p). -/
theorem prod_apply (T : FVec Ideal S2048x64x64 .f32) (A : FVec Ideal S8x64x64 .f32) (b : Fin 2048)
    (t : Fin 64 → Fin 64 → EReal) (a : Fin 8 → Fin 64 → Fin 64 → EReal)
    (hT : ∀ j k, T (ix3 b j k) = t j k) (hA : ∀ p k l, A (ix3 p k l) = a p k l)
    (p : Fin 8) (h : S8x64x64.Slices ![p.val, 0, 0] S1x64x64) (j l : Fin 64) :
    Host.dotGeneral dot_S2048x64x64_S64x64_S2048x64x64_2_0_01_1_n_n none T
        (shapeCast S64x64 (extractStridedSlice S1x64x64 ![p.val, 0, 0] A h) shapeCasts_S1x64x64_S64x64) (ix3 b j l)
      = PSeries.mm t (a p) j l := by
  show _ = ∑ k : Fin 64, t j k * a p k l
  rw [dot_bc]
  exact Finset.sum_congr rfl fun k _ => by rw [hT, coef_apply, hA]

/-- The order-zero term: if E holds the matrix e, then E times the p-th matrix cut out of A, broadcast over the
    batch, holds e·(a p) at every batch element. -/
theorem zero_apply (E : FVec Ideal S64x64 .f32) (A : FVec Ideal S8x64x64 .f32)
    (e : Fin 64 → Fin 64 → EReal) (a : Fin 8 → Fin 64 → Fin 64 → EReal)
    (hE : ∀ j k, E (ix2 j k) = e j k) (hA : ∀ p k l, A (ix3 p k l) = a p k l)
    (p : Fin 8) (h : S8x64x64.Slices ![p.val, 0, 0] S1x64x64) (b : Fin 2048) (j l : Fin 64) :
    broadcastInDim S2048x64x64 ![0, 1, 2] bcast_S1x64x64_S2048x64x64_0_1_2
        (broadcastInDim S1x64x64 ![1, 2] bcast_S64x64_S1x64x64_1_2
          (Host.dotGeneral dot_S64x64_S64x64_S64x64_1_0_0_1_n_n none E
            (shapeCast S64x64 (extractStridedSlice S1x64x64 ![p.val, 0, 0] A h) shapeCasts_S1x64x64_S64x64)))
        (ix3 b j l)
      = PSeries.mm e (a p) j l := by
  show _ = ∑ k : Fin 64, e j k * a p k l
  rw [bcast_apply, dot_cc]
  exact Finset.sum_congr rfl fun k _ => by rw [hE, coef_apply, hA]

/-! ## The accumulated planes, term by term -/

/-- One more term on an accumulated plane, read at an entry: (acc + tr·a) − ti·c. -/
theorem term_apply (A P Q : FVec Ideal S2048x64x64 .f32) (b : Fin 2048)
    (acc tr ti a c : Fin 64 → Fin 64 → EReal) (j l : Fin 64)
    (hA : A (ix3 b j l) = acc j l) (hP : P (ix3 b j l) = PSeries.mm tr a j l)
    (hQ : Q (ix3 b j l) = PSeries.mm ti c j l) :
    subf (addf A P) Q (ix3 b j l) = PSeries.term acc tr ti a c j l := by
  show _ = (acc j l + PSeries.mm tr a j l) - PSeries.mm ti c j l
  rw [subf_apply, addf_apply, hA, hP, hQ]

/-- The terms of order 0 and 1 on the real plane: z + (p − q). -/
theorem firstR_apply (Z P Q : FVec Ideal S2048x64x64 .f32) (b : Fin 2048) (j l : Fin 64) (z p q : EReal)
    (hZ : Z (ix3 b j l) = z) (hP : P (ix3 b j l) = p) (hQ : Q (ix3 b j l) = q) :
    addf Z (subf P Q) (ix3 b j l) = z + (p - q) := by
  rw [addf_apply, subf_apply, hZ, hP, hQ]

/-- The terms of order 0 and 1 on the imaginary plane: z + (p + q). -/
theorem firstI_apply (Z P Q : FVec Ideal S2048x64x64 .f32) (b : Fin 2048) (j l : Fin 64) (z p q : EReal)
    (hZ : Z (ix3 b j l) = z) (hP : P (ix3 b j l) = p) (hQ : Q (ix3 b j l) = q) :
    addf Z (addf P Q) (ix3 b j l) = z + (p + q) := by
  rw [addf_apply, addf_apply, hZ, hP, hQ]

/-- The reference's result at batch element `b`, plane `cc`, row `j`, column `l`. -/
theorem ref_apply (b : Fin 2048) (cc : Fin 2) (j l : Fin 64) :
    res_out0 (F := Ideal) V0 (ix4 b cc j l)
      = PSeries.refOut (α := EReal) (PSeries.plane (refX V0) b 0) (PSeries.plane (refX V0) b 1)
          (fun p => PSeries.plane (refC V0) p 0) (fun p => PSeries.plane (refC V0) p 1) cc j l := by
  unfold res_out0 res_main_v174
  refine (stack_apply _ _ b cc j l).trans ?_
  unfold PSeries.refOut
  split
  · -- the real plane: orders 7, 6, …, 2 peeled off, then orders 1 and 0
    refine term_apply _ _ _ b _ _ _ _ _ j l ?_
      (prod_apply _ _ b _ (cR V0) (v152_apply V0 b) (v5_apply V0) 7 _ j l)
      (prod_apply _ _ b _ (cI V0) (v155_apply V0 b) (v7_apply V0) 7 _ j l)
    refine term_apply _ _ _ b _ _ _ _ _ j l ?_
      (prod_apply _ _ b _ (cR V0) (v130_apply V0 b) (v5_apply V0) 6 _ j l)
      (prod_apply _ _ b _ (cI V0) (v133_apply V0 b) (v7_apply V0) 6 _ j l)
    refine term_apply _ _ _ b _ _ _ _ _ j l ?_
      (prod_apply _ _ b _ (cR V0) (v108_apply V0 b) (v5_apply V0) 5 _ j l)
      (prod_apply _ _ b _ (cI V0) (v111_apply V0 b) (v7_apply V0) 5 _ j l)
    refine term_apply _ _ _ b _ _ _ _ _ j l ?_
      (prod_apply _ _ b _ (cR V0) (v86_apply V0 b) (v5_apply V0) 4 _ j l)
      (prod_apply _ _ b _ (cI V0) (v89_apply V0 b) (v7_apply V0) 4 _ j l)
    refine term_apply _ _ _ b _ _ _ _ _ j l ?_
      (prod_apply _ _ b _ (cR V0) (v64_apply V0 b) (v5_apply V0) 3 _ j l)
      (prod_apply _ _ b _ (cI V0) (v67_apply V0 b) (v7_apply V0) 3 _ j l)
    refine term_apply _ _ _ b _ _ _ _ _ j l ?_
      (prod_apply _ _ b _ (cR V0) (v42_apply V0 b) (v5_apply V0) 2 _ j l)
      (prod_apply _ _ b _ (cI V0) (v45_apply V0 b) (v7_apply V0) 2 _ j l)
    exact firstR_apply _ _ _ b j l _ _ _
      (zero_apply _ _ _ (cR V0) (v13_apply V0) (v5_apply V0) 0 _ b j l)
      (prod_apply _ _ b _ (cR V0) (v1_apply V0 b) (v5_apply V0) 1 _ j l)
      (prod_apply _ _ b _ (cI V0) (v3_apply V0 b) (v7_apply V0) 1 _ j l)
  · -- the imaginary plane, the same way: from order 2 on each term adds tr·ci and takes ti·cr off
    refine term_apply _ _ _ b _ _ _ _ _ j l ?_
      (prod_apply _ _ b _ (cI V0) (v152_apply V0 b) (v7_apply V0) 7 _ j l)
      (prod_apply _ _ b _ (cR V0) (v155_apply V0 b) (v5_apply V0) 7 _ j l)
    refine term_apply _ _ _ b _ _ _ _ _ j l ?_
      (prod_apply _ _ b _ (cI V0) (v130_apply V0 b) (v7_apply V0) 6 _ j l)
      (prod_apply _ _ b _ (cR V0) (v133_apply V0 b) (v5_apply V0) 6 _ j l)
    refine term_apply _ _ _ b _ _ _ _ _ j l ?_
      (prod_apply _ _ b _ (cI V0) (v108_apply V0 b) (v7_apply V0) 5 _ j l)
      (prod_apply _ _ b _ (cR V0) (v111_apply V0 b) (v5_apply V0) 5 _ j l)
    refine term_apply _ _ _ b _ _ _ _ _ j l ?_
      (prod_apply _ _ b _ (cI V0) (v86_apply V0 b) (v7_apply V0) 4 _ j l)
      (prod_apply _ _ b _ (cR V0) (v89_apply V0 b) (v5_apply V0) 4 _ j l)
    refine term_apply _ _ _ b _ _ _ _ _ j l ?_
      (prod_apply _ _ b _ (cI V0) (v64_apply V0 b) (v7_apply V0) 3 _ j l)
      (prod_apply _ _ b _ (cR V0) (v67_apply V0 b) (v5_apply V0) 3 _ j l)
    refine term_apply _ _ _ b _ _ _ _ _ j l ?_
      (prod_apply _ _ b _ (cI V0) (v42_apply V0 b) (v7_apply V0) 2 _ j l)
      (prod_apply _ _ b _ (cR V0) (v45_apply V0 b) (v5_apply V0) 2 _ j l)
    exact firstI_apply _ _ _ b j l _ _ _
      (zero_apply _ _ _ (cI V0) (v13_apply V0) (v7_apply V0) 0 _ b j l)
      (prod_apply _ _ b _ (cI V0) (v1_apply V0 b) (v7_apply V0) 1 _ j l)
      (prod_apply _ _ b _ (cR V0) (v3_apply V0 b) (v5_apply V0) 1 _ j l)

end Cert.ReferenceIdeal.PS

end
-- ==== Proof.Algebra.lean ====
/-
  Over the reals the packed form of the power series equals the plane-by-plane form.

  The road.  A sum over 128 indices splits at 64, which gives the block laws
      [A | B]·[C ; D] = A·C + B·D,   A·[C | D] = [A·C | A·D],   [A ; B]·C = [A·C ; B·C].
  With X = [[xr, xi], [−xi, xr]] the first two give the step law [tr | ti]·X = [tr·xr − ti·xi | tr·xi + ti·xr],
  so every packed power T_p is [tr_p | ti_p]; the re-associated powers ([T_1 ; T_2]·X² and so on) are brought back to
  repeated steps by associativity of the product.  A sum over 896 = 7·128 indices is a sum over seven blocks of 128,
  so the stacked product is Σ_p T_p·W_p, and each T_p·W_p is read off by the block laws again.  What is left is an
  identity between two sums of the same sixteen products, in a different order.
-/
import proofs.«402419_j3925600108785_3_alg».proof.Proof.Spec
import Mathlib.Data.Real.Basic
import Mathlib.Data.Fintype.BigOperators
import Mathlib.Algebra.BigOperators.Fin
import Mathlib.Algebra.BigOperators.Ring.Finset
import Mathlib.Algebra.BigOperators.Group.Finset.Piecewise
import Mathlib.Algebra.BigOperators.Group.Finset.Sigma
import Mathlib.Logic.Equiv.Fin.Basic
import Mathlib.Tactic.Ring

namespace PSeries

namespace Alg

/-! ## Entries of blocks set side by side and of stacked blocks -/

/-- Column l < 64 of [A | B] is column l of A. -/
theorem hcat_lo (A B : Fin 64 → Fin 64 → ℝ) (j l : Fin 64) (h : l.val < 128) :
    hcat A B j ⟨l.val, h⟩ = A j l := by
  simp [hcat, l.isLt]

/-- Column l + 64 of [A | B] is column l of B. -/
theorem hcat_hi (A B : Fin 64 → Fin 64 → ℝ) (j l : Fin 64) (h : l.val + 64 < 128) :
    hcat A B j ⟨l.val + 64, h⟩ = B j l := by
  simp [hcat]

/-- Row j < 64 of [A ; B] is row j of A. -/
theorem vcat_lo (A B : Fin 64 → Fin 128 → ℝ) (j : Fin 64) (l : Fin 128) (h : j.val < 128) :
    vcat A B ⟨j.val, h⟩ l = A j l := by
  simp [vcat, j.isLt]

/-- Row j + 64 of [A ; B] is row j of B. -/
theorem vcat_hi (A B : Fin 64 → Fin 128 → ℝ) (j : Fin 64) (l : Fin 128) (h : j.val + 64 < 128) :
    vcat A B ⟨j.val + 64, h⟩ l = B j l := by
  simp [vcat]

/-- The upper half of [A ; B] is A. -/
theorem top_vcat (A B : Fin 64 → Fin 128 → ℝ) : top (vcat A B) = A := by
  funext j l
  simp [top, vcat, j.isLt]

/-- The lower half of [A ; B] is B. -/
theorem bot_vcat (A B : Fin 64 → Fin 128 → ℝ) : bot (vcat A B) = B := by
  funext j l
  simp [bot, vcat]

/-! ## Splitting sums -/

/-- A sum over 128 indices is the sum over the first 64 plus the sum over the last 64. -/
theorem sum_128 (f : Fin 128 → ℝ) :
    ∑ t : Fin 128, f t
      = ∑ t : Fin 64, f ⟨t.val, by have := t.isLt; omega⟩
        + ∑ t : Fin 64, f ⟨t.val + 64, by have := t.isLt; omega⟩ := by
  refine (Fin.sum_univ_add (a := 64) (b := 64) f).trans ?_
  congr 1

/-- A sum over 896 = 7·128 indices is a sum over seven blocks of 128: index q + 128·p is place q of block p. -/
theorem sum_896 (f : Fin 896 → ℝ) :
    ∑ k : Fin 896, f k
      = ∑ p : Fin 7, ∑ q : Fin 128,
          f ⟨q.val + 128 * p.val, by have := p.isLt; have := q.isLt; omega⟩ := by
  have e := Fintype.sum_equiv (finProdFinEquiv (m := 7) (n := 128))
    (fun x : Fin 7 × Fin 128 => f (finProdFinEquiv x)) f (fun _ => rfl)
  rw [← e, Fintype.sum_prod_type]
  rfl

/-! ## Laws of the product -/

/-- [A | B]·[C ; D] = A·C + B·D. -/
theorem mm_hcat_vcat (A B : Fin 64 → Fin 64 → ℝ) (C D : Fin 64 → Fin 128 → ℝ) (j : Fin 64) (l : Fin 128) :
    mm (hcat A B) (vcat C D) j l = mm A C j l + mm B D j l := by
  unfold mm
  rw [sum_128]
  simp only [hcat_lo, hcat_hi, vcat_lo, vcat_hi]

/-- A·[C | D] = [A·C | A·D]. -/
theorem mm_hcat (A C D : Fin 64 → Fin 64 → ℝ) : mm A (hcat C D) = hcat (mm A C) (mm A D) := by
  funext j l
  by_cases h : l.val < 64 <;> simp [mm, hcat, h]

/-- [A ; B]·C = [A·C ; B·C]. -/
theorem mm_vcat (A B : Fin 64 → Fin 128 → ℝ) (C : Fin 128 → Fin 128 → ℝ) :
    mm (vcat A B) C = vcat (mm A C) (mm B C) := by
  funext j l
  by_cases h : j.val < 64 <;> simp [mm, vcat, h]

/-- The product is associative. -/
theorem mm_assoc (A : Fin 64 → Fin 128 → ℝ) (B C : Fin 128 → Fin 128 → ℝ) :
    mm A (mm B C) = mm (mm A B) C := by
  funext j l
  simp only [mm, Finset.mul_sum, Finset.sum_mul]
  rw [Finset.sum_comm]
  simp only [mul_assoc]

/-- A·(−B) = −(A·B), entry by entry. -/
theorem mm_neg (A B : Fin 64 → Fin 64 → ℝ) (j l : Fin 64) :
    mm A (fun s t => -(B s t)) j l = -(mm A B j l) := by
  simp [mm, Finset.sum_neg_distrib]

/-- A·(0 − B) = −(A·B), entry by entry. -/
theorem mm_zero_sub (A B : Fin 64 → Fin 64 → ℝ) (j l : Fin 64) :
    mm A (fun s t => 0 - B s t) j l = -(mm A B j l) := by
  simp [mm, Finset.sum_neg_distrib]

/-- The unit matrix is a left unit. -/
theorem mm_eye (A : Fin 64 → Fin 64 → ℝ) (j l : Fin 64) : mm eye A j l = A j l := by
  simp [mm, eye, Fin.val_inj]

/-! ## The packed powers -/

section Powers

variable (xr xi : Fin 64 → Fin 64 → ℝ)

/-- The step law: [tr | ti]·X = [tr·xr − ti·xi | tr·xi + ti·xr]. -/
theorem step (tr ti : Fin 64 → Fin 64 → ℝ) :
    mm (hcat tr ti) (kX xr xi) = hcat (nextR xr xi tr ti) (nextI xr xi tr ti) := by
  funext j l
  unfold kX
  rw [mm_hcat_vcat, mm_hcat, mm_hcat]
  by_cases h : l.val < 64
  · simp only [hcat, h, dif_pos, nextR, mm_zero_sub]
    ring
  · simp only [hcat, h, dif_neg, not_false_eq_true, nextI]

/-- Two stacked powers times X² are the two powers two steps on. -/
theorem pair_step (a b c d : Fin 64 → Fin 64 → ℝ) :
    mm (vcat (hcat a b) (hcat c d)) (kX2 xr xi)
      = vcat
          (hcat (nextR xr xi (nextR xr xi a b) (nextI xr xi a b)) (nextI xr xi (nextR xr xi a b) (nextI xr xi a b)))
          (hcat (nextR xr xi (nextR xr xi c d) (nextI xr xi c d)) (nextI xr xi (nextR xr xi c d) (nextI xr xi c d))) := by
  unfold kX2
  rw [mm_vcat, mm_assoc, mm_assoc, step, step, step, step]

theorem kT2_eq : kT2 xr xi = hcat (tr2 xr xi) (ti2 xr xi) := step xr xi xr xi

theorem kT34_eq : kT34 xr xi
    = vcat (hcat (tr3 xr xi) (ti3 xr xi)) (hcat (tr4 xr xi) (ti4 xr xi)) := by
  unfold kT34
  rw [kT2_eq]
  exact pair_step xr xi xr xi (tr2 xr xi) (ti2 xr xi)

theorem kT56_eq : kT56 xr xi
    = vcat (hcat (tr5 xr xi) (ti5 xr xi)) (hcat (tr6 xr xi) (ti6 xr xi)) := by
  unfold kT56
  rw [kT34_eq]
  exact pair_step xr xi (tr3 xr xi) (ti3 xr xi) (tr4 xr xi) (ti4 xr xi)

theorem kT7_eq : kT7 xr xi = hcat (tr7 xr xi) (ti7 xr xi) := by
  unfold kT7
  rw [kT56_eq, bot_vcat]
  exact step xr xi (tr6 xr xi) (ti6 xr xi)

theorem kT_0 : kT xr xi 0 = hcat xr xi := rfl
theorem kT_1 : kT xr xi 1 = hcat (tr2 xr xi) (ti2 xr xi) := kT2_eq xr xi
theorem kT_2 : kT xr xi 2 = hcat (tr3 xr xi) (ti3 xr xi) := by
  show top (kT34 xr xi) = _
  rw [kT34_eq, top_vcat]
theorem kT_3 : kT xr xi 3 = hcat (tr4 xr xi) (ti4 xr xi) := by
  show bot (kT34 xr xi) = _
  rw [kT34_eq, bot_vcat]
theorem kT_4 : kT xr xi 4 = hcat (tr5 xr xi) (ti5 xr xi) := by
  show top (kT56 xr xi) = _
  rw [kT56_eq, top_vcat]
theorem kT_5 : kT xr xi 5 = hcat (tr6 xr xi) (ti6 xr xi) := by
  show bot (kT56 xr xi) = _
  rw [kT56_eq, bot_vcat]
theorem kT_6 : kT xr xi 6 = hcat (tr7 xr xi) (ti7 xr xi) := kT7_eq xr xi

end Powers

/-! ## The stacked product -/

section Stack

variable (xr xi : Fin 64 → Fin 64 → ℝ) (cr ci : Fin 8 → Fin 64 → Fin 64 → ℝ)

/-- Column q + 128·p of the stacked powers is column q of power p. -/
theorem kStack_at (p : Fin 7) (q : Fin 128) (j : Fin 64) (h : q.val + 128 * p.val < 896) :
    kStack xr xi j ⟨q.val + 128 * p.val, h⟩ = kT xr xi p j q := by
  have h1 : (q.val + 128 * p.val) / 128 = p.val := by have := q.isLt; omega
  have h2 : (q.val + 128 * p.val) % 128 = q.val := by have := q.isLt; omega
  simp only [kStack, h1, h2]

/-- Row q + 128·p of the stacked coefficient blocks is row q of block p. -/
theorem packW_at (p : Fin 7) (q l : Fin 128) (h : q.val + 128 * p.val < 896) :
    packW cr ci ⟨q.val + 128 * p.val, h⟩ l = packBlock cr ci p q l := by
  have h1 : (q.val + 128 * p.val) / 128 = p.val := by have := q.isLt; omega
  have h2 : (q.val + 128 * p.val) % 128 = q.val := by have := q.isLt; omega
  simp only [packW, h1, h2]

/-- The stacked product is the sum of the seven block products. -/
theorem mm_stack (j : Fin 64) (l : Fin 128) :
    mm (kStack xr xi) (packW cr ci) j l = ∑ p : Fin 7, mm (kT xr xi p) (packBlock cr ci p) j l := by
  unfold mm
  rw [sum_896]
  simp only [kStack_at, packW_at]

end Stack

/-! ## The two planes -/

section Planes

variable (xr xi : Fin 64 → Fin 64 → ℝ) (cr ci : Fin 8 → Fin 64 → Fin 64 → ℝ)

/-- The first coefficient block keeps the sign of cr in its lower right corner. -/
theorem packBlock_0 : packBlock cr ci 0
    = vcat (hcat (cr 1) (ci 1)) (hcat (fun j l => -(ci 1 j l)) (cr 1)) := rfl

/-- The later coefficient blocks negate cr in their lower right corner. -/
theorem packBlock_1 : packBlock cr ci 1
    = vcat (hcat (cr 2) (ci 2)) (hcat (fun j l => -(ci 2 j l)) (fun j l => -(cr 2 j l))) := rfl
theorem packBlock_2 : packBlock cr ci 2
    = vcat (hcat (cr 3) (ci 3)) (hcat (fun j l => -(ci 3 j l)) (fun j l => -(cr 3 j l))) := rfl
theorem packBlock_3 : packBlock cr ci 3
    = vcat (hcat (cr 4) (ci 4)) (hcat (fun j l => -(ci 4 j l)) (fun j l => -(cr 4 j l))) := rfl
theorem packBlock_4 : packBlock cr ci 4
    = vcat (hcat (cr 5) (ci 5)) (hcat (fun j l => -(ci 5 j l)) (fun j l => -(cr 5 j l))) := rfl
theorem packBlock_5 : packBlock cr ci 5
    = vcat (hcat (cr 6) (ci 6)) (hcat (fun j l => -(ci 6 j l)) (fun j l => -(cr 6 j l))) := rfl
theorem packBlock_6 : packBlock cr ci 6
    = vcat (hcat (cr 7) (ci 7)) (hcat (fun j l => -(ci 7 j l)) (fun j l => -(cr 7 j l))) := rfl

/-- The left half of [tr | ti]·[[a, b], [c, d]] is tr·a + ti·c. -/
theorem blk_lo (tr ti a b c d : Fin 64 → Fin 64 → ℝ) (j l : Fin 64) (h : l.val < 128) :
    mm (hcat tr ti) (vcat (hcat a b) (hcat c d)) j ⟨l.val, h⟩ = mm tr a j l + mm ti c j l := by
  rw [mm_hcat_vcat, mm_hcat, mm_hcat, hcat_lo, hcat_lo]

/-- The right half of [tr | ti]·[[a, b], [c, d]] is tr·b + ti·d. -/
theorem blk_hi (tr ti a b c d : Fin 64 → Fin 64 → ℝ) (j l : Fin 64) (h : l.val + 64 < 128) :
    mm (hcat tr ti) (vcat (hcat a b) (hcat c d)) j ⟨l.val + 64, h⟩ = mm tr b j l + mm ti d j l := by
  rw [mm_hcat_vcat, mm_hcat, mm_hcat, hcat_hi, hcat_hi]

/-- The left half of the packed result is the real plane of the series. -/
theorem real_plane (j l : Fin 64) (h : l.val < 128) :
    kPacked xr xi (packW cr ci) (packC0 cr ci) j ⟨l.val, h⟩ = rR7 xr xi cr ci j l := by
  unfold kPacked
  rw [mm_stack, Fin.sum_univ_seven, kT_0, kT_1, kT_2, kT_3, kT_4, kT_5, kT_6,
    packBlock_0, packBlock_1, packBlock_2, packBlock_3, packBlock_4, packBlock_5, packBlock_6]
  simp only [blk_lo, mm_neg, packC0, hcat_lo]
  simp only [rR7, rR6, rR5, rR4, rR3, rR2, rR1, term, mm_eye]
  ring

/-- The right half of the packed result is the imaginary plane of the series. -/
theorem imag_plane (j l : Fin 64) (h : l.val + 64 < 128) :
    kPacked xr xi (packW cr ci) (packC0 cr ci) j ⟨l.val + 64, h⟩ = rI7 xr xi cr ci j l := by
  unfold kPacked
  rw [mm_stack, Fin.sum_univ_seven, kT_0, kT_1, kT_2, kT_3, kT_4, kT_5, kT_6,
    packBlock_0, packBlock_1, packBlock_2, packBlock_3, packBlock_4, packBlock_5, packBlock_6]
  simp only [blk_hi, mm_neg, packC0, hcat_hi]
  simp only [rI7, rI6, rI5, rI4, rI3, rI2, rI1, term, mm_eye]
  ring

end Planes

end Alg

/-- Over ℝ: the packed result, cut into its two planes, is the plane-by-plane series. -/
theorem kOut_real (xr xi : Fin 64 → Fin 64 → ℝ) (cr ci : Fin 8 → Fin 64 → Fin 64 → ℝ) :
    kOut xr xi (packW cr ci) (packC0 cr ci) = refOut xr xi cr ci := by
  funext c j l
  have hc : c = 0 ∨ c = 1 := by omega
  rcases hc with rfl | rfl
  · have e : (⟨64 * (0 : Fin 2).val + l.val, by have := l.isLt; simp; omega⟩ : Fin 128)
        = ⟨l.val, by have := l.isLt; omega⟩ := by
      ext; simp
    show kPacked xr xi (packW cr ci) (packC0 cr ci) j ⟨64 * (0 : Fin 2).val + l.val, _⟩
        = rR7 xr xi cr ci j l
    rw [e]
    exact Alg.real_plane xr xi cr ci j l _
  · have e : (⟨64 * (1 : Fin 2).val + l.val, by have := l.isLt; simp; omega⟩ : Fin 128)
        = ⟨l.val + 64, by have := l.isLt; omega⟩ := by
      ext; simp; omega
    show kPacked xr xi (packW cr ci) (packC0 cr ci) j ⟨64 * (1 : Fin 2).val + l.val, _⟩
        = rI7 xr xi cr ci j l
    rw [e]
    exact Alg.imag_plane xr xi cr ci j l _

end PSeries
-- ==== Proof.Transfer.lean ====
/-
  Both forms of the series commute with the inclusion of the reals in the extended reals, so on real-valued inputs
  the two forms agree as extended reals.

  Every definition of the specification is built from finite sums, products, differences, negations, 0, 1 and
  case distinctions on indices.  The inclusion ℝ → EReal respects each of these on real arguments, so each
  definition applied to included arrays is the inclusion of the same definition applied to the real arrays.  The
  lemmas below say this for one definition at a time, in the order in which the definitions depend on one another;
  each is stated in the shape "D (entrywise inclusion of the inputs) = entrywise inclusion of (D inputs)", which is
  the shape the next lemma consumes.
-/
import proofs.«402419_j3925600108785_3_alg».proof.Proof.Spec
import proofs.«402419_j3925600108785_3_alg».proof.Proof.Algebra

namespace PSeries

/-! ## The inclusion on scalars -/

/-- The inclusion is additive and sends 0 to 0, hence commutes with finite sums. -/
theorem coe_sum {ι : Type} (s : Finset ι) (f : ι → ℝ) :
    ((∑ t ∈ s, f t : ℝ) : EReal) = ∑ t ∈ s, ((f t : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- 0 − x, formed at the extended reals on an included real, is the inclusion of the real 0 − x. -/
theorem zero_sub_coe (x : ℝ) : (0 : EReal) - (x : EReal) = ((0 - x : ℝ) : EReal) := by
  rw [EReal.coe_sub, EReal.coe_zero]

/-- A case distinction between two included reals is the inclusion of the case distinction. -/
theorem ite_coe (c : Prop) [Decidable c] (a b : ℝ) :
    (if c then (a : EReal) else (b : EReal)) = ((if c then a else b : ℝ) : EReal) := by
  split <;> rfl

/-! ## Arrays -/

/-- Matrix product: each entry is a finite sum of products. -/
theorem mm_coe {r k c : ℕ} (A : Fin r → Fin k → ℝ) (B : Fin k → Fin c → ℝ) :
    mm (α := EReal) (fun j t => ((A j t : ℝ) : EReal)) (fun t l => ((B t l : ℝ) : EReal))
      = fun j l => ((mm A B j l : ℝ) : EReal) := by
  funext j l
  unfold mm
  rw [coe_sum]
  exact Finset.sum_congr rfl (fun t _ => (EReal.coe_mul _ _).symm)

/-- Side-by-side blocks: each entry is an entry of one of the two blocks. -/
theorem hcat_coe {r : ℕ} (A B : Fin r → Fin 64 → ℝ) :
    hcat (α := EReal) (fun j l => ((A j l : ℝ) : EReal)) (fun j l => ((B j l : ℝ) : EReal))
      = fun j l => ((hcat A B j l : ℝ) : EReal) := by
  funext j l
  unfold hcat
  split <;> rfl

/-- Stacked blocks: each entry is an entry of one of the two blocks. -/
theorem vcat_coe {c : ℕ} (A B : Fin 64 → Fin c → ℝ) :
    vcat (α := EReal) (fun j l => ((A j l : ℝ) : EReal)) (fun j l => ((B j l : ℝ) : EReal))
      = fun j l => ((vcat A B j l : ℝ) : EReal) := by
  funext j l
  unfold vcat
  split <;> rfl

/-- The upper half of the rows. -/
theorem top_coe {c : ℕ} (A : Fin 128 → Fin c → ℝ) :
    top (α := EReal) (fun j l => ((A j l : ℝ) : EReal)) = fun j l => ((top A j l : ℝ) : EReal) := rfl

/-- The lower half of the rows. -/
theorem bot_coe {c : ℕ} (A : Fin 128 → Fin c → ℝ) :
    bot (α := EReal) (fun j l => ((A j l : ℝ) : EReal)) = fun j l => ((bot A j l : ℝ) : EReal) := rfl

/-! ## The packed form -/

section Packed

variable (xr xi : Fin 64 → Fin 64 → ℝ)

/-- The first packed power. -/
theorem kT1_coe :
    kT1 (α := EReal) (fun j l => ((xr j l : ℝ) : EReal)) (fun j l => ((xi j l : ℝ) : EReal))
      = fun j l => ((kT1 xr xi j l : ℝ) : EReal) :=
  hcat_coe xr xi

/-- The operator of right multiplication by x; its lower left block is 0 − xi entry by entry. -/
theorem kX_coe :
    kX (α := EReal) (fun j l => ((xr j l : ℝ) : EReal)) (fun j l => ((xi j l : ℝ) : EReal))
      = fun j l => ((kX xr xi j l : ℝ) : EReal) := by
  unfold kX
  simp only [zero_sub_coe]
  rw [hcat_coe, hcat_coe, vcat_coe]

/-- The second packed power. -/
theorem kT2_coe :
    kT2 (α := EReal) (fun j l => ((xr j l : ℝ) : EReal)) (fun j l => ((xi j l : ℝ) : EReal))
      = fun j l => ((kT2 xr xi j l : ℝ) : EReal) := by
  unfold kT2
  rw [kT1_coe, kX_coe, mm_coe]

/-- The operator of right multiplication by x². -/
theorem kX2_coe :
    kX2 (α := EReal) (fun j l => ((xr j l : ℝ) : EReal)) (fun j l => ((xi j l : ℝ) : EReal))
      = fun j l => ((kX2 xr xi j l : ℝ) : EReal) := by
  unfold kX2
  rw [kX_coe, mm_coe]

/-- Powers three and four, stacked. -/
theorem kT34_coe :
    kT34 (α := EReal) (fun j l => ((xr j l : ℝ) : EReal)) (fun j l => ((xi j l : ℝ) : EReal))
      = fun j l => ((kT34 xr xi j l : ℝ) : EReal) := by
  unfold kT34
  rw [kT1_coe, kT2_coe, kX2_coe, vcat_coe, mm_coe]

/-- Powers five and six, stacked. -/
theorem kT56_coe :
    kT56 (α := EReal) (fun j l => ((xr j l : ℝ) : EReal)) (fun j l => ((xi j l : ℝ) : EReal))
      = fun j l => ((kT56 xr xi j l : ℝ) : EReal) := by
  unfold kT56
  rw [kT34_coe, kX2_coe, mm_coe]

/-- The seventh packed power. -/
theorem kT7_coe :
    kT7 (α := EReal) (fun j l => ((xr j l : ℝ) : EReal)) (fun j l => ((xi j l : ℝ) : EReal))
      = fun j l => ((kT7 xr xi j l : ℝ) : EReal) := by
  unfold kT7
  rw [kT56_coe, kX_coe, bot_coe, mm_coe]

/-- Each of the seven packed powers, by cases on its number. -/
theorem kT_coe (p : Fin 7) :
    kT (α := EReal) (fun j l => ((xr j l : ℝ) : EReal)) (fun j l => ((xi j l : ℝ) : EReal)) p
      = fun j l => ((kT xr xi p j l : ℝ) : EReal) := by
  match p with
  | ⟨0, _⟩ => exact kT1_coe xr xi
  | ⟨1, _⟩ => exact kT2_coe xr xi
  | ⟨2, _⟩ => show top (kT34 _ _) = _; rw [kT34_coe, top_coe]; rfl
  | ⟨3, _⟩ => show bot (kT34 _ _) = _; rw [kT34_coe, bot_coe]; rfl
  | ⟨4, _⟩ => show top (kT56 _ _) = _; rw [kT56_coe, top_coe]; rfl
  | ⟨5, _⟩ => show bot (kT56 _ _) = _; rw [kT56_coe, bot_coe]; rfl
  | ⟨_ + 6, _⟩ => exact kT7_coe xr xi

/-- The seven packed powers side by side: each entry is an entry of one power. -/
theorem kStack_coe :
    kStack (α := EReal) (fun j l => ((xr j l : ℝ) : EReal)) (fun j l => ((xi j l : ℝ) : EReal))
      = fun j k => ((kStack xr xi j k : ℝ) : EReal) := by
  funext j k
  unfold kStack
  rw [kT_coe]

/-- The packed result: a matrix product plus the order-zero term. -/
theorem kPacked_coe (w : Fin 896 → Fin 128 → ℝ) (c0 : Fin 64 → Fin 128 → ℝ) :
    kPacked (α := EReal) (fun j l => ((xr j l : ℝ) : EReal)) (fun j l => ((xi j l : ℝ) : EReal))
        (fun k l => ((w k l : ℝ) : EReal)) (fun j l => ((c0 j l : ℝ) : EReal))
      = fun j l => ((kPacked xr xi w c0 j l : ℝ) : EReal) := by
  funext j l
  unfold kPacked
  rw [kStack_coe, mm_coe, EReal.coe_add]

/-- The two planes of the packed result. -/
theorem kOut_coe (w : Fin 896 → Fin 128 → ℝ) (c0 : Fin 64 → Fin 128 → ℝ) :
    kOut (α := EReal) (fun j l => ((xr j l : ℝ) : EReal)) (fun j l => ((xi j l : ℝ) : EReal))
        (fun k l => ((w k l : ℝ) : EReal)) (fun j l => ((c0 j l : ℝ) : EReal))
      = fun c j l => ((kOut xr xi w c0 c j l : ℝ) : EReal) := by
  funext c j l
  unfold kOut
  rw [kPacked_coe]

end Packed

/-! ## The packed coefficients -/

section Coefficients

variable (cr ci : Fin 8 → Fin 64 → Fin 64 → ℝ)

/-- The packed order-zero term. -/
theorem packC0_coe :
    packC0 (α := EReal) (fun p j l => ((cr p j l : ℝ) : EReal)) (fun p j l => ((ci p j l : ℝ) : EReal))
      = fun j l => ((packC0 cr ci j l : ℝ) : EReal) :=
  hcat_coe (cr 0) (ci 0)

/-- One coefficient block: its lower blocks are negations, the lower right one by a case distinction on the
    number of the term. -/
theorem packBlock_coe (p : Fin 7) :
    packBlock (α := EReal) (fun p j l => ((cr p j l : ℝ) : EReal)) (fun p j l => ((ci p j l : ℝ) : EReal)) p
      = fun j l => ((packBlock cr ci p j l : ℝ) : EReal) := by
  unfold packBlock
  simp only [← EReal.coe_neg, ite_coe]
  rw [hcat_coe, hcat_coe, vcat_coe]

/-- The seven coefficient blocks stacked: each entry is an entry of one block. -/
theorem packW_coe :
    packW (α := EReal) (fun p j l => ((cr p j l : ℝ) : EReal)) (fun p j l => ((ci p j l : ℝ) : EReal))
      = fun k l => ((packW cr ci k l : ℝ) : EReal) := by
  funext k l
  unfold packW
  rw [packBlock_coe]

end Coefficients

/-! ## The plane-by-plane form -/

section Planes

variable (xr xi : Fin 64 → Fin 64 → ℝ) (cr ci : Fin 8 → Fin 64 → Fin 64 → ℝ)

/-- The unit matrix: its entries are 1 and 0, both included reals. -/
theorem eye_coe : eye (α := EReal) = fun j k => ((eye (α := ℝ) j k : ℝ) : EReal) := by
  funext j k
  unfold eye
  rw [← EReal.coe_one, ← EReal.coe_zero, ite_coe]

/-- The real plane of t · x: a difference of two matrix products. -/
theorem nextR_coe (tr ti : Fin 64 → Fin 64 → ℝ) :
    nextR (α := EReal) (fun j l => ((xr j l : ℝ) : EReal)) (fun j l => ((xi j l : ℝ) : EReal))
        (fun j l => ((tr j l : ℝ) : EReal)) (fun j l => ((ti j l : ℝ) : EReal))
      = fun j l => ((nextR xr xi tr ti j l : ℝ) : EReal) := by
  funext j l
  unfold nextR
  rw [mm_coe, mm_coe, EReal.coe_sub]

/-- The imaginary plane of t · x: a sum of two matrix products. -/
theorem nextI_coe (tr ti : Fin 64 → Fin 64 → ℝ) :
    nextI (α := EReal) (fun j l => ((xr j l : ℝ) : EReal)) (fun j l => ((xi j l : ℝ) : EReal))
        (fun j l => ((tr j l : ℝ) : EReal)) (fun j l => ((ti j l : ℝ) : EReal))
      = fun j l => ((nextI xr xi tr ti j l : ℝ) : EReal) := by
  funext j l
  unfold nextI
  rw [mm_coe, mm_coe, EReal.coe_add]

/-- The second power, real plane. -/
theorem tr2_coe : tr2 (α := EReal) (fun j l => ((xr j l : ℝ) : EReal)) (fun j l => ((xi j l : ℝ) : EReal)) = fun j l => ((tr2 xr xi j l : ℝ) : EReal) :=
  nextR_coe xr xi xr xi

/-- The second power, imaginary plane. -/
theorem ti2_coe : ti2 (α := EReal) (fun j l => ((xr j l : ℝ) : EReal)) (fun j l => ((xi j l : ℝ) : EReal)) = fun j l => ((ti2 xr xi j l : ℝ) : EReal) :=
  nextI_coe xr xi xr xi

/-- The third power, real plane: one more multiplication by x. -/
theorem tr3_coe : tr3 (α := EReal) (fun j l => ((xr j l : ℝ) : EReal)) (fun j l => ((xi j l : ℝ) : EReal)) = fun j l => ((tr3 xr xi j l : ℝ) : EReal) := by
  unfold tr3
  rw [tr2_coe, ti2_coe, nextR_coe]

/-- The third power, imaginary plane: one more multiplication by x. -/
theorem ti3_coe : ti3 (α := EReal) (fun j l => ((xr j l : ℝ) : EReal)) (fun j l => ((xi j l : ℝ) : EReal)) = fun j l => ((ti3 xr xi j l : ℝ) : EReal) := by
  unfold ti3
  rw [tr2_coe, ti2_coe, nextI_coe]

/-- The fourth power, real plane: one more multiplication by x. -/
theorem tr4_coe : tr4 (α := EReal) (fun j l => ((xr j l : ℝ) : EReal)) (fun j l => ((xi j l : ℝ) : EReal)) = fun j l => ((tr4 xr xi j l : ℝ) : EReal) := by
  unfold tr4
  rw [tr3_coe, ti3_coe, nextR_coe]

/-- The fourth power, imaginary plane: one more multiplication by x. -/
theorem ti4_coe : ti4 (α := EReal) (fun j l => ((xr j l : ℝ) : EReal)) (fun j l => ((xi j l : ℝ) : EReal)) = fun j l => ((ti4 xr xi j l : ℝ) : EReal) := by
  unfold ti4
  rw [tr3_coe, ti3_coe, nextI_coe]

/-- The fifth power, real plane: one more multiplication by x. -/
theorem tr5_coe : tr5 (α := EReal) (fun j l => ((xr j l : ℝ) : EReal)) (fun j l => ((xi j l : ℝ) : EReal)) = fun j l => ((tr5 xr xi j l : ℝ) : EReal) := by
  unfold tr5
  rw [tr4_coe, ti4_coe, nextR_coe]

/-- The fifth power, imaginary plane: one more multiplication by x. -/
theorem ti5_coe : ti5 (α := EReal) (fun j l => ((xr j l : ℝ) : EReal)) (fun j l => ((xi j l : ℝ) : EReal)) = fun j l => ((ti5 xr xi j l : ℝ) : EReal) := by
  unfold ti5
  rw [tr4_coe, ti4_coe, nextI_coe]

/-- The sixth power, real plane: one more multiplication by x. -/
theorem tr6_coe : tr6 (α := EReal) (fun j l => ((xr j l : ℝ) : EReal)) (fun j l => ((xi j l : ℝ) : EReal)) = fun j l => ((tr6 xr xi j l : ℝ) : EReal) := by
  unfold tr6
  rw [tr5_coe, ti5_coe, nextR_coe]

/-- The sixth power, imaginary plane: one more multiplication by x. -/
theorem ti6_coe : ti6 (α := EReal) (fun j l => ((xr j l : ℝ) : EReal)) (fun j l => ((xi j l : ℝ) : EReal)) = fun j l => ((ti6 xr xi j l : ℝ) : EReal) := by
  unfold ti6
  rw [tr5_coe, ti5_coe, nextI_coe]

/-- The seventh power, real plane: one more multiplication by x. -/
theorem tr7_coe : tr7 (α := EReal) (fun j l => ((xr j l : ℝ) : EReal)) (fun j l => ((xi j l : ℝ) : EReal)) = fun j l => ((tr7 xr xi j l : ℝ) : EReal) := by
  unfold tr7
  rw [tr6_coe, ti6_coe, nextR_coe]

/-- The seventh power, imaginary plane: one more multiplication by x. -/
theorem ti7_coe : ti7 (α := EReal) (fun j l => ((xr j l : ℝ) : EReal)) (fun j l => ((xi j l : ℝ) : EReal)) = fun j l => ((ti7 xr xi j l : ℝ) : EReal) := by
  unfold ti7
  rw [tr6_coe, ti6_coe, nextI_coe]

/-- One more term on an accumulated plane: a sum and a difference with two matrix products. -/
theorem term_coe (acc tr ti a b : Fin 64 → Fin 64 → ℝ) :
    term (α := EReal) (fun j l => ((acc j l : ℝ) : EReal)) (fun j l => ((tr j l : ℝ) : EReal))
        (fun j l => ((ti j l : ℝ) : EReal)) (fun j l => ((a j l : ℝ) : EReal)) (fun j l => ((b j l : ℝ) : EReal))
      = fun j l => ((term acc tr ti a b j l : ℝ) : EReal) := by
  funext j l
  unfold term
  rw [mm_coe, mm_coe, EReal.coe_sub, EReal.coe_add]

/-- The real plane after the terms of order 0 and 1. -/
theorem rR1_coe :
    rR1 (α := EReal) (fun j l => ((xr j l : ℝ) : EReal)) (fun j l => ((xi j l : ℝ) : EReal)) (fun p j l => ((cr p j l : ℝ) : EReal)) (fun p j l => ((ci p j l : ℝ) : EReal))
      = fun j l => ((rR1 xr xi cr ci j l : ℝ) : EReal) := by
  funext j l
  unfold rR1
  rw [eye_coe, mm_coe, mm_coe, mm_coe, EReal.coe_add, EReal.coe_sub]

/-- The imaginary plane after the terms of order 0 and 1. -/
theorem rI1_coe :
    rI1 (α := EReal) (fun j l => ((xr j l : ℝ) : EReal)) (fun j l => ((xi j l : ℝ) : EReal)) (fun p j l => ((cr p j l : ℝ) : EReal)) (fun p j l => ((ci p j l : ℝ) : EReal))
      = fun j l => ((rI1 xr xi cr ci j l : ℝ) : EReal) := by
  funext j l
  unfold rI1
  rw [eye_coe, mm_coe, mm_coe, mm_coe, EReal.coe_add, EReal.coe_add]

/-- The real plane after the term of order 2. -/
theorem rR2_coe :
    rR2 (α := EReal) (fun j l => ((xr j l : ℝ) : EReal)) (fun j l => ((xi j l : ℝ) : EReal)) (fun p j l => ((cr p j l : ℝ) : EReal)) (fun p j l => ((ci p j l : ℝ) : EReal))
      = fun j l => ((rR2 xr xi cr ci j l : ℝ) : EReal) := by
  unfold rR2
  rw [rR1_coe, tr2_coe, ti2_coe, term_coe]

/-- The imaginary plane after the term of order 2. -/
theorem rI2_coe :
    rI2 (α := EReal) (fun j l => ((xr j l : ℝ) : EReal)) (fun j l => ((xi j l : ℝ) : EReal)) (fun p j l => ((cr p j l : ℝ) : EReal)) (fun p j l => ((ci p j l : ℝ) : EReal))
      = fun j l => ((rI2 xr xi cr ci j l : ℝ) : EReal) := by
  unfold rI2
  rw [rI1_coe, tr2_coe, ti2_coe, term_coe]

/-- The real plane after the term of order 3. -/
theorem rR3_coe :
    rR3 (α := EReal) (fun j l => ((xr j l : ℝ) : EReal)) (fun j l => ((xi j l : ℝ) : EReal)) (fun p j l => ((cr p j l : ℝ) : EReal)) (fun p j l => ((ci p j l : ℝ) : EReal))
      = fun j l => ((rR3 xr xi cr ci j l : ℝ) : EReal) := by
  unfold rR3
  rw [rR2_coe, tr3_coe, ti3_coe, term_coe]

/-- The imaginary plane after the term of order 3. -/
theorem rI3_coe :
    rI3 (α := EReal) (fun j l => ((xr j l : ℝ) : EReal)) (fun j l => ((xi j l : ℝ) : EReal)) (fun p j l => ((cr p j l : ℝ) : EReal)) (fun p j l => ((ci p j l : ℝ) : EReal))
      = fun j l => ((rI3 xr xi cr ci j l : ℝ) : EReal) := by
  unfold rI3
  rw [rI2_coe, tr3_coe, ti3_coe, term_coe]

/-- The real plane after the term of order 4. -/
theorem rR4_coe :
    rR4 (α := EReal) (fun j l => ((xr j l : ℝ) : EReal)) (fun j l => ((xi j l : ℝ) : EReal)) (fun p j l => ((cr p j l : ℝ) : EReal)) (fun p j l => ((ci p j l : ℝ) : EReal))
      = fun j l => ((rR4 xr xi cr ci j l : ℝ) : EReal) := by
  unfold rR4
  rw [rR3_coe, tr4_coe, ti4_coe, term_coe]

/-- The imaginary plane after the term of order 4. -/
theorem rI4_coe :
    rI4 (α := EReal) (fun j l => ((xr j l : ℝ) : EReal)) (fun j l => ((xi j l : ℝ) : EReal)) (fun p j l => ((cr p j l : ℝ) : EReal)) (fun p j l => ((ci p j l : ℝ) : EReal))
      = fun j l => ((rI4 xr xi cr ci j l : ℝ) : EReal) := by
  unfold rI4
  rw [rI3_coe, tr4_coe, ti4_coe, term_coe]

/-- The real plane after the term of order 5. -/
theorem rR5_coe :
    rR5 (α := EReal) (fun j l => ((xr j l : ℝ) : EReal)) (fun j l => ((xi j l : ℝ) : EReal)) (fun p j l => ((cr p j l : ℝ) : EReal)) (fun p j l => ((ci p j l : ℝ) : EReal))
      = fun j l => ((rR5 xr xi cr ci j l : ℝ) : EReal) := by
  unfold rR5
  rw [rR4_coe, tr5_coe, ti5_coe, term_coe]

/-- The imaginary plane after the term of order 5. -/
theorem rI5_coe :
    rI5 (α := EReal) (fun j l => ((xr j l : ℝ) : EReal)) (fun j l => ((xi j l : ℝ) : EReal)) (fun p j l => ((cr p j l : ℝ) : EReal)) (fun p j l => ((ci p j l : ℝ) : EReal))
      = fun j l => ((rI5 xr xi cr ci j l : ℝ) : EReal) := by
  unfold rI5
  rw [rI4_coe, tr5_coe, ti5_coe, term_coe]

/-- The real plane after the term of order 6. -/
theorem rR6_coe :
    rR6 (α := EReal) (fun j l => ((xr j l : ℝ) : EReal)) (fun j l => ((xi j l : ℝ) : EReal)) (fun p j l => ((cr p j l : ℝ) : EReal)) (fun p j l => ((ci p j l : ℝ) : EReal))
      = fun j l => ((rR6 xr xi cr ci j l : ℝ) : EReal) := by
  unfold rR6
  rw [rR5_coe, tr6_coe, ti6_coe, term_coe]

/-- The imaginary plane after the term of order 6. -/
theorem rI6_coe :
    rI6 (α := EReal) (fun j l => ((xr j l : ℝ) : EReal)) (fun j l => ((xi j l : ℝ) : EReal)) (fun p j l => ((cr p j l : ℝ) : EReal)) (fun p j l => ((ci p j l : ℝ) : EReal))
      = fun j l => ((rI6 xr xi cr ci j l : ℝ) : EReal) := by
  unfold rI6
  rw [rI5_coe, tr6_coe, ti6_coe, term_coe]

/-- The real plane after the term of order 7. -/
theorem rR7_coe :
    rR7 (α := EReal) (fun j l => ((xr j l : ℝ) : EReal)) (fun j l => ((xi j l : ℝ) : EReal)) (fun p j l => ((cr p j l : ℝ) : EReal)) (fun p j l => ((ci p j l : ℝ) : EReal))
      = fun j l => ((rR7 xr xi cr ci j l : ℝ) : EReal) := by
  unfold rR7
  rw [rR6_coe, tr7_coe, ti7_coe, term_coe]

/-- The imaginary plane after the term of order 7. -/
theorem rI7_coe :
    rI7 (α := EReal) (fun j l => ((xr j l : ℝ) : EReal)) (fun j l => ((xi j l : ℝ) : EReal)) (fun p j l => ((cr p j l : ℝ) : EReal)) (fun p j l => ((ci p j l : ℝ) : EReal))
      = fun j l => ((rI7 xr xi cr ci j l : ℝ) : EReal) := by
  unfold rI7
  rw [rI6_coe, tr7_coe, ti7_coe, term_coe]

/-- The two planes of the series: plane 0 the real one, plane 1 the imaginary one. -/
theorem refOut_coe :
    refOut (α := EReal) (fun j l => ((xr j l : ℝ) : EReal)) (fun j l => ((xi j l : ℝ) : EReal)) (fun p j l => ((cr p j l : ℝ) : EReal)) (fun p j l => ((ci p j l : ℝ) : EReal))
      = fun c j l => ((refOut xr xi cr ci c j l : ℝ) : EReal) := by
  funext c
  unfold refOut
  by_cases h : c.val = 0
  · rw [if_pos h, if_pos h]; exact rR7_coe xr xi cr ci
  · rw [if_neg h, if_neg h]; exact rI7_coe xr xi cr ci

end Planes

/-! ## The two forms at the extended reals -/

/-- On inputs that are real numbers, the packed form and the plane-by-plane form agree at the extended reals. -/
theorem kOut_eq_refOut (xr xi : Fin 64 → Fin 64 → ℝ) (cr ci : Fin 8 → Fin 64 → Fin 64 → ℝ) :
    kOut (α := EReal) (fun j l => ((xr j l : ℝ) : EReal)) (fun j l => ((xi j l : ℝ) : EReal))
        (packW (fun p j l => ((cr p j l : ℝ) : EReal)) (fun p j l => ((ci p j l : ℝ) : EReal)))
        (packC0 (fun p j l => ((cr p j l : ℝ) : EReal)) (fun p j l => ((ci p j l : ℝ) : EReal)))
      = refOut (α := EReal) (fun j l => ((xr j l : ℝ) : EReal)) (fun j l => ((xi j l : ℝ) : EReal))
          (fun p j l => ((cr p j l : ℝ) : EReal)) (fun p j l => ((ci p j l : ℝ) : EReal)) := by
  rw [packW_coe, packC0_coe, kOut_coe, refOut_coe, kOut_real]

end PSeries
-- ==== Proof.Finite.lean ====
/-
  Under the precondition every entry of both argument arrays is a real number.
-/
import proofs.«402419_j3925600108785_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.PS

open Idealize.ShloMosaic Cert.Pre_finite_inputs

/-- The f32 word 0x7F800000 (exponent all ones, fraction zero, sign clear) denotes +∞. -/
private theorem inf_word : Ideal.ofBits .f32 0x7F800000#32 = (⊤ : EReal) := by
  simp [Ideal.ofBits, Ideal.ieee]

/-- An extended real whose absolute value max x (−x) is strictly below +∞ is a real number:
    at ⊥ and at ⊤ the maximum is ⊤, which is not below itself. -/
private theorem real_of_abs_lt_top (x : EReal) (hx : Ideal.cmp .olt (max x (-x)) (⊤ : EReal) = 1#1) :
    ∃ r : ℝ, x = (r : EReal) := by
  induction x using EReal.rec with
  | bot => simp [Ideal.cmp] at hx
  | top => simp [Ideal.cmp] at hx
  | coe r => exact ⟨r, rfl⟩

/-- If the printed finiteness predicate is all ones on two arrays, both are arrays of real numbers. -/
theorem real_of_pre (a : FVec Ideal S2048x2x64x64 .f32) (b : FVec Ideal S8x2x64x64 .f32)
    (h : Cert.Pre_finite_inputs.fn (F := Ideal) a b = fun _ => 1#1) :
    (∃ x : S2048x2x64x64.Idx → ℝ, a = fun i => ((x i : ℝ) : EReal))
      ∧ (∃ y : S8x2x64x64.Idx → ℝ, b = fun i => ((y i : ℝ) : EReal)) := by
  -- the result shape has rank 0, hence exactly one index
  haveI : Subsingleton S_.Idx := ⟨fun a b => funext fun d => d.elim0⟩
  -- the predicate at its one index: the conjunction of the two conjunctions over all entries
  have h0 := congrFun h ValueIdx.ix0
  dsimp only [fn] at h0
  obtain ⟨h1, h2⟩ := IntOp.andi_eq_one.1 h0
  -- a conjunction over all entries that holds, holds at each entry: |a i| < +∞ and |b i| < +∞
  have ha := Host.reduce_andi_all _ _ _ _ _ h1
  have hb := Host.reduce_andi_all _ _ _ _ _ h2
  have ha' : ∀ i, ∃ r : ℝ, a i = (r : EReal) := fun i => by
    have e : Ideal.cmp .olt (max (a i : EReal) (-(a i : EReal))) (Ideal.ofBits .f32 0x7F800000#32) = 1#1 := ha i
    rw [inf_word] at e
    exact real_of_abs_lt_top _ e
  have hb' : ∀ i, ∃ r : ℝ, b i = (r : EReal) := fun i => by
    have e : Ideal.cmp .olt (max (b i : EReal) (-(b i : EReal))) (Ideal.ofBits .f32 0x7F800000#32) = 1#1 := hb i
    rw [inf_word] at e
    exact real_of_abs_lt_top _ e
  -- choose the real behind each entry
  choose x hx using ha'
  choose y hy using hb'
  exact ⟨⟨x, funext hx⟩, ⟨y, funext hy⟩⟩

end Cert.Pre_finite_inputs.PS

end
-- ==== Proof.lean ====
/-
  The two programs compute one complex power series of matrices, Σ_p x^p·c_p with the reference's sign convention on the
  imaginary plane, for each of 2048 batch elements.  The reference advances the power one complex product at a time and
  accumulates plane by plane; the kernel packs a complex 64×64 matrix as a real 64×128 row block, advances it by the real
  128×128 operator of x (re-associating the products through the operator of x²), and contracts all seven powers against the
  stacked coefficient blocks at once.  Under the precondition every input entry is a real number, every intermediate value
  is then a real number, and over the reals the two forms are equal by associativity and distributivity of the matrix
  product; the extended reals are not distributive, which is where the precondition is used.

  The three frames are the generated ones (the reference's is its run with the result dropped); the idealization rewrote
  nothing, so `preserves` is trivial; `algebraic` sets the kernel's result array, read entry by entry, beside the
  reference's.
-/
import proofs.«402419_j3925600108785_3_alg».proof.Defs
import proofs.«402419_j3925600108785_3_alg».proof.Proof.Gen.Kernel
import proofs.«402419_j3925600108785_3_alg».proof.Proof.Gen.Kernel.Skeleton
import proofs.«402419_j3925600108785_3_alg».proof.Proof.Gen.Kernel.Launch
import proofs.«402419_j3925600108785_3_alg».proof.Proof.Gen.Kernel.Points
import proofs.«402419_j3925600108785_3_alg».proof.Proof.Gen.Kernel.Frame
import proofs.«402419_j3925600108785_3_alg».proof.Proof.Gen.KernelIdeal
import proofs.«402419_j3925600108785_3_alg».proof.Proof.Gen.KernelIdeal.Skeleton
import proofs.«402419_j3925600108785_3_alg».proof.Proof.Gen.KernelIdeal.Launch
import proofs.«402419_j3925600108785_3_alg».proof.Proof.Gen.KernelIdeal.Points
import proofs.«402419_j3925600108785_3_alg».proof.Proof.Gen.KernelIdeal.Frame
import proofs.«402419_j3925600108785_3_alg».proof.Proof.Gen.ReferenceIdeal
import proofs.«402419_j3925600108785_3_alg».proof.Proof.Gen.Pre_finite_inputs
import proofs.«402419_j3925600108785_3_alg».proof.Proof.Gen.KernelIdeal.Value
import proofs.«402419_j3925600108785_3_alg».proof.Proof.RefRun
import proofs.«402419_j3925600108785_3_alg».proof.Proof.KernelValue
import proofs.«402419_j3925600108785_3_alg».proof.Proof.RefValue
import proofs.«402419_j3925600108785_3_alg».proof.Proof.Transfer
import proofs.«402419_j3925600108785_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Entry by entry: the kernel's array holds the packed series of x's batch element, the reference's the plane-by-plane
    series of the same element; the inputs are real, so the two are one number. -/
theorem algebraic : Cert.algebraic_KernelIdeal_ReferenceIdeal := by
  intro m ρ m' ρ' hpre hagree
  refine ⟨fun c => (Cert.KernelIdeal.Gen.dats m 0 c).arrAt 3 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, cc, j, l, rfl⟩ : ∃ (b : Fin 2048) (cc : Fin 2) (j l : Fin 64), i = ix4 b cc j l :=
    ⟨i 0, i 1, i 2, i 3, eq_ix4 i⟩
  -- both arrays at this entry, as the two forms of the series of the arguments' entries
  refine (Cert.ReferenceIdeal.PS.ref_apply (StableHlo.launchContents m' c) b cc j l).trans ?_
  refine Eq.trans ?_ (Cert.KernelIdeal.PS.final m c b cc j l).symm
  -- the two programs' arguments agree, and are arrays of real numbers
  obtain ⟨⟨x, hx⟩, ⟨y, hy⟩⟩ := Cert.Pre_finite_inputs.PS.real_of_pre _ _ (hpre c)
  have hX : Cert.ReferenceIdeal.PS.refX (StableHlo.launchContents m' c) = fun i => ((x i : ℝ) : EReal) :=
    ((hagree c).1).trans hx
  have hC : Cert.ReferenceIdeal.PS.refC (StableHlo.launchContents m' c) = fun i => ((y i : ℝ) : EReal) :=
    ((hagree c).2).trans hy
  have hX' : Cert.KernelIdeal.PS.argX m c = fun i => ((x i : ℝ) : EReal) := hx
  have hC' : Cert.KernelIdeal.PS.argC m c = fun i => ((y i : ℝ) : EReal) := hy
  rw [hX, hC, hX', hC']
  exact (congrFun (congrFun (congrFun (PSeries.kOut_eq_refOut
    (fun r k => x (ix4 b 0 r k)) (fun r k => x (ix4 b 1 r k))
    (fun p r k => y (ix4 p 0 r k)) (fun p r k => y (ix4 p 1 r k))) cc) j) l).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
